-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S2097152 : Shape := ⟨1, ![2097152]⟩
abbrev S20480x4 : Shape := ⟨2, ![20480, 4]⟩
abbrev S20480x128 : Shape := ⟨2, ![20480, 128]⟩
abbrev S128 : Shape := ⟨1, ![128]⟩
abbrev S4x256 : Shape := ⟨2, ![4, 256]⟩
abbrev S4 : Shape := ⟨1, ![4]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S20480x4 : S_.BroadcastsInDim S20480x4 (![] : Fin 0 → Fin S20480x4.rank)
  reducesTo_S20480x4_S_d0_1 : S20480x4.ReducesTo [0, 1] S_
  bcast_S_S20480x128 : S_.BroadcastsInDim S20480x128 (![] : Fin 0 → Fin S20480x128.rank)
  reducesTo_S20480x128_S_d0_1 : S20480x128.ReducesTo [0, 1] S_
  bcast_S_S128 : S_.BroadcastsInDim S128 (![] : Fin 0 → Fin S128.rank)
  reducesTo_S128_S_d0 : S128.ReducesTo [0] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_
  bcast_S_S2097152 : S_.BroadcastsInDim S2097152 (![] : Fin 0 → Fin S2097152.rank)
  reducesTo_S2097152_S_d0 : S2097152.ReducesTo [0] S_

variable [Facts]

def fn_part2 {F : FTy → Type} [FloatOps F] (main_arg3 : IVec S2097152 32) (main_v28 : IVec S_ 1) (main_v33 : IVec S2097152 1) : IVec S_ 1 :=
  let main_c_12 : IVec S_ 1 := constantI S_ 1 1#1
  let main_v34 : IVec S_ 1 := (fun x v => Host.reduce IntOp.andi x v reducesTo_S2097152_S_d0 h_S_) main_v33 main_c_12
  let main_v35 : IVec S_ 1 := andi main_v28 main_v34
  let main_c_13 : IVec S_ 32 := constantI S_ 32 0#32
  let main_v36 : IVec S2097152 32 := broadcastInDim S2097152 ![] bcast_S_S2097152 main_c_13
  let main_v37 : IVec S2097152 1 := cmpi .sge main_arg3 main_v36
  let main_c_14 : IVec S_ 32 := constantI S_ 32 20480#32
  let main_v38 : IVec S2097152 32 := broadcastInDim S2097152 ![] bcast_S_S2097152 main_c_14
  let main_v39 : IVec S2097152 1 := cmpi .slt main_arg3 main_v38
  let main_v40 : IVec S2097152 1 := andi main_v37 main_v39
  let main_c_15 : IVec S_ 1 := constantI S_ 1 1#1
  let main_v41 : IVec S_ 1 := (fun x v => Host.reduce IntOp.andi x v reducesTo_S2097152_S_d0 h_S_) main_v40 main_c_15
  let main_v42 : IVec S_ 1 := andi main_v35 main_v41
  main_v42

def fn_part1 {F : FTy → Type} [FloatOps F] (main_arg1 : IVec S2097152 32) (main_arg3 : IVec S2097152 32) (main_arg8 : FVec F S4x256 .f32) (main_arg9 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x256 .f32 := Host.absf main_arg8
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4 .f32 := Host.absf main_arg9
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_c_10 : IVec S_ 32 := constantI S_ 32 0#32
  let main_v29 : IVec S2097152 32 := broadcastInDim S2097152 ![] bcast_S_S2097152 main_c_10
  let main_v30 : IVec S2097152 1 := cmpi .sge main_arg1 main_v29
  let main_c_11 : IVec S_ 32 := constantI S_ 32 20480#32
  let main_v31 : IVec S2097152 32 := broadcastInDim S2097152 ![] bcast_S_S2097152 main_c_11
  let main_v32 : IVec S2097152 1 := cmpi .slt main_arg1 main_v31
  let main_v33 : IVec S2097152 1 := andi main_v30 main_v32
  fn_part2 (F := F) main_arg3 main_v28 main_v33

def fn {F : FTy → Type} [FloatOps F] (main_arg0 : IVec S65536 32) (main_arg1 : IVec S2097152 32) (main_arg2 : IVec S65536 32) (main_arg3 : IVec S2097152 32) (main_arg4 : FVec F S65536 .f32) (main_arg5 : FVec F S20480x4 .f32) (main_arg6 : FVec F S20480x128 .f32) (main_arg7 : FVec F S128 .f32) (main_arg8 : FVec F S4x256 .f32) (main_arg9 : FVec F S4 .f32) : IVec S_ 1 :=
  let main_v0 : FVec F S65536 .f32 := Host.absf main_arg4
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S20480x4 .f32 := Host.absf main_arg5
  let main_cst_0 : FVec F S_ .f32 := constant S_ .f32 0x7F800000#32
  let main_v5 : FVec F S20480x4 .f32 := broadcastInDim S20480x4 ![] bcast_S_S20480x4 main_cst_0
  let main_v6 : IVec S20480x4 1 := cmpf .olt main_v4 main_v5
  let main_c_1 : IVec S_ 1 := constantI S_ 1 1#1
  let main_v7 : IVec S_ 1 := (fun x v => Host.reduce IntOp.andi x v reducesTo_S20480x4_S_d0_1 h_S_) main_v6 main_c_1
  let main_v8 : IVec S_ 1 := andi main_v3 main_v7
  let main_v9 : FVec F S20480x128 .f32 := Host.absf main_arg6
  let main_cst_2 : FVec F S_ .f32 := constant S_ .f32 0x7F800000#32
  let main_v10 : FVec F S20480x128 .f32 := broadcastInDim S20480x128 ![] bcast_S_S20480x128 main_cst_2
  let main_v11 : IVec S20480x128 1 := cmpf .olt main_v9 main_v10
  let main_c_3 : IVec S_ 1 := constantI S_ 1 1#1
  let main_v12 : IVec S_ 1 := (fun x v => Host.reduce IntOp.andi x v reducesTo_S20480x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_arg8 main_arg9 main_v13 main_v16
-- ==== Kernel.lean ====
abbrev S65536 : Shape := ⟨1, ![65536]⟩
abbrev S2097152 : Shape := ⟨1, ![2097152]⟩
abbrev S20480x4 : Shape := ⟨2, ![20480, 4]⟩
abbrev S20480x128 : Shape := ⟨2, ![20480, 128]⟩
abbrev S128 : Shape := ⟨1, ![128]⟩
abbrev S4x256 : Shape := ⟨2, ![4, 256]⟩
abbrev S4 : Shape := ⟨1, ![4]⟩
abbrev S65536x32 : Shape := ⟨2, ![65536, 32]⟩
abbrev S65536x1 : Shape := ⟨2, ![65536, 1]⟩
abbrev S20480x132 : Shape := ⟨2, ![20480, 132]⟩
abbrev S1x128 : Shape := ⟨2, ![1, 128]⟩
abbrev S256x4 : Shape := ⟨2, ![256, 4]⟩
abbrev S1x4 : Shape := ⟨2, ![1, 4]⟩
abbrev S65536x4 : Shape := ⟨2, ![65536, 4]⟩
abbrev S256x32 : Shape := ⟨2, ![256, 32]⟩
abbrev S256x1 : Shape := ⟨2, ![256, 1]⟩
abbrev S256x132 : Shape := ⟨2, ![256, 132]⟩
abbrev S1024x132 : Shape := ⟨2, ![1024, 132]⟩
abbrev S1x1024 : Shape := ⟨2, ![1, 1024]⟩
abbrev S256x1024 : Shape := ⟨2, ![256, 1024]⟩
abbrev S256x128 : Shape := ⟨2, ![256, 128]⟩
abbrev S256x256 : Shape := ⟨2, ![256, 256]⟩

abbrev nBuf : Space → Nat
  | .hbm => 19
  | .vmem => 14
  | .smem => 0
  | _ => 0

abbrev bufTy : (tb : Table) → Fin (tcTables nBuf tb) → BufTy
  | .hbm, ⟨0, _⟩ => ⟨S65536, .i32⟩
  | .hbm, ⟨1, _⟩ => ⟨S2097152, .i32⟩
  | .hbm, ⟨2, _⟩ => ⟨S65536, .i32⟩
  | .hbm, ⟨3, _⟩ => ⟨S2097152, .i32⟩
  | .hbm, ⟨4, _⟩ => ⟨S65536, .f32⟩
  | .hbm, ⟨5, _⟩ => ⟨S20480x4, .f32⟩
  | .hbm, ⟨6, _⟩ => ⟨S20480x128, .f32⟩
  | .hbm, ⟨7, _⟩ => ⟨S128, .f32⟩
  | .hbm, ⟨8, _⟩ => ⟨S4x256, .f32⟩
  | .hbm, ⟨9, _⟩ => ⟨S4, .f32⟩
  | .hbm, ⟨10, _⟩ => ⟨S65536x32, .i32⟩
  | .hbm, ⟨11, _⟩ => ⟨S65536x32, .i32⟩
  | .hbm, ⟨12, _⟩ => ⟨S65536x1, .f32⟩
  | .hbm, ⟨13, _⟩ => ⟨S20480x132, .f32⟩
  | .hbm, ⟨14, _⟩ => ⟨S20480x132, .bf16⟩
  | .hbm, ⟨15, _⟩ => ⟨S1x128, .f32⟩
  | .hbm, ⟨16, _⟩ => ⟨S256x4, .f32⟩
  | .hbm, ⟨17, _⟩ => ⟨S1x4, .f32⟩
  | .hbm, ⟨18, _⟩ => ⟨S65536x4, .f32⟩
  | .local _ .vmem, ⟨0, _⟩ => ⟨S256x32, .i32⟩
  | .local _ .vmem, ⟨1, _⟩ => ⟨S256x32, .i32⟩
  | .local _ .vmem, ⟨2, _⟩ => ⟨S256x32, .i32⟩
  | .local _ .vmem, ⟨3, _⟩ => ⟨S256x32, .i32⟩
  | .local _ .vmem, ⟨4, _⟩ => ⟨S256x1, .f32⟩
  | .local _ .vmem, ⟨5, _⟩ => ⟨S256x1, .f32⟩
  | .local _ .vmem, ⟨6, _⟩ => ⟨S20480x132, .bf16⟩
  | .local _ .vmem, ⟨7, _⟩ => ⟨S1x128, .f32⟩
  | .local _ .vmem, ⟨8, _⟩ => ⟨S256x4, .f32⟩
  | .local _ .vmem, ⟨9, _⟩ => ⟨S1x4, .f32⟩
  | .local _ .vmem, ⟨10, _⟩ => ⟨S256x4, .f32⟩
  | .local _ .vmem, ⟨11, _⟩ => ⟨S256x4, .f32⟩
  | .local _ .vmem, ⟨12, _⟩ => ⟨S256x132, .f32⟩
  | .local _ .vmem, ⟨13, _⟩ => ⟨S256x132, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c20_i32 : BitVec 32 := 20#32
  let v12 : BitVec 32 := Scalar.addi c0_i32 c20_i32
  let c1_i32 : BitVec 32 := 1#32
  ⟨c0_i32, v12, c1_i32⟩
def k0_mult1 (k0_t1 : Fin k0_t1_loop.trips) : BitVec 32 :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v64 : BitVec 32 := Scalar.muli arg11 c1_i32_33
  let v65 : BitVec 32 := Scalar.addi c0_i32_34 v64
  let c1024_i32 : BitVec 32 := 1024#32
  let v66 : BitVec 32 := Scalar.muli v65 c1024_i32
  v66
def k0_off1 (k0_t1 : Fin k0_t1_loop.trips) : Fin 2 → Nat :=
  let c0_i32_34 : BitVec 32 := 0#32
  let c0_i32 : BitVec 32 := 0#32
  let c1_i32 : BitVec 32 := 1#32
  let arg11 : BitVec 32 := Scf.iv c0_i32 c1_i32 k0_t1
  let c1_i32_33 : BitVec 32 := 1#32
  let v64 : BitVec 32 := Scalar.muli arg11 c1_i32_33
  let v65 : BitVec 32 := Scalar.addi c0_i32_34 v64
  let c1024_i32 : BitVec 32 := 1024#32
  let v66 : BitVec 32 := Scalar.muli v65 c1024_i32
  let v67 : BitVec 32 := v66
  let v68 : Index := Scalar.indexCast v67
  let c0_35 : Index := 0#32
  ![v68.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20480x132 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2097152_S65536x32 : S2097152.ShapeCasts S65536x32
  shapeCasts_S65536_S65536x1 : S65536.ShapeCasts S65536x1
  concatenates_S20480x128_S20480x4_S20480x132_d1 : Shape.Concatenates [S20480x128, S20480x4] S20480x132 1
  bitsLt_bf16_f32 : FTy.bits .bf16 < FTy.bits .f32
  shapeCasts_S128_S1x128 : S128.ShapeCasts S1x128
  transposes_S4x256_S256x4_1_0 : S4x256.Transposes [1, 0] S256x4
  shapeCasts_S4_S1x4 : S4.ShapeCasts S1x4
  inb_S256x132_S256x132_0_0 : ∀ a, (![0, 0] : Fin 2 → Nat) a + S256x132.size a ≤ S256x132.size a
  h_S256x132 : 0 < S256x132.numel
  shapeCasts_S256x132_S256x132 : S256x132.ShapeCasts S256x132
  inb_S256x32_S256x32_0_0 : ∀ a, (![0, 0] : Fin 2 → Nat) a + S256x32.size a ≤ S256x32.size a
  h_S256x32 : 0 < S256x32.numel
  shapeCasts_S256x32_S256x32 : S256x32.ShapeCasts S256x32
  h_S1024x132 : 0 < S1024x132.numel
  shapeCasts_S1024x132_S1024x132 : S1024x132.ShapeCasts S1024x132
  iota_S1x1024_d1_w32 : S1x1024.Iotas .tc 32 [1]
  slices_S256x32_o0_0_S256x1 : S256x32.Slices ![0, 0] S256x1
  broadcasts_S256x1_S256x1024 : S256x1.Broadcasts S256x1024
  broadcasts_S1x1024_S256x1024 : S1x1024.Broadcasts S256x1024
  natLt_1_32 : 1 < 32
  slices_S256x32_o0_1_S256x1 : S256x32.Slices ![0, 1] S256x1
  slices_S256x32_o0_2_S256x1 : S256x32.Slices ![0, 2] S256x1
  slices_S256x32_o0_3_S256x1 : S256x32.Slices ![0, 3] S256x1
  slices_S256x32_o0_4_S256x1 : S256x32.Slices ![0, 4] S256x1
  slices_S256x32_o0_5_S256x1 : S256x32.Slices ![0, 5] S256x1
  slices_S256x32_o0_6_S256x1 : S256x32.Slices ![0, 6] S256x1
  slices_S256x32_o0_7_S256x1 : S256x32.Slices ![0, 7] S256x1
  slices_S256x32_o0_8_S256x1 : S256x32.Slices ![0, 8] S256x1
  slices_S256x32_o0_9_S256x1 : S256x32.Slices ![0, 9] S256x1
  slices_S256x32_o0_10_S256x1 : S256x32.Slices ![0, 10] S256x1
  slices_S256x32_o0_11_S256x1 : S256x32.Slices ![0, 11] S256x1
  slices_S256x32_o0_12_S256x1 : S256x32.Slices ![0, 12] S256x1
  slices_S256x32_o0_13_S256x1 : S256x32.Slices ![0, 13] S256x1
  slices_S256x32_o0_14_S256x1 : S256x32.Slices ![0, 14] S256x1
  slices_S256x32_o0_15_S256x1 : S256x32.Slices ![0, 15] S256x1
  slices_S256x32_o0_16_S256x1 : S256x32.Slices ![0, 16] S256x1
  slices_S256x32_o0_17_S256x1 : S256x32.Slices ![0, 17] S256x1
  slices_S256x32_o0_18_S256x1 : S256x32.Slices ![0, 18] S256x1
  slices_S256x32_o0_19_S256x1 : S256x32.Slices ![0, 19] S256x1
  slices_S256x32_o0_20_S256x1 : S256x32.Slices ![0, 20] S256x1
  slices_S256x32_o0_21_S256x1 : S256x32.Slices ![0, 21] S256x1
  slices_S256x32_o0_22_S256x1 : S256x32.Slices ![0, 22] S256x1
  slices_S256x32_o0_23_S256x1 : S256x32.Slices ![0, 23] S256x1
  slices_S256x32_o0_24_S256x1 : S256x32.Slices ![0, 24] S256x1
  slices_S256x32_o0_25_S256x1 : S256x32.Slices ![0, 25] S256x1
  slices_S256x32_o0_26_S256x1 : S256x32.Slices ![0, 26] S256x1
  slices_S256x32_o0_27_S256x1 : S256x32.Slices ![0, 27] S256x1
  slices_S256x32_o0_28_S256x1 : S256x32.Slices ![0, 28] S256x1
  slices_S256x32_o0_29_S256x1 : S256x32.Slices ![0, 29] S256x1
  slices_S256x32_o0_30_S256x1 : S256x32.Slices ![0, 30] S256x1
  slices_S256x32_o0_31_S256x1 : S256x32.Slices ![0, 31] S256x1
  slices_S256x132_o0_0_S256x128 : S256x132.Slices ![0, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S256x132_o0_128_S256x4 : S256x132.Slices ![0, 128] S256x4
  concatenates_S256x128_S256x128_S256x256_d1 : Shape.Concatenates [S256x128, S256x128] S256x256 1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S256x4 : S1x4.Broadcasts S256x4
  broadcasts_S256x1_S256x4 : S256x1.Broadcasts S256x4
  dot_S256x1024_S1024x132_S256x132_1_0_0_1_n_n_wf : DotDims.WF S256x1024 S1024x132 S256x132 [1] [0] [0] [1] [] []
  dot_S256x256_S256x4_S256x4_1_0_0_1_n_n_wf : DotDims.WF S256x256 S256x4 S256x4 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x132.size a ≤ S20480x132.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S65536x32.size a
  hwx0_0 : ∀ i : grid0.Coords, EltTy.bits .i32 = 32 ∨ (Rect.block (s := S65536x32) S256x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S65536x32.size a
  hwx0_1 : ∀ i : grid0.Coords, EltTy.bits .i32 = 32 ∨ (Rect.block (s := S65536x32) S256x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S65536x1.size a
  hwx0_2 : ∀ i : grid0.Coords, EltTy.bits .f32 = 32 ∨ (Rect.block (s := S65536x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20480x132.size a ≤ S20480x132.size a
  hwx0_3 : ∀ i : grid0.Coords, EltTy.bits .bf16 = 32 ∨ (Rect.block (s := S20480x132) S20480x132.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x4.size a ≤ S256x4.size a
  hwx0_5 : ∀ i : grid0.Coords, EltTy.bits .f32 = 32 ∨ (Rect.block (s := S256x4) S256x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4.size a ≤ S65536x4.size a
  hwx0_7 : ∀ i : grid0.Coords, EltTy.bits .f32 = 32 ∨ (Rect.block (s := S65536x4) S256x4.size (cc0_transform_7 i) (hinb0_7 i)).WholeWords (EltTy.packing .f32)

variable [Facts₀]

def dot_S256x1024_S1024x132_S256x132_1_0_0_1_n_n : DotDims S256x1024 S1024x132 S256x132 where
  lhsContracting := [1]
  rhsContracting := [0]
  lhsNonContracting := [0]
  rhsNonContracting := [1]
  lhsBatch := []
  rhsBatch := []
  wf := dot_S256x1024_S1024x132_S256x132_1_0_0_1_n_n_wf
def dot_S256x256_S256x4_S256x4_1_0_0_1_n_n : DotDims S256x256 S256x4 S256x4 where
  lhsContracting := [1]
  rhsContracting := [0]
  lhsNonContracting := [0]
  rhsNonContracting := [1]
  lhsBatch := []
  rhsBatch := []
  wf := dot_S256x256_S256x4_S256x4_1_0_0_1_n_n_wf

abbrev win0_0 : Pipeline.Window sig grid0 :=
  Pipeline.Window.ofSpec (Memref.whole main_v0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S20480x132.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536 : Shape := ⟨1, ![65536]⟩
abbrev S2097152 : Shape := ⟨1, ![2097152]⟩
abbrev S20480x4 : Shape := ⟨2, ![20480, 4]⟩
abbrev S20480x128 : Shape := ⟨2, ![20480, 128]⟩
abbrev S128 : Shape := ⟨1, ![128]⟩
abbrev S4x256 : Shape := ⟨2, ![4, 256]⟩
abbrev S4 : Shape := ⟨1, ![4]⟩
abbrev S65536x1 : Shape := ⟨2, ![65536, 1]⟩
abbrev S65536x32 : Shape := ⟨2, ![65536, 32]⟩
abbrev S_ : Shape := ⟨0, ![]⟩
abbrev S65536x32x1 : Shape := ⟨3, ![65536, 32, 1]⟩
abbrev S1 : Shape := ⟨1, ![1]⟩
abbrev S1x1x1 : Shape := ⟨3, ![1, 1, 1]⟩
abbrev S65536x32x4 : Shape := ⟨3, ![65536, 32, 4]⟩
abbrev S65536x4 : Shape := ⟨2, ![65536, 4]⟩
abbrev S65536x32x128 : Shape := ⟨3, ![65536, 32, 128]⟩
abbrev S65536x128 : Shape := ⟨2, ![65536, 128]⟩
abbrev S1x128 : Shape := ⟨2, ![1, 128]⟩
abbrev S65536x256 : Shape := ⟨2, ![65536, 256]⟩
abbrev S256x4 : Shape := ⟨2, ![256, 4]⟩
abbrev S1x4 : Shape := ⟨2, ![1, 4]⟩

abbrev nBuf : Space → Nat
  | .hbm => 163
  | .vmem => 0
  | .smem => 0
  | _ => 0

abbrev hbmTy0_0 (i : Nat) : BufTy := match i % 128 with
  | 0 => ⟨S65536, .i32⟩
  | 1 => ⟨S2097152, .i32⟩
  | 2 => ⟨S65536, .i32⟩
  | 3 => ⟨S2097152, .i32⟩
  | 4 => ⟨S65536, .f32⟩
  | 5 => ⟨S20480x4, .f32⟩
  | 6 => ⟨S20480x128, .f32⟩
  | 7 => ⟨S128, .f32⟩
  | 8 => ⟨S4x256, .f32⟩
  | 9 => ⟨S4, .f32⟩
  | 10 => ⟨S65536x1, .f32⟩
  | 11 => ⟨S65536x32, .i32⟩
  | 12 => ⟨S_, .i32⟩
  | 13 => ⟨S65536x32, .i32⟩
  | 14 => ⟨S65536x32, .i1⟩
  | 15 => ⟨S_, .i32⟩
  | 16 => ⟨S65536x32, .i32⟩
  | 17 => ⟨S65536x32, .i32⟩
  | 18 => ⟨S65536x32, .i32⟩
  | 19 => ⟨S65536x32x1, .i32⟩
  | 20 => ⟨S1, .i32⟩
  | 21 => ⟨S_, .i32⟩
  | 22 => ⟨S65536x32x1, .i32⟩
  | 23 => ⟨S65536x32x1, .i1⟩
  | 24 => ⟨S1x1x1, .i32⟩
  | 25 => ⟨S65536x32x1, .i32⟩
  | 26 => ⟨S65536x32x1, .i1⟩
  | 27 => ⟨S65536x32x1, .i1⟩
  | 28 => ⟨S_, .i1⟩
  | 29 => ⟨S65536x32, .i1⟩
  | 30 => ⟨S65536x32x4, .f32⟩
  | 31 => ⟨S65536x32x4, .i1⟩
  | 32 => ⟨S_, .f32⟩
  | 33 => ⟨S65536x32x4, .f32⟩
  | 34 => ⟨S65536x32x4, .f32⟩
  | 35 => ⟨S_, .f32⟩
  | 36 => ⟨S65536x4, .f32⟩
  | 37 => ⟨S65536x32, .i32⟩
  | 38 => ⟨S_, .i32⟩
  | 39 => ⟨S65536x32, .i32⟩
  | 40 => ⟨S65536x32, .i1⟩
  | 41 => ⟨S_, .i32⟩
  | 42 => ⟨S65536x32, .i32⟩
  | 43 => ⟨S65536x32, .i32⟩
  | 44 => ⟨S65536x32, .i32⟩
  | 45 => ⟨S65536x32x1, .i32⟩
  | 46 => ⟨S1, .i32⟩
  | 47 => ⟨S_, .i32⟩
  | 48 => ⟨S65536x32x1, .i32⟩
  | 49 => ⟨S65536x32x1, .i1⟩
  | 50 => ⟨S1x1x1, .i32⟩
  | 51 => ⟨S65536x32x1, .i32⟩
  | 52 => ⟨S65536x32x1, .i1⟩
  | 53 => ⟨S65536x32x1, .i1⟩
  | 54 => ⟨S_, .i1⟩
  | 55 => ⟨S65536x32, .i1⟩
  | 56 => ⟨S65536x32x4, .f32⟩
  | 57 => ⟨S65536x32x4, .i1⟩
  | 58 => ⟨S_, .f32⟩
  | 59 => ⟨S65536x32x4, .f32⟩
  | 60 => ⟨S65536x32x4, .f32⟩
  | 61 => ⟨S_, .f32⟩
  | 62 => ⟨S65536x4, .f32⟩
  | 63 => ⟨S65536x4, .f32⟩
  | 64 => ⟨S65536x32, .i32⟩
  | 65 => ⟨S_, .i32⟩
  | 66 => ⟨S65536x32, .i32⟩
  | 67 => ⟨S65536x32, .i1⟩
  | 68 => ⟨S_, .i32⟩
  | 69 => ⟨S65536x32, .i32⟩
  | 70 => ⟨S65536x32, .i32⟩
  | 71 => ⟨S65536x32, .i32⟩
  | 72 => ⟨S65536x32x1, .i32⟩
  | 73 => ⟨S1, .i32⟩
  | 74 => ⟨S_, .i32⟩
  | 75 => ⟨S65536x32x1, .i32⟩
  | 76 => ⟨S65536x32x1, .i1⟩
  | 77 => ⟨S1x1x1, .i32⟩
  | 78 => ⟨S65536x32x1, .i32⟩
  | 79 => ⟨S65536x32x1, .i1⟩
  | 80 => ⟨S65536x32x1, .i1⟩
  | 81 => ⟨S_, .i1⟩
  | 82 => ⟨S65536x32, .i1⟩
  | 83 => ⟨S65536x32x128, .f32⟩
  | 84 => ⟨S65536x32x128, .i1⟩
  | 85 => ⟨S_, .f32⟩
  | 86 => ⟨S65536x32x128, .f32⟩
  | 87 => ⟨S65536x32x128, .f32⟩
  | 88 => ⟨S_, .f32⟩
  | 89 => ⟨S65536x128, .f32⟩
  | 90 => ⟨S1x128, .f32⟩
  | 91 => ⟨S65536x128, .f32⟩
  | 92 => ⟨S65536x128, .f32⟩
  | 93 => ⟨S_, .f32⟩
  | 94 => ⟨S_, .f32⟩
  | 95 => ⟨S_, .f32⟩
  | 96 => ⟨S65536x128, .f32⟩
  | 97 => ⟨S65536x128, .f32⟩
  | 98 => ⟨S_, .f32⟩
  | 99 => ⟨S65536x128, .f32⟩
  | 100 => ⟨S65536x128, .f32⟩
  | 101 => ⟨S65536x32, .i32⟩
  | 102 => ⟨S_, .i32⟩
  | 103 => ⟨S65536x32, .i32⟩
  | 104 => ⟨S65536x32, .i1⟩
  | 105 => ⟨S_, .i32⟩
  | 106 => ⟨S65536x32, .i32⟩
  | 107 => ⟨S65536x32, .i32⟩
  | 108 => ⟨S65536x32, .i32⟩
  | 109 => ⟨S65536x32x1, .i32⟩
  | 110 => ⟨S1, .i32⟩
  | 111 => ⟨S_, .i32⟩
  | 112 => ⟨S65536x32x1, .i32⟩
  | 113 => ⟨S65536x32x1, .i1⟩
  | 114 => ⟨S1x1x1, .i32⟩
  | 115 => ⟨S65536x32x1, .i32⟩
  | 116 => ⟨S65536x32x1, .i1⟩
  | 117 => ⟨S65536x32x1, .i1⟩
  | 118 => ⟨S_, .i1⟩
  | 119 => ⟨S65536x32, .i1⟩
  | 120 => ⟨S65536x32x128, .f32⟩
  | 121 => ⟨S65536x32x128, .i1⟩
  | 122 => ⟨S_, .f32⟩
  | 123 => ⟨S65536x32x128, .f32⟩
  | 124 => ⟨S65536x32x128, .f32⟩
  | 125 => ⟨S_, .f32⟩
  | 126 => ⟨S65536x128, .f32⟩
  | 127 => ⟨S1x128, .f32⟩
  | _ => ⟨S65536, .i32⟩

abbrev hbmTy0_1 (i : Nat) : BufTy := match i % 128 with
  | 0 => ⟨S65536x128, .f32⟩
  | 1 => ⟨S65536x128, .f32⟩
  | 2 => ⟨S_, .f32⟩
  | 3 => ⟨S_, .f32⟩
  | 4 => ⟨S_, .f32⟩
  | 5 => ⟨S65536x128, .f32⟩
  | 6 => ⟨S65536x128, .f32⟩
  | 7 => ⟨S_, .f32⟩
  | 8 => ⟨S65536x128, .f32⟩
  | 9 => ⟨S65536x128, .f32⟩
  | 10 => ⟨S65536x256, .f32⟩
  | 11 => ⟨S65536x256, .f32⟩
  | 12 => ⟨S_, .f32⟩
  | 13 => ⟨S65536x1, .f32⟩
  | 14 => ⟨S65536x1, .f32⟩
  | 15 => ⟨S65536x256, .f32⟩
  | 16 => ⟨S65536x256, .f32⟩
  | 17 => ⟨S65536x256, .f32⟩
  | 18 => ⟨S65536x256, .f32⟩
  | 19 => ⟨S65536x256, .f32⟩
  | 20 => ⟨S256x4, .f32⟩
  | 21 => ⟨S65536x4, .f32⟩
  | 22 => ⟨S1x4, .f32⟩
  | 23 => ⟨S65536x4, .f32⟩
  | 24 => ⟨S65536x4, .f32⟩
  | 25 => ⟨S_, .f32⟩
  | 26 => ⟨S65536x1, .f32⟩
  | 27 => ⟨S65536x1, .f32⟩
  | 28 => ⟨S65536x4, .f32⟩
  | 29 => ⟨S65536x4, .f32⟩
  | 30 => ⟨S65536x4, .f32⟩
  | 31 => ⟨S65536x4, .f32⟩
  | 32 => ⟨S65536x4, .f32⟩
  | 33 => ⟨S65536x4, .f32⟩
  | 34 => ⟨S65536x4, .f32⟩
  | _ => ⟨S65536, .i32⟩

abbrev hbmTy (i : Nat) : BufTy := match i / 128 with
  | 0 => hbmTy0_0 i
  | 1 => hbmTy0_1 i
  | _ => ⟨S65536, .i32⟩

abbrev bufTy : (tb : Table) → Fin (tcTables nBuf tb) → BufTy
  | .hbm, ⟨i, _⟩ => hbmTy i
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_cst : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_cst_0 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v9 : Ref sig .tc := ⟨.hbm, 87, rfl⟩
abbrev main_cst_1 : Ref sig .tc := ⟨.hbm, 88, rfl⟩
abbrev main_v10 : Ref sig .tc := ⟨.hbm, 89, rfl⟩
abbrev main_v11 : Ref sig .tc := ⟨.hbm, 90, rfl⟩
abbrev main_v12 : Ref sig .tc := ⟨.hbm, 91, rfl⟩
abbrev main_v13 : Ref sig .tc := ⟨.hbm, 92, rfl⟩
abbrev main_cst_2 : Ref sig .tc := ⟨.hbm, 93, rfl⟩
abbrev main_cst_3 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v14 : Ref sig .tc := ⟨.hbm, 100, rfl⟩
abbrev main_v15 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_call4_cst : Ref sig .tc := ⟨.hbm, 122, rfl⟩
abbrev main_call4_v15 : Ref sig .tc := ⟨.hbm, 123, rfl⟩
abbrev main_v16 : Ref sig .tc := ⟨.hbm, 124, rfl⟩
abbrev main_cst_4 : Ref sig .tc := ⟨.hbm, 125, rfl⟩
abbrev main_v17 : Ref sig .tc := ⟨.hbm, 126, rfl⟩
abbrev main_v18 : Ref sig .tc := ⟨.hbm, 127, rfl⟩
abbrev main_v19 : Ref sig .tc := ⟨.hbm, 128, rfl⟩
abbrev main_v20 : Ref sig .tc := ⟨.hbm, 129, rfl⟩
abbrev main_cst_5 : Ref sig .tc := ⟨.hbm, 130, rfl⟩
abbrev main_cst_6 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v21 : Ref sig .tc := ⟨.hbm, 137, rfl⟩
abbrev main_v22 : Ref sig .tc := ⟨.hbm, 138, rfl⟩
abbrev main_v23 : Ref sig .tc := ⟨.hbm, 139, rfl⟩
abbrev main_cst_7 : Ref sig .tc := ⟨.hbm, 140, rfl⟩
abbrev main_v24 : Ref sig .tc := ⟨.hbm, 141, rfl⟩
abbrev main_v25 : Ref sig .tc := ⟨.hbm, 142, rfl⟩
abbrev main_v26 : Ref sig .tc := ⟨.hbm, 143, rfl⟩
abbrev main_v27 : Ref sig .tc := ⟨.hbm, 144, rfl⟩
abbrev main_v28 : Ref sig .tc := ⟨.hbm, 145, rfl⟩
abbrev main_v29 : Ref sig .tc := ⟨.hbm, 146, rfl⟩
abbrev main_v30 : Ref sig .tc := ⟨.hbm, 147, rfl⟩
abbrev main_v31 : Ref sig .tc := ⟨.hbm, 148, rfl⟩
abbrev main_v32 : Ref sig .tc := ⟨.hbm, 149, rfl⟩
abbrev main_v33 : Ref sig .tc := ⟨.hbm, 150, rfl⟩
abbrev main_v34 : Ref sig .tc := ⟨.hbm, 151, rfl⟩
abbrev main_v35 : Ref sig .tc := ⟨.hbm, 152, rfl⟩
abbrev main_cst_8 : Ref sig .tc := ⟨.hbm, 153, rfl⟩
abbrev main_v36 : Ref sig .tc := ⟨.hbm, 154, rfl⟩
abbrev main_v37 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  shapeCasts_S2097152_S65536x32 : S2097152.ShapeCasts S65536x32
  bcast_S_S65536x32 : S_.BroadcastsInDim S65536x32 (![] : Fin 0 → Fin S65536x32.rank)
  bcast_S65536x32_S65536x32x1_0_1 : S65536x32.BroadcastsInDim S65536x32x1 (![0, 1] : Fin 2 → Fin S65536x32x1.rank)
  bcast_S_S65536x32x1 : S_.BroadcastsInDim S65536x32x1 (![] : Fin 0 → Fin S65536x32x1.rank)
  bcast_S1_S1x1x1_2 : S1.BroadcastsInDim S1x1x1 (![2] : Fin 1 → Fin S1x1x1.rank)
  bcast_S1x1x1_S65536x32x1_0_1_2 : S1x1x1.BroadcastsInDim S65536x32x1 (![0, 1, 2] : Fin 3 → Fin S65536x32x1.rank)
  reducesTo_S65536x32x1_S65536x32_d2 : S65536x32x1.ReducesTo [2] S65536x32
  h_S_ : 0 < S_.numel
  bcast_S65536x32_S65536x32x4_0_1 : S65536x32.BroadcastsInDim S65536x32x4 (![0, 1] : Fin 2 → Fin S65536x32x4.rank)
  bcast_S_S65536x32x4 : S_.BroadcastsInDim S65536x32x4 (![] : Fin 0 → Fin S65536x32x4.rank)
  reducesTo_S65536x32x4_S65536x4_d1 : S65536x32x4.ReducesTo [1] S65536x4
  bcast_S65536x32_S65536x32x128_0_1 : S65536x32.BroadcastsInDim S65536x32x128 (![0, 1] : Fin 2 → Fin S65536x32x128.rank)
  bcast_S_S65536x32x128 : S_.BroadcastsInDim S65536x32x128 (![] : Fin 0 → Fin S65536x32x128.rank)
  reducesTo_S65536x32x128_S65536x128_d1 : S65536x32x128.ReducesTo [1] S65536x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  concatenates_S65536x128_S65536x128_S65536x256_d1 : Shape.Concatenates [S65536x128, S65536x128] S65536x256 1
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  transposes_S4x256_S256x4_1_0 : S4x256.Transposes [1, 0] S256x4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S65536x1_S65536x4_0_1 : S65536x1.BroadcastsInDim S65536x4 (![0, 1] : Fin 2 → Fin S65536x4.rank)
  gather_S20480x4_S65536x32x1_S65536x32x4_2_0_n_n_0_2_14_wf : GatherDims.WF S20480x4 S65536x32x1 S65536x32x4 [2] [0] [] [0] [] 2 ![1, 4]
  gather_S20480x128_S65536x32x1_S65536x32x128_2_0_n_n_0_2_1128_wf : GatherDims.WF S20480x128 S65536x32x1 S65536x32x128 [2] [0] [] [0] [] 2 ![1, 128]
  dot_S65536x256_S256x4_S65536x4_1_0_0_1_n_n_wf : DotDims.WF S65536x256 S256x4 S65536x4 [1] [0] [0] [1] [] []

variable [Facts₀]

def gather_S20480x4_S65536x32x1_S65536x32x4_2_0_n_n_0_2_14 : GatherDims S20480x4 S65536x32x1 S65536x32x4 where
  offsetDims := [2]
  collapsedSliceDims := [0]
  operandBatchingDims := []
  startIndicesBatchingDims := []
  startIndexMap := [0]
  indexVectorDim := 2
  sliceSizes := ![1, 4]
  wf := gather_S20480x4_S65536x32x1_S65536x32x4_2_0_n_n_0_2_14_wf
def gather_S20480x128_S65536x32x1_S65536x32x128_2_0_n_n_0_2_1128 : GatherDims S20480x128 S65536x32x1 S65536x32x128 where
  offsetDims := [2]
  collapsedSliceDims := [0]
  operandBatchingDims := []
  startIndicesBatchingDims := []
  startIndexMap := [0]
  indexVectorDim := 2
  sliceSizes := ![1, 128]
  wf := gather_S20480x128_S65536x32x1_S65536x32x128_2_0_n_n_0_2_1128_wf
def dot_S65536x256_S256x4_S65536x4_1_0_0_1_n_n : DotDims S65536x256 S256x4 S65536x4 where
  lhsContracting := [1]
  rhsContracting := [0]
  lhsNonContracting := [0]
  rhsNonContracting := [1]
  lhsBatch := []
  rhsBatch := []
  wf := dot_S65536x256_S256x4_S65536x4_1_0_0_1_n_n_wf

class Facts : Prop extends Facts₀ where

variable [Facts]
-- ==== Proof.Spec.lean ====
/-
  The function both programs compute, index by index, over the extended reals.

  A position `b` (one of 65536) carries two bags of 32 feature indices each, the white one and the black one,
  stored flat: index `l` of bag `b` is word `32 b + l` of the index array.  A bag's sum over a table `T` is the sum
  of the 32 rows of `T` its words select.  From the two bags:

    psqt b j      = bag(psqt_w, white) b j - bag(psqt_w, black) b j
    white b d     = clip01 (bag(acc_w, white) b d + bias d),   black likewise
    wacc b        = white b ++ black b,   bacc b = black b ++ white b          (256 entries each)
    blended b k   = (1 - s b) * wacc b k + s b * bacc b k
    pos b j       = (sum over k of blended b k * layer_w j k) + layer_b j
    out b j       = psqt b j + ((1 - s b) * pos b j + s b * (-(pos b j)))

  The other program spells the last line `psqt b j + (1 - 2 * s b) * pos b j` and computes a bag's sum as a
  product with a count matrix: for each feature `f` the number of the bag's words equal to `f`, times row `f` of
  the table, summed over the features in 20 chunks of 1024.
-/
import Idealize.ShloMosaic.PureOps.Ideal
import Idealize.ShloMosaic.Lib.ValueIdx
import Mathlib.Data.EReal.Basic
import Mathlib.Algebra.BigOperators.Fin

noncomputable section

namespace Cert.Spec

open Idealize.ShloMosaic Idealize.ShloMosaic.ValueIdx

/-- A flat array of 65536 bags of 32 index words. -/
abbrev Cols := IVec (⟨1, ![2097152]⟩ : Shape) 32
/-- A table of 20480 rows of width `d`. -/
abbrev Tab (d : Nat) := FVec Ideal (⟨2, ![20480, d]⟩ : Shape) .f32

/-- An extended real that is a real number. -/
def IsFin (x : EReal) : Prop := x ≠ ⊥ ∧ x ≠ ⊤

/-- The flat position of word `l` of bag `b`. -/
def pos (b : Fin 65536) (l : Fin 32) : Fin 2097152 := ⟨b.val * 32 + l.val, by omega⟩

/-- Word `l` of bag `b`. -/
def word (cols : Cols) (b : Fin 65536) (l : Fin 32) : BitVec 32 := cols (ix1 (pos b l))

/-- The table row that word selects (a word below 20480 selects the row of its own number). -/
def row (cols : Cols) (b : Fin 65536) (l : Fin 32) : Fin 20480 :=
  ⟨(word cols b l).toNat % 20480, Nat.mod_lt _ (by norm_num)⟩

/-- A bag's sum: the 32 selected rows of the table, added up. -/
def bag {d : Nat} (T : Tab d) (cols : Cols) (b : Fin 65536) (j : Fin d) : EReal :=
  ∑ l : Fin 32, T (ix2 (row cols b l) j)

/-- Clipping to the unit interval. -/
def clip01 (x : EReal) : EReal := min 1 (max 0 x)

/-- Feature number `1024 c + q`. -/
def feat (c : Fin 20) (q : Fin 1024) : Fin 20480 := ⟨c.val * 1024 + q.val, by omega⟩

/-- How many of the 32 words `w` equal feature `f`, as an extended real. -/
def count (w : Fin 32 → BitVec 32) (f : Fin 20480) : EReal :=
  ∑ l : Fin 32, if w l = BitVec.ofNat 32 f.val then (1 : EReal) else 0

/-- A bag's sum as a count matrix times the table, the features taken in 20 chunks of 1024. -/
def bagCount {d : Nat} (T : Fin 20480 → Fin d → EReal) (w : Fin 32 → BitVec 32) (j : Fin d) : EReal :=
  ∑ c : Fin 20, ∑ q : Fin 1024, count w (feat c q) * T (feat c q) j

section
variable (wc bc : Cols) (s : FVec Ideal (⟨1, ![65536]⟩ : Shape) .f32) (pw : Tab 4) (aw : Tab 128)
  (ab : FVec Ideal (⟨1, ![128]⟩ : Shape) .f32) (lw : FVec Ideal (⟨2, ![4, 256]⟩ : Shape) .f32)
  (lb : FVec Ideal (⟨1, ![4]⟩ : Shape) .f32)

def psqt (b : Fin 65536) (j : Fin 4) : EReal := bag pw wc b j - bag pw bc b j
def white (b : Fin 65536) (d : Fin 128) : EReal := clip01 (bag aw wc b d + ab (ix1 d))
def black (b : Fin 65536) (d : Fin 128) : EReal := clip01 (bag aw bc b d + ab (ix1 d))
/-- white ++ black. -/
def wacc (b : Fin 65536) (k : Fin 256) : EReal :=
  if h : k.val < 128 then white wc aw ab b ⟨k.val, h⟩ else black bc aw ab b ⟨k.val - 128, by omega⟩
/-- black ++ white. -/
def bacc (b : Fin 65536) (k : Fin 256) : EReal :=
  if h : k.val < 128 then black bc aw ab b ⟨k.val, h⟩ else white wc aw ab b ⟨k.val - 128, by omega⟩
def blended (b : Fin 65536) (k : Fin 256) : EReal :=
  (1 - s (ix1 b)) * wacc wc bc aw ab b k + s (ix1 b) * bacc wc bc aw ab b k
def positional (b : Fin 65536) (j : Fin 4) : EReal :=
  (∑ k : Fin 256, blended wc bc s aw ab b k * lw (ix2 j k)) + lb (ix1 j)
/-- The result, as the reference spells its last line. -/
def outRef (b : Fin 65536) (j : Fin 4) : EReal :=
  psqt wc bc pw b j + ((1 - s (ix1 b)) * positional wc bc s aw ab lw lb b j + s (ix1 b) * (-(positional wc bc s aw ab lw lb b j)))
/-- The result, as the kernel spells its last line. -/
def outKer (b : Fin 65536) (j : Fin 4) : EReal :=
  psqt wc bc pw b j + (1 - 2 * s (ix1 b)) * positional wc bc s aw ab lw lb b j
/-- The result array. -/
def out : FVec Ideal (⟨2, ![65536, 4]⟩ : Shape) .f32 := fun i => outRef wc bc s pw aw ab lw lb (i 0) (i 1)
end

/-! ## One grid point of the kernel, over its input blocks

A grid point handles 256 consecutive bags.  It sees the two blocks of index words (256 x 32), the block of `s`
(256 x 1), the combined table (acc_w next to psqt_w: 20480 x 132), the bias (1 x 128), the transposed layer
weights (256 x 4) and the layer bias (1 x 4). -/

section
variable (sw sb : Fin 256 → Fin 132 → EReal) (x2 : FVec Ideal (⟨2, ![256, 1]⟩ : Shape) .f32)
  (x4 : FVec Ideal (⟨2, ![1, 128]⟩ : Shape) .f32)
  (x5 : FVec Ideal (⟨2, ![256, 4]⟩ : Shape) .f32) (x6 : FVec Ideal (⟨2, ![1, 4]⟩ : Shape) .f32)

/-! Over the two accumulators `sw`, `sb` (256 x 132 each: columns 0..127 the acc_w part, 128..131 the psqt_w part). -/

def whiteB (r : Fin 256) (d : Fin 128) : EReal := clip01 (sw r ⟨d.val, by omega⟩ + x4 (ix2 0 d))
def blackB (r : Fin 256) (d : Fin 128) : EReal := clip01 (sb r ⟨d.val, by omega⟩ + x4 (ix2 0 d))
def waccB (r : Fin 256) (k : Fin 256) : EReal :=
  if h : k.val < 128 then whiteB sw x4 r ⟨k.val, h⟩ else blackB sb x4 r ⟨k.val - 128, by omega⟩
def baccB (r : Fin 256) (k : Fin 256) : EReal :=
  if h : k.val < 128 then blackB sb x4 r ⟨k.val, h⟩ else whiteB sw x4 r ⟨k.val - 128, by omega⟩
def blendedB (r : Fin 256) (k : Fin 256) : EReal :=
  (1 - x2 (ix2 r 0)) * waccB sw sb x4 r k + x2 (ix2 r 0) * baccB sw sb x4 r k
def positionalB (r : Fin 256) (j : Fin 4) : EReal :=
  (∑ k : Fin 256, blendedB sw sb x2 x4 r k * x5 (ix2 k j)) + x6 (ix2 0 j)
/-- What a grid point stores at row `r`, column `j` of its output block, from the two accumulators. -/
def blockOutOf (r : Fin 256) (j : Fin 4) : EReal :=
  (sw r ⟨128 + j.val, by omega⟩ - sb r ⟨128 + j.val, by omega⟩)
    + (1 - 2 * x2 (ix2 r 0)) * positionalB sw sb x2 x4 x5 x6 r j
end

/-- Row `r` of an accumulator after the 20 chunks: the count matrix of the row's 32 words times the combined table. -/
def accB (x3 : FVec Ideal (⟨2, ![20480, 132]⟩ : Shape) .bf16) (ids : IVec (⟨2, ![256, 32]⟩ : Shape) 32)
    (r : Fin 256) (d : Fin 132) : EReal :=
  bagCount (fun f d => x3 (ix2 f d)) (fun l => ids (ix2 r l)) d

/-- What a grid point stores at row `r`, column `j` of its output block, from its input blocks. -/
def blockOut (x0 x1 : IVec (⟨2, ![256, 32]⟩ : Shape) 32) (x2 : FVec Ideal (⟨2, ![256, 1]⟩ : Shape) .f32)
    (x3 : FVec Ideal (⟨2, ![20480, 132]⟩ : Shape) .bf16) (x4 : FVec Ideal (⟨2, ![1, 128]⟩ : Shape) .f32)
    (x5 : FVec Ideal (⟨2, ![256, 4]⟩ : Shape) .f32) (x6 : FVec Ideal (⟨2, ![1, 4]⟩ : Shape) .f32)
    (r : Fin 256) (j : Fin 4) : EReal :=
  blockOutOf (accB x3 x0) (accB x3 x1) x2 x4 x5 x6 r j

end Cert.Spec

end
-- ==== Proof.Consts.lean ====
/-
  The float words the two programs spell, as extended reals: 1.0, 2.0 and the two zeros.
-/
import Idealize.ShloMosaic.PureOps.Ideal
import Idealize.ShloMosaic.PureOps.Ideal.Laws

noncomputable section

namespace Cert.Consts

open Idealize.ShloMosaic

/-- The word of `1.0` denotes one. -/
theorem ofBits_one : Ideal.ofBits .f32 0x3F800000#32 = (1 : EReal) := by
  simp [Ideal.ofBits, Ideal.ieee, -EReal.coe_mul]
  norm_num

/-- The word of `2.0` denotes two. -/
theorem ofBits_two : Ideal.ofBits .f32 0x40000000#32 = (2 : EReal) := by
  simp [Ideal.ofBits, Ideal.ieee, -EReal.coe_mul]
  norm_num
  rfl

/-- The zero word of the 32-bit format denotes zero. -/
theorem ofBits_zero : Ideal.ofBits .f32 0x00000000#32 = (0 : EReal) := Ideal.ofBits_zero_f32

/-- The zero word of the 16-bit format denotes zero. -/
theorem ofBits_zero_bf16 : Ideal.ofBits .bf16 0x0000#16 = (0 : EReal) := by
  simp [Ideal.ofBits, Ideal.ieee]

end Cert.Consts

end
-- ==== Proof.KTrip.lean ====
/-
  The memory side of one grid point, at any float family.  The body zeroes two accumulators, runs 20 trips each of
  which overwrites each accumulator WHOLE with a function of what it held (the trip's chunk of the table and the
  chunk's counts of the index words added in), and closes with one whole store of the output block.  Read back:
  each accumulator after the trips is the 20-fold iterate of its trip's function from the zero block, and the output
  block is the closing arithmetic of the two iterates.
-/
import proofs.«411803_j3152505995829_2_alg».proof.Proof.Gen.KernelIdeal.Frame
import Idealize.ShloMosaic.Lib.Pipeline.Value
import Idealize.ShloMosaic.Lib.Tactic

noncomputable section

namespace Cert.KernelIdeal.KTrip

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- What a trip adds to the first accumulator: the counts of the first index block's words against the chunk's 1024
    feature numbers (built one word at a time), times the chunk, added to what the accumulator held. -/
abbrev wTerm (v9 : IVec S256x32 32) (v70 : FVec F S1024x132 .bf16) (k : Fin k0_t1_loop.trips)
    (acc : Vec F S256x132 .f32) : FVec F S256x132 .f32 :=
  k0_pay29 (F := F) v9 v70 (k0_pay3 0#32 1#32 k)
    (k0_pay26 (F := F) v9 (k0_pay3 0#32 1#32 k)
      (k0_pay22 (F := F) v9 (k0_pay3 0#32 1#32 k)
        (k0_pay19 (F := F) v9 (k0_pay3 0#32 1#32 k)
          (k0_pay17 (F := F) v9 (k0_pay3 0#32 1#32 k)
            (k0_pay14 (F := F) v9 (k0_pay3 0#32 1#32 k)
              (k0_pay10 (F := F) v9 (k0_pay3 0#32 1#32 k)
                (k0_pay7 (F := F) v9 (k0_pay3 0#32 1#32 k) (k0_pay5 (F := F) v9 0#32 1#32 k))
                (k0_pay9 v9 (k0_pay3 0#32 1#32 k)))
              (k0_pay12 v9))))
        (k0_pay21 v9 (k0_pay3 0#32 1#32 k)))
      (k0_pay24 v9))
    acc

/-- What a trip adds to the second accumulator: the same for the second index block. -/
abbrev bTerm (v11 : IVec S256x32 32) (v70 : FVec F S1024x132 .bf16) (k : Fin k0_t1_loop.trips)
    (acc : Vec F S256x132 .f32) : FVec F S256x132 .f32 :=
  k0_pay35 (F := F) v70
    (k0_pay28 (F := F) v11 (k0_pay3 0#32 1#32 k)
      (k0_pay25 (F := F) v11 (k0_pay3 0#32 1#32 k)
        (k0_pay23 (F := F) v11 (k0_pay3 0#32 1#32 k)
          (k0_pay20 (F := F) v11 (k0_pay3 0#32 1#32 k)
            (k0_pay16 (F := F) v11 (k0_pay3 0#32 1#32 k)
              (k0_pay13 (F := F) v11 (k0_pay3 0#32 1#32 k)
                (k0_pay11 (F := F) v11 (k0_pay3 0#32 1#32 k)
                  (k0_pay8 (F := F) v11 (k0_pay3 0#32 1#32 k)
                    (k0_pay4 (F := F) v11 0#32 1#32 k) (k0_pay6 v11))))
              (k0_pay15 v11 (k0_pay3 0#32 1#32 k)))
            (k0_pay18 v11))))
      (k0_pay27 v11 (k0_pay3 0#32 1#32 k)))
    acc

/-- One trip's two stores: each accumulator whole, with the trip's term of the table chunk at the trip's offset and
    of what the accumulator held. -/
theorem tripL_eq (𝒱 : Variants) (c : Dev nD) (bd : Option 𝒱.V) (i : grid0.Coords)
    (arg1 : Memref sig .tc .vmem S256x32 .i32) (harg1 : arg1.IsWhole) (arg2 : Memref sig .tc .vmem S256x32 .i32) (harg2 : arg2.IsWhole)
    (arg3 : Memref sig .tc .vmem S256x1 .f32) (harg3 : arg3.IsWhole) (arg4 : Memref sig .tc .vmem S20480x132 .bf16) (harg4 : arg4.IsWhole)
    (arg5 : Memref sig .tc .vmem S1x128 .f32) (harg5 : arg5.IsWhole) (arg6 : Memref sig .tc .vmem S256x4 .f32) (harg6 : arg6.IsWhole)
    (arg7 : Memref sig .tc .vmem S1x4 .f32) (harg7 : arg7.IsWhole) (arg8 : Memref sig .tc .vmem S256x4 .f32) (harg8 : arg8.IsWhole)
    (arg9 : Memref sig .tc .vmem S256x132 .f32) (harg9 : arg9.IsWhole) (arg10 : Memref sig .tc .vmem S256x132 .f32) (harg10 : arg10.IsWhole)
    (v8 : Vec F S256x32 .i32) (v10 : Vec F S256x32 .i32) (X_arg4 : BufTy.Contents (Elt F) arg4.view.ty) (k : Fin k0_t1_loop.trips)
    (f9 : BufTy.Contents (Elt F) arg9.view.ty) (f10 : BufTy.Contents (Elt F) arg10.view.ty) :
    tripL_k0_t1 (F := F) 𝒱 c bd i arg1 harg1 arg2 harg2 arg3 harg3 arg4 harg4 arg5 harg5 arg6 harg6 arg7 harg7 arg8 harg8 arg9 harg9 arg10 harg10 v8 v10 X_arg4 k f9 f10
      = ([⟨Rect.unit ![0, 0] S256x132.size inb_S256x132_S256x132_0_0,
            k0_pay34 (wTerm (k0_pay32 v8)
              (k0_pay2 (View.readAt (Elt F) arg4.view (Rect.unit (s := S20480x132) (k0_off1 k) S1024x132.size (k0_off1_inb k)).toLoadRect X_arg4)) k
              (View.readAt (Elt F) arg9.view (Rect.unit ![0, 0] S256x132.size inb_S256x132_S256x132_0_0).toLoadRect f9))⟩],
         [⟨Rect.unit ![0, 0] S256x132.size inb_S256x132_S256x132_0_0,
            bTerm (k0_pay33 v10)
              (k0_pay2 (View.readAt (Elt F) arg4.view (Rect.unit (s := S20480x132) (k0_off1 k) S1024x132.size (k0_off1_inb k)).toLoadRect X_arg4)) k
              (View.readAt (Elt F) arg10.view (Rect.unit ![0, 0] S256x132.size inb_S256x132_S256x132_0_0).toLoadRect f10)⟩]) := by
  unfold tripL_k0_t1
  unfold trip_k0_t1
  dsimp only
  sl_unfold_run_names
  rfl

/-- The trip's store to the first accumulator. -/
theorem trip1_eq (𝒱 : Variants) (c : Dev nD) (bd : Option 𝒱.V) (i : grid0.Coords)
    (arg1 : Memref sig .tc .vmem S256x32 .i32) (harg1 : arg1.IsWhole) (arg2 : Memref sig .tc .vmem S256x32 .i32) (harg2 : arg2.IsWhole)
    (arg3 : Memref sig .tc .vmem S256x1 .f32) (harg3 : arg3.IsWhole) (arg4 : Memref sig .tc .vmem S20480x132 .bf16) (harg4 : arg4.IsWhole)
    (arg5 : Memref sig .tc .vmem S1x128 .f32) (harg5 : arg5.IsWhole) (arg6 : Memref sig .tc .vmem S256x4 .f32) (harg6 : arg6.IsWhole)
    (arg7 : Memref sig .tc .vmem S1x4 .f32) (harg7 : arg7.IsWhole) (arg8 : Memref sig .tc .vmem S256x4 .f32) (harg8 : arg8.IsWhole)
    (arg9 : Memref sig .tc .vmem S256x132 .f32) (harg9 : arg9.IsWhole) (arg10 : Memref sig .tc .vmem S256x132 .f32) (harg10 : arg10.IsWhole)
    (v8 : Vec F S256x32 .i32) (v10 : Vec F S256x32 .i32) (X_arg4 : BufTy.Contents (Elt F) arg4.view.ty) (k : Fin k0_t1_loop.trips)
    (f9 : BufTy.Contents (Elt F) arg9.view.ty) (f10 : BufTy.Contents (Elt F) arg10.view.ty) :
    (trip_k0_t1 (F := F) 𝒱 c bd i arg1 harg1 arg2 harg2 arg3 harg3 arg4 harg4 arg5 harg5 arg6 harg6 arg7 harg7 arg8 harg8 arg9 harg9 arg10 harg10 v8 v10 X_arg4 k).1 f9 f10
      = [⟨Rect.unit ![0, 0] S256x132.size inb_S256x132_S256x132_0_0,
            k0_pay34 (wTerm (k0_pay32 v8)
              (k0_pay2 (View.readAt (Elt F) arg4.view (Rect.unit (s := S20480x132) (k0_off1 k) S1024x132.size (k0_off1_inb k)).toLoadRect X_arg4)) k
              (View.readAt (Elt F) arg9.view (Rect.unit ![0, 0] S256x132.size inb_S256x132_S256x132_0_0).toLoadRect f9))⟩] :=
  congrArg Prod.fst (tripL_eq 𝒱 c bd i arg1 harg1 arg2 harg2 arg3 harg3 arg4 harg4 arg5 harg5 arg6 harg6 arg7 harg7 arg8 harg8 arg9 harg9 arg10 harg10 v8 v10 X_arg4 k f9 f10)

/-- The trip's store to the second accumulator. -/
theorem trip2_eq (𝒱 : Variants) (c : Dev nD) (bd : Option 𝒱.V) (i : grid0.Coords)
    (arg1 : Memref sig .tc .vmem S256x32 .i32) (harg1 : arg1.IsWhole) (arg2 : Memref sig .tc .vmem S256x32 .i32) (harg2 : arg2.IsWhole)
    (arg3 : Memref sig .tc .vmem S256x1 .f32) (harg3 : arg3.IsWhole) (arg4 : Memref sig .tc .vmem S20480x132 .bf16) (harg4 : arg4.IsWhole)
    (arg5 : Memref sig .tc .vmem S1x128 .f32) (harg5 : arg5.IsWhole) (arg6 : Memref sig .tc .vmem S256x4 .f32) (harg6 : arg6.IsWhole)
    (arg7 : Memref sig .tc .vmem S1x4 .f32) (harg7 : arg7.IsWhole) (arg8 : Memref sig .tc .vmem S256x4 .f32) (harg8 : arg8.IsWhole)
    (arg9 : Memref sig .tc .vmem S256x132 .f32) (harg9 : arg9.IsWhole) (arg10 : Memref sig .tc .vmem S256x132 .f32) (harg10 : arg10.IsWhole)
    (v8 : Vec F S256x32 .i32) (v10 : Vec F S256x32 .i32) (X_arg4 : BufTy.Contents (Elt F) arg4.view.ty) (k : Fin k0_t1_loop.trips)
    (f9 : BufTy.Contents (Elt F) arg9.view.ty) (f10 : BufTy.Contents (Elt F) arg10.view.ty) :
    (trip_k0_t1 (F := F) 𝒱 c bd i arg1 harg1 arg2 harg2 arg3 harg3 arg4 harg4 arg5 harg5 arg6 harg6 arg7 harg7 arg8 harg8 arg9 harg9 arg10 harg10 v8 v10 X_arg4 k).2.1 f9 f10
      = [⟨Rect.unit ![0, 0] S256x132.size inb_S256x132_S256x132_0_0,
            bTerm (k0_pay33 v10)
              (k0_pay2 (View.readAt (Elt F) arg4.view (Rect.unit (s := S20480x132) (k0_off1 k) S1024x132.size (k0_off1_inb k)).toLoadRect X_arg4)) k
              (View.readAt (Elt F) arg10.view (Rect.unit ![0, 0] S256x132.size inb_S256x132_S256x132_0_0).toLoadRect f10)⟩] :=
  congrArg Prod.snd (tripL_eq 𝒱 c bd i arg1 harg1 arg2 harg2 arg3 harg3 arg4 harg4 arg5 harg5 arg6 harg6 arg7 harg7 arg8 harg8 arg9 harg9 arg10 harg10 v8 v10 X_arg4 k f9 f10)

/-- A buffer written whole, last, reads back what was stored. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The first accumulator after `k` trips, from the block `a0`: trip `j`'s term applied `j = 0, …, k - 1` in turn, the
    chunk of trip `j` being `ch j`. -/
def accW (v9 : IVec S256x32 32) (ch : Fin k0_t1_loop.trips → FVec F S1024x132 .bf16) (a0 : Vec F S256x132 .f32) :
    ℕ → Vec F S256x132 .f32
  | 0 => a0
  | k + 1 => if h : k < k0_t1_loop.trips then k0_pay34 (wTerm v9 (ch ⟨k, h⟩) ⟨k, h⟩ (accW v9 ch a0 k)) else accW v9 ch a0 k

/-- The second accumulator after `k` trips. -/
def accB (v11 : IVec S256x32 32) (ch : Fin k0_t1_loop.trips → FVec F S1024x132 .bf16) (a0 : Vec F S256x132 .f32) :
    ℕ → Vec F S256x132 .f32
  | 0 => a0
  | k + 1 => if h : k < k0_t1_loop.trips then bTerm v11 (ch ⟨k, h⟩) ⟨k, h⟩ (accB v11 ch a0 k) else accB v11 ch a0 k

theorem accW_succ (v9 : IVec S256x32 32) (ch : Fin k0_t1_loop.trips → FVec F S1024x132 .bf16) (a0 : Vec F S256x132 .f32)
    (k : Fin k0_t1_loop.trips) :
    accW v9 ch a0 (k.val + 1) = k0_pay34 (wTerm v9 (ch k) k (accW v9 ch a0 k.val)) := by
  rw [accW]; exact dif_pos k.isLt

theorem accB_succ (v11 : IVec S256x32 32) (ch : Fin k0_t1_loop.trips → FVec F S1024x132 .bf16) (a0 : Vec F S256x132 .f32)
    (k : Fin k0_t1_loop.trips) :
    accB v11 ch a0 (k.val + 1) = bTerm v11 (ch k) k (accB v11 ch a0 k.val) := by
  rw [accB]; exact dif_pos k.isLt

/-- The chunk of the table a trip loads, as the trip's term takes it. -/
abbrev chunkAt (arg4 : Memref sig .tc .vmem S20480x132 .bf16) (X_arg4 : BufTy.Contents (Elt F) arg4.view.ty)
    (k : Fin k0_t1_loop.trips) : FVec F S1024x132 .bf16 :=
  k0_pay2 (View.readAt (Elt F) arg4.view (Rect.unit (s := S20480x132) (k0_off1 k) S1024x132.size (k0_off1_inb k)).toLoadRect X_arg4)

/-- What the two accumulators hold after `k` trips, read whole: the iterates of the trips' terms from what they held
    at loop entry. -/
theorem acc_eq (𝒱 : Variants) (c : Dev nD) (bd : Option 𝒱.V) (i : grid0.Coords)
    (arg1 : Memref sig .tc .vmem S256x32 .i32) (harg1 : arg1.IsWhole) (arg2 : Memref sig .tc .vmem S256x32 .i32) (harg2 : arg2.IsWhole)
    (arg3 : Memref sig .tc .vmem S256x1 .f32) (harg3 : arg3.IsWhole) (arg4 : Memref sig .tc .vmem S20480x132 .bf16) (harg4 : arg4.IsWhole)
    (arg5 : Memref sig .tc .vmem S1x128 .f32) (harg5 : arg5.IsWhole) (arg6 : Memref sig .tc .vmem S256x4 .f32) (harg6 : arg6.IsWhole)
    (arg7 : Memref sig .tc .vmem S1x4 .f32) (harg7 : arg7.IsWhole) (arg8 : Memref sig .tc .vmem S256x4 .f32) (harg8 : arg8.IsWhole)
    (arg9 : Memref sig .tc .vmem S256x132 .f32) (harg9 : arg9.IsWhole) (arg10 : Memref sig .tc .vmem S256x132 .f32) (harg10 : arg10.IsWhole)
    (v8 : Vec F S256x32 .i32) (v10 : Vec F S256x32 .i32) (X_arg4 : BufTy.Contents (Elt F) arg4.view.ty)
    (G9 : BufTy.Contents (Elt F) arg9.view.ty) (G10 : BufTy.Contents (Elt F) arg10.view.ty) :
    ∀ k : ℕ, k ≤ k0_t1_loop.trips →
      arg9.view.read (Elt F) (arg9.view.writes (Elt F) G9
          (pb_k0_t1 (F := F) 𝒱 c bd i arg1 harg1 arg2 harg2 arg3 harg3 arg4 harg4 arg5 harg5 arg6 harg6 arg7 harg7 arg8 harg8 arg9 harg9 arg10 harg10 v8 v10 X_arg4 G9 G10 k).1)
        = accW (k0_pay32 v8) (chunkAt arg4 X_arg4) (arg9.view.read (Elt F) G9) k
      ∧ arg10.view.read (Elt F) (arg10.view.writes (Elt F) G10
          (pb_k0_t1 (F := F) 𝒱 c bd i arg1 harg1 arg2 harg2 arg3 harg3 arg4 harg4 arg5 harg5 arg6 harg6 arg7 harg7 arg8 harg8 arg9 harg9 arg10 harg10 v8 v10 X_arg4 G9 G10 k).2)
        = accB (k0_pay33 v10) (chunkAt arg4 X_arg4) (arg10.view.read (Elt F) G10) k
  | 0, _ => ⟨rfl, rfl⟩
  | k + 1, hk => by
    have ih := acc_eq 𝒱 c bd i arg1 harg1 arg2 harg2 arg3 harg3 arg4 harg4 arg5 harg5 arg6 harg6 arg7 harg7 arg8 harg8 arg9 harg9 arg10 harg10 v8 v10 X_arg4 G9 G10 k (Nat.le_of_succ_le hk)
    have e := pb_k0_t1_succ (F := F) 𝒱 c bd i arg1 harg1 arg2 harg2 arg3 harg3 arg4 harg4 arg5 harg5 arg6 harg6 arg7 harg7 arg8 harg8 arg9 harg9 arg10 harg10 v8 v10 X_arg4 G9 G10 ⟨k, hk⟩
    have eW := accW_succ (k0_pay32 v8) (chunkAt arg4 X_arg4) (arg9.view.read (Elt F) G9) ⟨k, hk⟩
    have eB := accB_succ (k0_pay33 v10) (chunkAt arg4 X_arg4) (arg10.view.read (Elt F) G10) ⟨k, hk⟩
    dsimp only at e eW eB
    rw [e, trip1_eq, trip2_eq, eW, eB]
    dsimp only
    rw [View.writes_append, View.writes_append, read_writes_whole _ _ hz, read_writes_whole _ _ hz]
    simp only [View.readAt_eq_ld, View.ld_unit_zero (S := S256x132) hz, ih.1, ih.2]
    exact ⟨rfl, rfl⟩

/-- Chunk `k` of the table block `x3` (rows `1024 k` … `1024 k + 1023`), as a trip's term takes it. -/
abbrev chunkOf (x3 : Vec F S20480x132 .bf16) (k : Fin k0_t1_loop.trips) : FVec F S1024x132 .bf16 :=
  k0_pay2 (View.ld (Val := Elt F) x3 (Rect.unit (s := S20480x132) (k0_off1 k) S1024x132.size (k0_off1_inb k)))

theorem chunkAt_unread (arg4 : Memref sig .tc .vmem S20480x132 .bf16) (harg4 : arg4.IsWhole) (x3 : Vec F S20480x132 .bf16) :
    chunkAt arg4 (harg4.unread x3) = chunkOf x3 := by
  funext k
  dsimp only [chunkAt, chunkOf]
  rw [View.readAt_eq_ld, harg4.read_unread]

/-- The first accumulator after the 20 trips, from the input blocks. -/
abbrev accWAt (x0 : Vec F S256x32 .i32) (x3 : Vec F S20480x132 .bf16) : Vec F S256x132 .f32 :=
  accW (k0_pay32 x0) (chunkOf x3) (k0_pay30 (F := F)) k0_t1_loop.trips

/-- The second accumulator after the 20 trips, from the input blocks. -/
abbrev accBAt (x1 : Vec F S256x32 .i32) (x3 : Vec F S20480x132 .bf16) : Vec F S256x132 .f32 :=
  accB (k0_pay33 x1) (chunkOf x3) (k0_pay31 (F := F)) k0_t1_loop.trips

/-- What the body leaves in the output block: its one whole store's payload, the closing arithmetic of the two
    accumulators after the 20 trips from the zero block, of the bias and of the remaining input blocks. -/
theorem out_pieces (c : Dev nD) (i : grid0.Coords)
    (arg1 : Memref sig .tc .vmem S256x32 .i32) (harg1 : arg1.IsWhole) (arg2 : Memref sig .tc .vmem S256x32 .i32) (harg2 : arg2.IsWhole)
    (arg3 : Memref sig .tc .vmem S256x1 .f32) (harg3 : arg3.IsWhole) (arg4 : Memref sig .tc .vmem S20480x132 .bf16) (harg4 : arg4.IsWhole)
    (arg5 : Memref sig .tc .vmem S1x128 .f32) (harg5 : arg5.IsWhole) (arg6 : Memref sig .tc .vmem S256x4 .f32) (harg6 : arg6.IsWhole)
    (arg7 : Memref sig .tc .vmem S1x4 .f32) (harg7 : arg7.IsWhole) (arg8 : Memref sig .tc .vmem S256x4 .f32) (harg8 : arg8.IsWhole)
    (arg9 : Memref sig .tc .vmem S256x132 .f32) (harg9 : arg9.IsWhole) (arg10 : Memref sig .tc .vmem S256x132 .f32) (harg10 : arg10.IsWhole)
    (x0 : Vec F S256x32 .i32) (x1 : Vec F S256x32 .i32) (x2 : Vec F S256x1 .f32) (x3 : Vec F S20480x132 .bf16)
    (x4 : Vec F S1x128 .f32) (x5 : Vec F S256x4 .f32) (x6 : Vec F S1x4 .f32) :
    out0_A_7 (F := F) c i arg1 harg1 arg2 harg2 arg3 harg3 arg4 harg4 arg5 harg5 arg6 harg6 arg7 harg7 arg8 harg8 arg9 harg9 arg10 harg10 x0 x1 x2 x3 x4 x5 x6
      = k0_pay1 (accWAt x0 x3) (accBAt x1 x3) (k0_pay36 (accWAt x0 x3) x4) (k0_pay37 (accBAt x1 x3) x4)
          (Scalar.ofBits .f32 0x3F800000#32) (k0_pay38 (F := F)) x2 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_run_names
  rw [View.canon_unit_zero hz]
  rw [View.writes_append, View.writes_append]
  simp only [View.readAt_eq_ld, View.ld_unit_zero (S := S256x132) hz]
  rw [(acc_eq _ _ _ _ arg1 harg1 arg2 harg2 arg3 harg3 arg4 harg4 arg5 harg5 arg6 harg6 arg7 harg7 arg8 harg8 arg9 harg9 arg10 harg10 _ _ _ _ _ _ (le_refl _)).1, (acc_eq _ _ _ _ arg1 harg1 arg2 harg2 arg3 harg3 arg4 harg4 arg5 harg5 arg6 harg6 arg7 harg7 arg8 harg8 arg9 harg9 arg10 harg10 _ _ _ _ _ _ (le_refl _)).2]
  simp only [harg1.read_unread, harg2.read_unread, harg3.read_unread, harg5.read_unread, harg6.read_unread, harg7.read_unread,
    View.ld_unit_zero (S := S256x32) hz, View.ld_unit_zero (S := S1x128) hz, View.ld_unit_zero (S := S256x1) hz,
    View.ld_unit_zero (S := S256x4) hz, View.ld_unit_zero (S := S1x4) hz, chunkAt_unread]
  rw [read_writes_whole arg9.view _ hz, read_writes_whole arg10.view _ hz]

end Cert.KernelIdeal.KTrip

end
-- ==== Proof.KCountW.lean ====
/-
  The white count chain of one trip of the kernel's loop, as a pure function of the values it reads.

  Trip `k` (of 20) forms, for the white block of index words (256 bags of 32 words), the 256 x 1024 matrix whose
  entry (r, q) is the number of row r's 32 words equal to feature 1024 k + q: it starts from zero and adds, word by
  word, the 0/1 matrix "word l of row r is the feature".  The matrix is then multiplied with the trip's chunk of
  the table (1024 x 132) and the product is added to the accumulator.
-/
import proofs.«411803_j3152505995829_2_alg».proof.Proof.Gen.KernelIdeal.Skeleton
import proofs.«411803_j3152505995829_2_alg».proof.Proof.Spec
import proofs.«411803_j3152505995829_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KCountW

open Idealize.ShloMosaic Idealize.ShloMosaic.ValueIdx Idealize.SL.Sem
open Cert.KernelIdeal Cert.KernelIdeal.Gen

/-! ## Words -/

/-- The test "two words are equal", widened to a word and read as a signed number, is one when they are equal and
    zero when they are not. -/
theorem eqWord_real (x y : BitVec 32) :
    (FloatOps.sitofp (F := Ideal) .f32 ((IntOp.cmpi .eq x y).setWidth 32) : EReal) = if x = y then 1 else 0 := by
  show (((BitVec.setWidth 32 (IntOp.cmpi .eq x y)).toInt : ℝ) : EReal) = _
  by_cases h : x = y
  · subst h
    simp [IntOp.cmpi]
  · have hb : (x == y) = false := by simpa using h
    simp [IntOp.cmpi, hb, h]

/-! ## Layout: a column of the index block, spread over the features -/

/-- A 256 x 1 column spread over 1024 columns reads, at (r, q), the column at r. -/
theorem spreadCol_apply (c : IVec S256x1 32) (h : S256x1.Broadcasts S256x1024) (r : Fin 256) (q : Fin 1024) :
    broadcastTo S256x1024 c h (ix2 r q) = c (ix2 r (0 : Fin 1)) := by
  refine broadcastTo_apply c h (ix2 r q) (ix2 r (0 : Fin 1)) fun ax => ?_
  match ax with
  | ⟨0, _⟩ => rfl
  | ⟨1, _⟩ => rfl

/-- Column `l` of the index block reads, at row r, word l of row r. -/
theorem col_apply (ids : IVec S256x32 32) (l : Nat) (hl : l < 32) (hs : S256x32.Slices ![0, l] S256x1) (r : Fin 256) :
    extractStridedSlice S256x1 ![0, l] ids hs (ix2 r (0 : Fin 1)) = ids (ix2 r (⟨l, hl⟩ : Fin 32)) :=
  slice2_axis1_apply l ids hs r (0 : Fin 1) (⟨l, hl⟩ : Fin 32) rfl

/-- The feature row spread over 256 rows reads, at (r, q), the row at q. -/
theorem spreadRow_apply (v : IVec S1x1024 32) (h : S1x1024.Broadcasts S256x1024) (r : Fin 256) (q : Fin 1024) :
    broadcastTo S256x1024 v h (ix2 r q) = v (ix2 (0 : Fin 1) q) :=
  broadcastTo_1b_ab_apply v h r q

/-! ## One word's step -/

/-- The count matrix after one more word: the 0/1 matrix "word l of the row is the feature" added to it. -/
def addWord (ids : IVec S256x32 32) (v73 : IVec S1x1024 32) (l : Nat) (hs : S256x32.Slices ![0, l] S256x1)
    (prev : FVec Ideal S256x1024 .bf16) : FVec Ideal S256x1024 .bf16 :=
  addf prev (truncf .bf16 (sitofp .f32 (extui 32 (cmpi .eq
    (broadcastTo S256x1024 (extractStridedSlice S256x1 ![0, l] ids hs) broadcasts_S256x1_S256x1024)
    (broadcastTo S256x1024 v73 broadcasts_S1x1024_S256x1024)) natLt_1_32)) bitsLt_bf16_f32)

/-- The step at an entry: one is added exactly when word l of the row is the feature of the column. -/
theorem addWord_apply (ids : IVec S256x32 32) (v73 : IVec S1x1024 32) (l : Nat) (hl : l < 32)
    (hs : S256x32.Slices ![0, l] S256x1) (prev : FVec Ideal S256x1024 .bf16) (r : Fin 256) (q : Fin 1024) :
    addWord ids v73 l hs prev (ix2 r q)
      = prev (ix2 r q) + (if ids (ix2 r (⟨l, hl⟩ : Fin 32)) = v73 (ix2 (0 : Fin 1) q) then 1 else 0) := by
  unfold addWord
  rw [addf_apply, truncf_apply, sitofp_apply, extui_apply]
  show prev (ix2 r q) + FloatOps.sitofp (F := Ideal) .f32 ((IntOp.cmpi .eq
      (broadcastTo S256x1024 (extractStridedSlice S256x1 ![0, l] ids hs) broadcasts_S256x1_S256x1024 (ix2 r q))
      (broadcastTo S256x1024 v73 broadcasts_S1x1024_S256x1024 (ix2 r q))).setWidth 32) = _
  rw [spreadCol_apply, col_apply ids l hl hs r, spreadRow_apply, eqWord_real]

/-! ## The partial count -/

/-- How many of the first `n` words equal `t`. -/
def pc (w : Fin 32 → BitVec 32) (t : BitVec 32) (n : Nat) : EReal :=
  ∑ l : Fin 32, if l.val < n ∧ w l = t then (1 : EReal) else 0

theorem pc_zero (w : Fin 32 → BitVec 32) (t : BitVec 32) : pc w t 0 = 0 := by
  simp [pc]

theorem pc_succ (w : Fin 32 → BitVec 32) (t : BitVec 32) (n : Nat) (hn : n < 32) :
    pc w t (n + 1) = pc w t n + (if w ⟨n, hn⟩ = t then 1 else 0) := by
  unfold pc
  have key : ∀ l : Fin 32, (if l.val < n + 1 ∧ w l = t then (1 : EReal) else 0)
      = (if l.val < n ∧ w l = t then (1 : EReal) else 0)
        + (if l = ⟨n, hn⟩ then (if w l = t then (1 : EReal) else 0) else 0) := by
    intro l
    rcases Nat.lt_trichotomy l.val n with h | h | h
    · have h1 : l.val < n + 1 := by omega
      have h2 : l ≠ ⟨n, hn⟩ := fun e => by rw [e] at h; exact absurd h (Nat.lt_irrefl _)
      simp [h, h1, h2]
    · have h2 : l = ⟨n, hn⟩ := Fin.ext h
      subst h2
      simp
    · have h1 : ¬ l.val < n + 1 := by omega
      have h0 : ¬ l.val < n := by omega
      have h2 : l ≠ ⟨n, hn⟩ := fun e => by rw [e] at h; exact absurd h (Nat.lt_irrefl _)
      simp [h0, h1, h2]
  simp only [key, Finset.sum_add_distrib, Finset.sum_ite_eq', Finset.mem_univ, if_true]

/-- All 32 words: the specification's count. -/
theorem pc_all (w : Fin 32 → BitVec 32) (f : Fin 20480) : pc w (BitVec.ofNat 32 f.val) 32 = Cert.Spec.count w f := by
  unfold pc Cert.Spec.count
  refine Finset.sum_congr rfl fun l _ => ?_
  simp [l.isLt]

/-! ## The feature row -/

/-- Entry q of trip k's feature row is the word of feature number 1024 k + q. -/
theorem featRow_apply (k : Fin k0_t1_loop.trips) (q : Fin 1024) :
    k0_pay3 0#32 1#32 k (ix2 (0 : Fin 1) q) = BitVec.ofNat 32 (k.val * 1024 + q.val) := by
  have hi : iota .tc S1x1024 32 [1] iota_S1x1024_d1_w32 (ix2 (0 : Fin 1) q) = BitVec.ofNat 32 q.val :=
    iota_single_apply .tc S1x1024 32 1 iota_S1x1024_d1_w32 (ix2 (0 : Fin 1) q)
  show IntOp.addi (Scalar.muli (Scalar.addi 0#32 (Scalar.muli (Scf.iv 0#32 1#32 k) 1#32)) 1024#32)
      (iota .tc S1x1024 32 [1] iota_S1x1024_d1_w32 (ix2 (0 : Fin 1) q)) = _
  rw [hi]
  simp [Scalar.muli, Scalar.addi, IntOp.addi, IntOp.muli, Scf.iv, BitVec.ofNat_add, BitVec.ofNat_mul]

/-! ## The steps advance the partial count -/

/-- Row r's 32 words. -/
abbrev rowWords (ids : IVec S256x32 32) (r : Fin 256) : Fin 32 → BitVec 32 := fun l => ids (ix2 r l)

/-- A step takes the count of the first l words to the count of the first l + 1. -/
theorem addWord_pc (ids : IVec S256x32 32) (v73 : IVec S1x1024 32) (l : Nat) (hl : l < 32)
    (hs : S256x32.Slices ![0, l] S256x1) (prev : FVec Ideal S256x1024 .bf16) (r : Fin 256) (q : Fin 1024)
    (h : prev (ix2 r q) = pc (rowWords ids r) (v73 (ix2 (0 : Fin 1) q)) l) :
    addWord ids v73 l hs prev (ix2 r q) = pc (rowWords ids r) (v73 (ix2 (0 : Fin 1) q)) (l + 1) := by
  rw [addWord_apply ids v73 l hl hs prev r q, h, pc_succ _ _ l hl]

/-! ## The payloads of the chain, each as its steps -/

theorem pay5_eq (v9 : IVec S256x32 32) (k : Fin k0_t1_loop.trips) :
    k0_pay5 (F := Ideal) v9 0#32 1#32 k
      = (addWord v9 (k0_pay3 0#32 1#32 k) 2 slices_S256x32_o0_2_S256x1 (addWord v9 (k0_pay3 0#32 1#32 k) 1 slices_S256x32_o0_1_S256x1 (addWord v9 (k0_pay3 0#32 1#32 k) 0 slices_S256x32_o0_0_S256x1 (broadcast S256x1024 (Scalar.ofBits (F := Ideal) .bf16 0x0000#16))))) := rfl

theorem pay7_eq (v9 : IVec S256x32 32) (v73 : IVec S1x1024 32) (prev : FVec Ideal S256x1024 .bf16) :
    k0_pay7 (F := Ideal) v9 v73 prev = (addWord v9 v73 5 slices_S256x32_o0_5_S256x1 (addWord v9 v73 4 slices_S256x32_o0_4_S256x1 (addWord v9 v73 3 slices_S256x32_o0_3_S256x1 prev))) := rfl

theorem pay10_eq (v9 : IVec S256x32 32) (v73 : IVec S1x1024 32) (prev : FVec Ideal S256x1024 .bf16) :
    k0_pay10 (F := Ideal) v9 v73 prev (k0_pay9 v9 v73) = (addWord v9 v73 9 slices_S256x32_o0_9_S256x1 (addWord v9 v73 8 slices_S256x32_o0_8_S256x1 (addWord v9 v73 7 slices_S256x32_o0_7_S256x1 (addWord v9 v73 6 slices_S256x32_o0_6_S256x1 prev)))) := rfl

theorem pay14_eq (v9 : IVec S256x32 32) (v73 : IVec S1x1024 32) (prev : FVec Ideal S256x1024 .bf16) :
    k0_pay14 (F := Ideal) v9 v73 prev (k0_pay12 v9) = (addWord v9 v73 13 slices_S256x32_o0_13_S256x1 (addWord v9 v73 12 slices_S256x32_o0_12_S256x1 (addWord v9 v73 11 slices_S256x32_o0_11_S256x1 (addWord v9 v73 10 slices_S256x32_o0_10_S256x1 prev)))) := rfl

theorem pay17_eq (v9 : IVec S256x32 32) (v73 : IVec S1x1024 32) (prev : FVec Ideal S256x1024 .bf16) :
    k0_pay17 (F := Ideal) v9 v73 prev = (addWord v9 v73 17 slices_S256x32_o0_17_S256x1 (addWord v9 v73 16 slices_S256x32_o0_16_S256x1 (addWord v9 v73 15 slices_S256x32_o0_15_S256x1 (addWord v9 v73 14 slices_S256x32_o0_14_S256x1 prev)))) := rfl

theorem pay19_eq (v9 : IVec S256x32 32) (v73 : IVec S1x1024 32) (prev : FVec Ideal S256x1024 .bf16) :
    k0_pay19 (F := Ideal) v9 v73 prev = (addWord v9 v73 20 slices_S256x32_o0_20_S256x1 (addWord v9 v73 19 slices_S256x32_o0_19_S256x1 (addWord v9 v73 18 slices_S256x32_o0_18_S256x1 prev))) := rfl

theorem pay22_eq (v9 : IVec S256x32 32) (v73 : IVec S1x1024 32) (prev : FVec Ideal S256x1024 .bf16) :
    k0_pay22 (F := Ideal) v9 v73 prev (k0_pay21 v9 v73) = (addWord v9 v73 24 slices_S256x32_o0_24_S256x1 (addWord v9 v73 23 slices_S256x32_o0_23_S256x1 (addWord v9 v73 22 slices_S256x32_o0_22_S256x1 (addWord v9 v73 21 slices_S256x32_o0_21_S256x1 prev)))) := rfl

theorem pay26_eq (v9 : IVec S256x32 32) (v73 : IVec S1x1024 32) (prev : FVec Ideal S256x1024 .bf16) :
    k0_pay26 (F := Ideal) v9 v73 prev (k0_pay24 v9) = (addWord v9 v73 28 slices_S256x32_o0_28_S256x1 (addWord v9 v73 27 slices_S256x32_o0_27_S256x1 (addWord v9 v73 26 slices_S256x32_o0_26_S256x1 (addWord v9 v73 25 slices_S256x32_o0_25_S256x1 prev)))) := rfl

theorem pay29_eq (v9 : IVec S256x32 32) (v70 : FVec Ideal S1024x132 .bf16) (v73 : IVec S1x1024 32)
    (prev : FVec Ideal S256x1024 .bf16) (acc : Vec Ideal S256x132 .f32) :
    k0_pay29 (F := Ideal) v9 v70 v73 prev acc
      = addf acc (matmul dot_S256x1024_S1024x132_S256x132_1_0_0_1_n_n none
          (addWord v9 v73 31 slices_S256x32_o0_31_S256x1 (addWord v9 v73 30 slices_S256x32_o0_30_S256x1 (addWord v9 v73 29 slices_S256x32_o0_29_S256x1 prev))) v70
          (constant (F := Ideal) S256x132 .f32 0x00000000#32)) := rfl

/-! ## The product with the table chunk -/

theorem lhs_count_0 (i : S256x132.Idx) (q : dot_S256x1024_S1024x132_S256x132_1_0_0_1_n_n.contr.Idx) :
    (dot_S256x1024_S1024x132_S256x132_1_0_0_1_n_n.lhsIdx i q 0).val = (i 0).val := by
  unfold DotDims.lhsIdx
  rw [dif_neg (show ¬(0 : Fin S256x1024.rank) ∈ dot_S256x1024_S1024x132_S256x132_1_0_0_1_n_n.lhsBatch by decide),
    dif_pos (show (0 : Fin S256x1024.rank) ∈ dot_S256x1024_S1024x132_S256x132_1_0_0_1_n_n.lhsNonContracting by decide)]
  rfl

theorem lhs_count_1 (i : S256x132.Idx) (q : dot_S256x1024_S1024x132_S256x132_1_0_0_1_n_n.contr.Idx) :
    (dot_S256x1024_S1024x132_S256x132_1_0_0_1_n_n.lhsIdx i q 1).val = (q ⟨0, by decide⟩).val :=
  dot_S256x1024_S1024x132_S256x132_1_0_0_1_n_n.lhsIdx_val_of_single rfl i q

theorem rhs_count_0 (i : S256x132.Idx) (q : dot_S256x1024_S1024x132_S256x132_1_0_0_1_n_n.contr.Idx) :
    (dot_S256x1024_S1024x132_S256x132_1_0_0_1_n_n.rhsIdx i q 0).val = (q ⟨0, by decide⟩).val :=
  dot_S256x1024_S1024x132_S256x132_1_0_0_1_n_n.rhsIdx_val_of_single rfl i q

theorem rhs_count_1 (i : S256x132.Idx) (q : dot_S256x1024_S1024x132_S256x132_1_0_0_1_n_n.contr.Idx) :
    (dot_S256x1024_S1024x132_S256x132_1_0_0_1_n_n.rhsIdx i q 1).val = (i 1).val := by
  unfold DotDims.rhsIdx
  rw [dif_neg (show ¬(1 : Fin S1024x132.rank) ∈ dot_S256x1024_S1024x132_S256x132_1_0_0_1_n_n.rhsBatch by decide),
    dif_pos (show (1 : Fin S1024x132.rank) ∈ dot_S256x1024_S1024x132_S256x132_1_0_0_1_n_n.rhsNonContracting by decide)]
  rfl

/-- The product into a zero accumulator, entry by entry: the sum over the 1024 features of the count matrix's entry
    times the table chunk's. -/
theorem countMatmul_apply (A : FVec Ideal S256x1024 .bf16) (B : FVec Ideal S1024x132 .bf16) (r : Fin 256) (d : Fin 132) :
    matmul dot_S256x1024_S1024x132_S256x132_1_0_0_1_n_n none A B (constant (F := Ideal) S256x132 .f32 0x00000000#32) (ix2 r d)
      = ∑ q : Fin 1024, A (ix2 r q) * B (ix2 q d) := by
  refine (Ideal.matmul_constant_zero_apply dot_S256x1024_S1024x132_S256x132_1_0_0_1_n_n none A B (ix2 r d)).trans ?_
  rw [← Equiv.sum_comp (contrEquiv1 dot_S256x1024_S1024x132_S256x132_1_0_0_1_n_n 1024 rfl rfl).symm]
  refine Finset.sum_congr rfl fun k _ => ?_
  have hk := contrEquiv1_symm_val dot_S256x1024_S1024x132_S256x132_1_0_0_1_n_n 1024 rfl rfl k
  have el : dot_S256x1024_S1024x132_S256x132_1_0_0_1_n_n.lhsIdx (ix2 r d) ((contrEquiv1 dot_S256x1024_S1024x132_S256x132_1_0_0_1_n_n 1024 rfl rfl).symm k) = ix2 r k :=
    funext fun a => Fin.ext (by
      match a with
      | ⟨0, _⟩ => exact lhs_count_0 _ _
      | ⟨1, _⟩ => exact (lhs_count_1 _ _).trans hk)
  have er : dot_S256x1024_S1024x132_S256x132_1_0_0_1_n_n.rhsIdx (ix2 r d) ((contrEquiv1 dot_S256x1024_S1024x132_S256x132_1_0_0_1_n_n 1024 rfl rfl).symm k) = ix2 k d :=
    funext fun a => Fin.ext (by
      match a with
      | ⟨0, _⟩ => exact (rhs_count_0 _ _).trans hk
      | ⟨1, _⟩ => exact rhs_count_1 _ _)
  rw [el, er]

/-! ## The chain: each payload advances the partial count -/

theorem pay5_pc (v9 : IVec S256x32 32) (k : Fin k0_t1_loop.trips) (r : Fin 256) (q : Fin 1024) :
    k0_pay5 (F := Ideal) v9 0#32 1#32 k (ix2 r q) = pc (rowWords v9 r) ((k0_pay3 0#32 1#32 k) (ix2 (0 : Fin 1) q)) 3 := by
  rw [pay5_eq]
  have h0 : broadcast S256x1024 (Scalar.ofBits (F := Ideal) .bf16 0x0000#16) (ix2 r q) = pc (rowWords v9 r) ((k0_pay3 0#32 1#32 k) (ix2 (0 : Fin 1) q)) 0 :=
    (show Ideal.ofBits .bf16 0x0000#16 = (0 : EReal) from Cert.Consts.ofBits_zero_bf16).trans (pc_zero _ _).symm
  exact (addWord_pc v9 (k0_pay3 0#32 1#32 k) 2 (by decide) slices_S256x32_o0_2_S256x1 _ r q (addWord_pc v9 (k0_pay3 0#32 1#32 k) 1 (by decide) slices_S256x32_o0_1_S256x1 _ r q (addWord_pc v9 (k0_pay3 0#32 1#32 k) 0 (by decide) slices_S256x32_o0_0_S256x1 _ r q h0)))

theorem pay7_pc (v9 : IVec S256x32 32) (v73 : IVec S1x1024 32) (prev : FVec Ideal S256x1024 .bf16) (r : Fin 256) (q : Fin 1024)
    (h : prev (ix2 r q) = pc (rowWords v9 r) (v73 (ix2 (0 : Fin 1) q)) 3) :
    k0_pay7 (F := Ideal) v9 v73 prev (ix2 r q) = pc (rowWords v9 r) (v73 (ix2 (0 : Fin 1) q)) 6 := by
  rw [pay7_eq]
  exact (addWord_pc v9 v73 5 (by decide) slices_S256x32_o0_5_S256x1 _ r q (addWord_pc v9 v73 4 (by decide) slices_S256x32_o0_4_S256x1 _ r q (addWord_pc v9 v73 3 (by decide) slices_S256x32_o0_3_S256x1 _ r q h)))

theorem pay10_pc (v9 : IVec S256x32 32) (v73 : IVec S1x1024 32) (prev : FVec Ideal S256x1024 .bf16) (r : Fin 256) (q : Fin 1024)
    (h : prev (ix2 r q) = pc (rowWords v9 r) (v73 (ix2 (0 : Fin 1) q)) 6) :
    k0_pay10 (F := Ideal) v9 v73 prev (k0_pay9 v9 v73) (ix2 r q) = pc (rowWords v9 r) (v73 (ix2 (0 : Fin 1) q)) 10 := by
  rw [pay10_eq]
  exact (addWord_pc v9 v73 9 (by decide) slices_S256x32_o0_9_S256x1 _ r q (addWord_pc v9 v73 8 (by decide) slices_S256x32_o0_8_S256x1 _ r q (addWord_pc v9 v73 7 (by decide) slices_S256x32_o0_7_S256x1 _ r q (addWord_pc v9 v73 6 (by decide) slices_S256x32_o0_6_S256x1 _ r q h))))

theorem pay14_pc (v9 : IVec S256x32 32) (v73 : IVec S1x1024 32) (prev : FVec Ideal S256x1024 .bf16) (r : Fin 256) (q : Fin 1024)
    (h : prev (ix2 r q) = pc (rowWords v9 r) (v73 (ix2 (0 : Fin 1) q)) 10) :
    k0_pay14 (F := Ideal) v9 v73 prev (k0_pay12 v9) (ix2 r q) = pc (rowWords v9 r) (v73 (ix2 (0 : Fin 1) q)) 14 := by
  rw [pay14_eq]
  exact (addWord_pc v9 v73 13 (by decide) slices_S256x32_o0_13_S256x1 _ r q (addWord_pc v9 v73 12 (by decide) slices_S256x32_o0_12_S256x1 _ r q (addWord_pc v9 v73 11 (by decide) slices_S256x32_o0_11_S256x1 _ r q (addWord_pc v9 v73 10 (by decide) slices_S256x32_o0_10_S256x1 _ r q h))))

theorem pay17_pc (v9 : IVec S256x32 32) (v73 : IVec S1x1024 32) (prev : FVec Ideal S256x1024 .bf16) (r : Fin 256) (q : Fin 1024)
    (h : prev (ix2 r q) = pc (rowWords v9 r) (v73 (ix2 (0 : Fin 1) q)) 14) :
    k0_pay17 (F := Ideal) v9 v73 prev (ix2 r q) = pc (rowWords v9 r) (v73 (ix2 (0 : Fin 1) q)) 18 := by
  rw [pay17_eq]
  exact (addWord_pc v9 v73 17 (by decide) slices_S256x32_o0_17_S256x1 _ r q (addWord_pc v9 v73 16 (by decide) slices_S256x32_o0_16_S256x1 _ r q (addWord_pc v9 v73 15 (by decide) slices_S256x32_o0_15_S256x1 _ r q (addWord_pc v9 v73 14 (by decide) slices_S256x32_o0_14_S256x1 _ r q h))))

theorem pay19_pc (v9 : IVec S256x32 32) (v73 : IVec S1x1024 32) (prev : FVec Ideal S256x1024 .bf16) (r : Fin 256) (q : Fin 1024)
    (h : prev (ix2 r q) = pc (rowWords v9 r) (v73 (ix2 (0 : Fin 1) q)) 18) :
    k0_pay19 (F := Ideal) v9 v73 prev (ix2 r q) = pc (rowWords v9 r) (v73 (ix2 (0 : Fin 1) q)) 21 := by
  rw [pay19_eq]
  exact (addWord_pc v9 v73 20 (by decide) slices_S256x32_o0_20_S256x1 _ r q (addWord_pc v9 v73 19 (by decide) slices_S256x32_o0_19_S256x1 _ r q (addWord_pc v9 v73 18 (by decide) slices_S256x32_o0_18_S256x1 _ r q h)))

theorem pay22_pc (v9 : IVec S256x32 32) (v73 : IVec S1x1024 32) (prev : FVec Ideal S256x1024 .bf16) (r : Fin 256) (q : Fin 1024)
    (h : prev (ix2 r q) = pc (rowWords v9 r) (v73 (ix2 (0 : Fin 1) q)) 21) :
    k0_pay22 (F := Ideal) v9 v73 prev (k0_pay21 v9 v73) (ix2 r q) = pc (rowWords v9 r) (v73 (ix2 (0 : Fin 1) q)) 25 := by
  rw [pay22_eq]
  exact (addWord_pc v9 v73 24 (by decide) slices_S256x32_o0_24_S256x1 _ r q (addWord_pc v9 v73 23 (by decide) slices_S256x32_o0_23_S256x1 _ r q (addWord_pc v9 v73 22 (by decide) slices_S256x32_o0_22_S256x1 _ r q (addWord_pc v9 v73 21 (by decide) slices_S256x32_o0_21_S256x1 _ r q h))))

theorem pay26_pc (v9 : IVec S256x32 32) (v73 : IVec S1x1024 32) (prev : FVec Ideal S256x1024 .bf16) (r : Fin 256) (q : Fin 1024)
    (h : prev (ix2 r q) = pc (rowWords v9 r) (v73 (ix2 (0 : Fin 1) q)) 25) :
    k0_pay26 (F := Ideal) v9 v73 prev (k0_pay24 v9) (ix2 r q) = pc (rowWords v9 r) (v73 (ix2 (0 : Fin 1) q)) 29 := by
  rw [pay26_eq]
  exact (addWord_pc v9 v73 28 (by decide) slices_S256x32_o0_28_S256x1 _ r q (addWord_pc v9 v73 27 (by decide) slices_S256x32_o0_27_S256x1 _ r q (addWord_pc v9 v73 26 (by decide) slices_S256x32_o0_26_S256x1 _ r q (addWord_pc v9 v73 25 (by decide) slices_S256x32_o0_25_S256x1 _ r q h))))

/-- The last three words and the product: the accumulator plus, over the chunk's features, the full count times the
    table chunk's entry. -/
theorem pay29_apply (v9 : IVec S256x32 32) (v70 : FVec Ideal S1024x132 .bf16) (v73 : IVec S1x1024 32)
    (prev : FVec Ideal S256x1024 .bf16) (acc : Vec Ideal S256x132 .f32) (r : Fin 256) (d : Fin 132)
    (h : ∀ q : Fin 1024, prev (ix2 r q) = pc (rowWords v9 r) (v73 (ix2 (0 : Fin 1) q)) 29) :
    k0_pay29 (F := Ideal) v9 v70 v73 prev acc (ix2 r d)
      = acc (ix2 r d) + ∑ q : Fin 1024, pc (rowWords v9 r) (v73 (ix2 (0 : Fin 1) q)) 32 * v70 (ix2 q d) := by
  rw [pay29_eq, addf_apply, countMatmul_apply]
  refine congrArg (acc (ix2 r d) + ·) (Finset.sum_congr rfl fun q _ => ?_)
  refine congrArg (· * v70 (ix2 q d)) ?_
  exact (addWord_pc v9 v73 31 (by decide) slices_S256x32_o0_31_S256x1 _ r q (addWord_pc v9 v73 30 (by decide) slices_S256x32_o0_30_S256x1 _ r q (addWord_pc v9 v73 29 (by decide) slices_S256x32_o0_29_S256x1 _ r q (h q))))

/-! ## The trip's white term -/

/-- The trip's number is below 20. -/
theorem trip_lt (k : Fin k0_t1_loop.trips) : k.val < 20 := Nat.lt_of_lt_of_le k.isLt k0_t1_abs.2.1

/-- The white accumulator after trip `k`, from the white index block, the trip's table chunk and the accumulator
    before the trip: the payloads of the trip's white chain, nested as the trip threads them. -/
abbrev whiteTerm (v9 : IVec S256x32 32) (v70 : FVec Ideal S1024x132 .bf16) (k : Fin k0_t1_loop.trips)
    (acc : Vec Ideal S256x132 .f32) : FVec Ideal S256x132 .f32 :=
  k0_pay29 (F := Ideal) v9 v70 (k0_pay3 0#32 1#32 k)
    (k0_pay26 (F := Ideal) v9 (k0_pay3 0#32 1#32 k)
      (k0_pay22 (F := Ideal) v9 (k0_pay3 0#32 1#32 k)
        (k0_pay19 (F := Ideal) v9 (k0_pay3 0#32 1#32 k)
          (k0_pay17 (F := Ideal) v9 (k0_pay3 0#32 1#32 k)
            (k0_pay14 (F := Ideal) v9 (k0_pay3 0#32 1#32 k)
              (k0_pay10 (F := Ideal) v9 (k0_pay3 0#32 1#32 k)
                (k0_pay7 (F := Ideal) v9 (k0_pay3 0#32 1#32 k) (k0_pay5 (F := Ideal) v9 0#32 1#32 k))
                (k0_pay9 v9 (k0_pay3 0#32 1#32 k)))
              (k0_pay12 v9))))
        (k0_pay21 v9 (k0_pay3 0#32 1#32 k)))
      (k0_pay24 v9))
    acc

/-- The white accumulator after trip `k`, entry by entry: the accumulator before, plus the sum over the chunk's 1024
    features of the row's count of the feature times the feature's table row. -/
theorem whiteTerm_apply (v9 : IVec S256x32 32) (v70 : FVec Ideal S1024x132 .bf16) (k : Fin k0_t1_loop.trips)
    (acc : Vec Ideal S256x132 .f32) (r : Fin 256) (d : Fin 132) :
    whiteTerm v9 v70 k acc (ix2 r d)
      = acc (ix2 r d) + ∑ q : Fin 1024,
          Cert.Spec.count (fun l => v9 (ix2 r l)) (Cert.Spec.feat ⟨k.val, trip_lt k⟩ q) * v70 (ix2 q d) := by
  refine (pay29_apply v9 v70 (k0_pay3 0#32 1#32 k) _ acc r d fun q =>
    pay26_pc v9 _ _ r q (pay22_pc v9 _ _ r q (pay19_pc v9 _ _ r q (pay17_pc v9 _ _ r q (pay14_pc v9 _ _ r q
      (pay10_pc v9 _ _ r q (pay7_pc v9 _ _ r q (pay5_pc v9 k r q)))))))).trans ?_
  refine congrArg (acc (ix2 r d) + ·) (Finset.sum_congr rfl fun q _ => ?_)
  refine congrArg (· * v70 (ix2 q d)) ?_
  rw [featRow_apply k q]
  exact pc_all (rowWords v9 r) (Cert.Spec.feat ⟨k.val, trip_lt k⟩ q)

end Cert.KernelIdeal.KCountW

end
-- ==== Proof.KCountB.lean ====
/-
  The black count chain of one loop trip, without memory.

  For one chunk `k` of 1024 features, the kernel builds from the black index block (256 bags of 32 words) the
  256 x 1024 matrix of counts: entry `(r, q)` is how many of row `r`'s 32 words equal feature `1024 k + q`.
  It starts from zeros and adds, word by word, the 0/1 matrix "word `l` of row `r` equals the feature".  The
  count matrix is then multiplied with the chunk of the table and added to the accumulator.
-/
import proofs.«411803_j3152505995829_2_alg».proof.Proof.Gen.KernelIdeal.Skeleton
import proofs.«411803_j3152505995829_2_alg».proof.Proof.Spec
import proofs.«411803_j3152505995829_2_alg».proof.Proof.Consts
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import Mathlib.Algebra.BigOperators.Fin
import Mathlib.Algebra.BigOperators.Intervals

noncomputable section

namespace Cert.KernelIdeal.KCountB

open Idealize.ShloMosaic Idealize.ShloMosaic.ValueIdx
open Cert.KernelIdeal Cert.KernelIdeal.Gen

/-- A trip number is below 20. -/
theorem trip_lt (k : Fin k0_t1_loop.trips) : k.val < 20 := Nat.lt_of_lt_of_le k.isLt k0_t1_abs.2.1

/-- The black accumulator after one trip: the count matrix of the chunk times the table chunk, added to what the
    accumulator held. -/
abbrev blackTerm (v11 : IVec S256x32 32) (v70 : FVec Ideal S1024x132 .bf16) (k : Fin k0_t1_loop.trips)
    (acc : Vec Ideal S256x132 .f32) : FVec Ideal S256x132 .f32 :=
  k0_pay35 (F := Ideal) v70
    (k0_pay28 (F := Ideal) v11 (k0_pay3 0#32 1#32 k)
      (k0_pay25 (F := Ideal) v11 (k0_pay3 0#32 1#32 k)
        (k0_pay23 (F := Ideal) v11 (k0_pay3 0#32 1#32 k)
          (k0_pay20 (F := Ideal) v11 (k0_pay3 0#32 1#32 k)
            (k0_pay16 (F := Ideal) v11 (k0_pay3 0#32 1#32 k)
              (k0_pay13 (F := Ideal) v11 (k0_pay3 0#32 1#32 k)
                (k0_pay11 (F := Ideal) v11 (k0_pay3 0#32 1#32 k)
                  (k0_pay8 (F := Ideal) v11 (k0_pay3 0#32 1#32 k)
                    (k0_pay4 (F := Ideal) v11 0#32 1#32 k) (k0_pay6 v11))))
              (k0_pay15 v11 (k0_pay3 0#32 1#32 k)))
            (k0_pay18 v11))))
      (k0_pay27 v11 (k0_pay3 0#32 1#32 k)))
    acc

/-! ## One word's 0/1 matrix -/

/-- Column `l` of a 256 x 32 block is a block of it. -/
theorem slices_col (l : Nat) (hl : l < 32) : S256x32.Slices ![0, l] S256x1 :=
  ⟨rfl, fun a => by
    match a with
    | ⟨0, _⟩ => exact Nat.le_refl _
    | ⟨1, _⟩ => exact hl⟩

/-- A one-column array broadcast over many columns reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bit of "two words are equal", widened to a word and converted, is the real 1 or 0. -/
theorem sitofp_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b
  · rw [if_pos h]; subst h; simp [IntOp.cmpi]
  · rw [if_neg h]; simp [IntOp.cmpi, h]

/-- The 0/1 matrix of word `l`: entry `(r, q)` says whether word `l` of row `r` is the feature at `q`. -/
def hot (ids : IVec S256x32 32) (v73 : IVec S1x1024 32) (l : Nat) (hl : l < 32) : FVec Ideal S256x1024 .bf16 :=
  truncf .bf16 (sitofp .f32 (extui 32 (cmpi .eq
    (broadcastTo S256x1024 (extractStridedSlice S256x1 ![0, l] ids (slices_col l hl)) broadcasts_S256x1_S256x1024)
    (broadcastTo S256x1024 v73 broadcasts_S1x1024_S256x1024)) natLt_1_32)) bitsLt_bf16_f32

theorem hot_apply (ids : IVec S256x32 32) (v73 : IVec S1x1024 32) (l : Nat) (hl : l < 32) (r : Fin 256) (q : Fin 1024) :
    (hot ids v73 l hl (ix2 r q) : EReal) = if ids (ix2 r ⟨l, hl⟩) = v73 (ix2 0 q) then 1 else 0 := by
  show (FloatOps.sitofp (F := Ideal) .f32 ((IntOp.cmpi .eq
      (broadcastTo S256x1024 (extractStridedSlice S256x1 ![0, l] ids (slices_col l hl)) broadcasts_S256x1_S256x1024 (ix2 r q))
      (broadcastTo S256x1024 v73 broadcasts_S1x1024_S256x1024 (ix2 r q))).setWidth 32) : EReal) = _
  rw [broadcastTo_a1_ab_apply, broadcastTo_1b_ab_apply,
    slice2_axis1_apply l ids (slices_col l hl) r (0 : Fin 1) ⟨l, hl⟩ (by simp), sitofp_cmpi_eq]

/-! ## The payloads of the chain, each as its words' 0/1 matrices added to what it is given -/

/-- The chain starts from zeros and adds words 0 and 1. -/
theorem pay4_eq (v11 : IVec S256x32 32) (k : Fin k0_t1_loop.trips) :
    k0_pay4 (F := Ideal) v11 0#32 1#32 k
      = addf (addf (broadcast S256x1024 (Scalar.ofBits (F := Ideal) .bf16 0x0000#16)) (hot v11 (k0_pay3 0#32 1#32 k) 0 (by decide))) (hot v11 (k0_pay3 0#32 1#32 k) 1 (by decide)) := rfl

/-- Words 2 to 5 (the column of word 2 comes cut out already). -/
theorem pay8_eq (v11 : IVec S256x32 32) (v73 : IVec S1x1024 32) (prev : FVec Ideal S256x1024 .bf16) :
    k0_pay8 (F := Ideal) v11 v73 prev (k0_pay6 v11)
      = addf (addf (addf (addf (prev) (hot v11 v73 2 (by decide))) (hot v11 v73 3 (by decide))) (hot v11 v73 4 (by decide))) (hot v11 v73 5 (by decide)) := rfl

/-- Words 6 to 9. -/
theorem pay11_eq (v11 : IVec S256x32 32) (v73 : IVec S1x1024 32) (prev : FVec Ideal S256x1024 .bf16) :
    k0_pay11 (F := Ideal) v11 v73 prev
      = addf (addf (addf (addf (prev) (hot v11 v73 6 (by decide))) (hot v11 v73 7 (by decide))) (hot v11 v73 8 (by decide))) (hot v11 v73 9 (by decide)) := rfl

/-- Words 10 to 12. -/
theorem pay13_eq (v11 : IVec S256x32 32) (v73 : IVec S1x1024 32) (prev : FVec Ideal S256x1024 .bf16) :
    k0_pay13 (F := Ideal) v11 v73 prev
      = addf (addf (addf (prev) (hot v11 v73 10 (by decide))) (hot v11 v73 11 (by decide))) (hot v11 v73 12 (by decide)) := rfl

/-- Words 13 to 16 (the comparison of word 13 comes made already). -/
theorem pay16_eq (v11 : IVec S256x32 32) (v73 : IVec S1x1024 32) (prev : FVec Ideal S256x1024 .bf16) :
    k0_pay16 (F := Ideal) v11 v73 prev (k0_pay15 v11 v73)
      = addf (addf (addf (addf (prev) (hot v11 v73 13 (by decide))) (hot v11 v73 14 (by decide))) (hot v11 v73 15 (by decide))) (hot v11 v73 16 (by decide)) := rfl

/-- Words 17 to 20 (the column of word 17 comes cut out already). -/
theorem pay20_eq (v11 : IVec S256x32 32) (v73 : IVec S1x1024 32) (prev : FVec Ideal S256x1024 .bf16) :
    k0_pay20 (F := Ideal) v11 v73 prev (k0_pay18 v11)
      = addf (addf (addf (addf (prev) (hot v11 v73 17 (by decide))) (hot v11 v73 18 (by decide))) (hot v11 v73 19 (by decide))) (hot v11 v73 20 (by decide)) := rfl

/-- Words 21 to 24. -/
theorem pay23_eq (v11 : IVec S256x32 32) (v73 : IVec S1x1024 32) (prev : FVec Ideal S256x1024 .bf16) :
    k0_pay23 (F := Ideal) v11 v73 prev
      = addf (addf (addf (addf (prev) (hot v11 v73 21 (by decide))) (hot v11 v73 22 (by decide))) (hot v11 v73 23 (by decide))) (hot v11 v73 24 (by decide)) := rfl

/-- Words 25 to 27. -/
theorem pay25_eq (v11 : IVec S256x32 32) (v73 : IVec S1x1024 32) (prev : FVec Ideal S256x1024 .bf16) :
    k0_pay25 (F := Ideal) v11 v73 prev
      = addf (addf (addf (prev) (hot v11 v73 25 (by decide))) (hot v11 v73 26 (by decide))) (hot v11 v73 27 (by decide)) := rfl

/-- Words 28 to 31 (the comparison of word 28 comes made already). -/
theorem pay28_eq (v11 : IVec S256x32 32) (v73 : IVec S1x1024 32) (prev : FVec Ideal S256x1024 .bf16) :
    k0_pay28 (F := Ideal) v11 v73 prev (k0_pay27 v11 v73)
      = addf (addf (addf (addf (prev) (hot v11 v73 28 (by decide))) (hot v11 v73 29 (by decide))) (hot v11 v73 30 (by decide))) (hot v11 v73 31 (by decide)) := rfl

/-! ## The feature row -/

/-- Entry `q` of the chunk's feature row is the word of feature `1024 k + q`. -/
theorem feat_row (k : Fin k0_t1_loop.trips) (q : Fin 1024) :
    k0_pay3 0#32 1#32 k (ix2 (0 : Fin 1) q) = BitVec.ofNat 32 (k.val * 1024 + q.val) := by
  show (0#32 + (0#32 + BitVec.ofNat 32 k.val * 1#32) * 1#32) * 1024#32 + BitVec.ofNat 32 (0 * 1024 + q.val) = _
  simp only [BitVec.zero_add, BitVec.mul_one, Nat.zero_mul, Nat.zero_add]
  rw [BitVec.ofNat_add, BitVec.ofNat_mul]

/-! ## The count matrix -/

/-- Whether word `l` of a row is the target, as 0 or 1; a row has 32 words, and a number past them counts nothing. -/
def hit (w : Fin 32 → BitVec 32) (t : BitVec 32) (l : Nat) : EReal :=
  if h : l < 32 then (if w ⟨l, h⟩ = t then 1 else 0) else 0

theorem hit_of_lt (w : Fin 32 → BitVec 32) (t : BitVec 32) (l : Nat) (h : l < 32) :
    hit w t l = if w ⟨l, h⟩ = t then 1 else 0 := dif_pos h

/-- The hits over the 32 word numbers add up to the count of the row's words equal to the target. -/
theorem sum_range_hit (w : Fin 32 → BitVec 32) (t : BitVec 32) :
    ∑ l ∈ Finset.range 32, hit w t l = ∑ l : Fin 32, if w l = t then (1 : EReal) else 0 := by
  rw [← Fin.sum_univ_eq_sum_range (fun l => hit w t l) 32]
  exact Finset.sum_congr rfl fun l _ => hit_of_lt w t l.val l.isLt

/-- Word `l`'s 0/1 matrix at `(r, q)` is the hit of word `l` of row `r` on the feature at `q`. -/
theorem hot_hit (ids : IVec S256x32 32) (v73 : IVec S1x1024 32) (l : Nat) (hl : l < 32) (r : Fin 256) (q : Fin 1024) :
    (hot ids v73 l hl (ix2 r q) : EReal) = hit (fun l => ids (ix2 r l)) (v73 (ix2 (0 : Fin 1) q)) l := by
  rw [hit_of_lt _ _ l hl]
  exact hot_apply ids v73 l hl r q

/-- The zero the chain starts from. -/
theorem zero_bf16 : (Scalar.ofBits (F := Ideal) .bf16 0x0000#16 : EReal) = 0 := Cert.Consts.ofBits_zero_bf16

/-- The count matrix of chunk `k`: what the chain leaves after its 32 words. -/
abbrev countMat (v11 : IVec S256x32 32) (k : Fin k0_t1_loop.trips) : FVec Ideal S256x1024 .bf16 :=
  k0_pay28 (F := Ideal) v11 (k0_pay3 0#32 1#32 k)
    (k0_pay25 (F := Ideal) v11 (k0_pay3 0#32 1#32 k)
      (k0_pay23 (F := Ideal) v11 (k0_pay3 0#32 1#32 k)
        (k0_pay20 (F := Ideal) v11 (k0_pay3 0#32 1#32 k)
          (k0_pay16 (F := Ideal) v11 (k0_pay3 0#32 1#32 k)
            (k0_pay13 (F := Ideal) v11 (k0_pay3 0#32 1#32 k)
              (k0_pay11 (F := Ideal) v11 (k0_pay3 0#32 1#32 k)
                (k0_pay8 (F := Ideal) v11 (k0_pay3 0#32 1#32 k)
                  (k0_pay4 (F := Ideal) v11 0#32 1#32 k) (k0_pay6 v11))))
            (k0_pay15 v11 (k0_pay3 0#32 1#32 k)))
          (k0_pay18 v11))))
    (k0_pay27 v11 (k0_pay3 0#32 1#32 k))

/-- Entry `(r, q)` of the count matrix is the number of row `r`'s words equal to the feature at `q`. -/
theorem countMat_apply (v11 : IVec S256x32 32) (k : Fin k0_t1_loop.trips) (r : Fin 256) (q : Fin 1024) :
    (countMat v11 k (ix2 r q) : EReal)
      = ∑ l : Fin 32, if v11 (ix2 r l) = k0_pay3 0#32 1#32 k (ix2 (0 : Fin 1) q) then (1 : EReal) else 0 := by
  rw [← sum_range_hit (fun l => v11 (ix2 r l))]
  simp only [Finset.sum_range_succ, Finset.sum_range_zero]
  unfold countMat
  rw [pay28_eq, pay25_eq, pay23_eq, pay20_eq, pay16_eq, pay13_eq, pay11_eq, pay8_eq, pay4_eq]
  simp only [addf_apply, hot_hit, broadcast_apply, zero_bf16]

/-! ## The product with the table chunk -/

/-- At output `(r, d)` and contracted coordinate `c` the product reads the count matrix at `(r, c)` … -/
theorem lhs_at (r : Fin 256) (d : Fin 132) (c : Fin 1024) :
    dot_S256x1024_S1024x132_S256x132_1_0_0_1_n_n.lhsIdx (ix2 r d)
      ((contrEquiv1 dot_S256x1024_S1024x132_S256x132_1_0_0_1_n_n 1024 rfl rfl).symm c) = ix2 r c := by
  have hc := contrEquiv1_symm_val dot_S256x1024_S1024x132_S256x132_1_0_0_1_n_n 1024 rfl rfl c
  funext ax; apply Fin.ext
  match ax with
  | ⟨0, _⟩ => simp [DotDims.lhsIdx, dot_S256x1024_S1024x132_S256x132_1_0_0_1_n_n]; rfl
  | ⟨1, _⟩ => simp [DotDims.lhsIdx, dot_S256x1024_S1024x132_S256x132_1_0_0_1_n_n]; exact hc

/-- … and the table chunk at `(c, d)`. -/
theorem rhs_at (r : Fin 256) (d : Fin 132) (c : Fin 1024) :
    dot_S256x1024_S1024x132_S256x132_1_0_0_1_n_n.rhsIdx (ix2 r d)
      ((contrEquiv1 dot_S256x1024_S1024x132_S256x132_1_0_0_1_n_n 1024 rfl rfl).symm c) = ix2 c d := by
  have hc := contrEquiv1_symm_val dot_S256x1024_S1024x132_S256x132_1_0_0_1_n_n 1024 rfl rfl c
  funext ax; apply Fin.ext
  match ax with
  | ⟨0, _⟩ => simp [DotDims.rhsIdx, dot_S256x1024_S1024x132_S256x132_1_0_0_1_n_n]; exact hc
  | ⟨1, _⟩ => simp [DotDims.rhsIdx, dot_S256x1024_S1024x132_S256x132_1_0_0_1_n_n]; rfl

/-- The closing payload at `(r, d)`: the accumulator's entry plus row `r` of the matrix times column `d` of the
    table chunk. -/
theorem pay35_apply (v70 : FVec Ideal S1024x132 .bf16) (M : FVec Ideal S256x1024 .bf16) (acc : Vec Ideal S256x132 .f32)
    (r : Fin 256) (d : Fin 132) :
    k0_pay35 (F := Ideal) v70 M acc (ix2 r d) = acc (ix2 r d) + ∑ q : Fin 1024, M (ix2 r q) * v70 (ix2 q d) := by
  unfold k0_pay35
  rw [shapeCast_self]
  show acc (ix2 r d) + FloatOps.matmul dot_S256x1024_S1024x132_S256x132_1_0_0_1_n_n none M v70
      (constant (F := Ideal) S256x132 .f32 0x00000000#32) (ix2 r d) = _
  rw [Ideal.matmul_constant_zero_apply,
    ← Equiv.sum_comp (contrEquiv1 dot_S256x1024_S1024x132_S256x132_1_0_0_1_n_n 1024 rfl rfl).symm]
  refine congrArg (acc (ix2 r d) + ·) (Finset.sum_congr rfl fun c _ => ?_)
  rw [lhs_at, rhs_at]

/-! ## One trip -/

/-- One trip adds to the accumulator, at row `r` and column `d`, the sum over the chunk's 1024 features of the
    row's count of the feature times the table chunk's entry. -/
theorem blackTerm_apply (v11 : IVec S256x32 32) (v70 : FVec Ideal S1024x132 .bf16) (k : Fin k0_t1_loop.trips)
    (acc : Vec Ideal S256x132 .f32) (r : Fin 256) (d : Fin 132) :
    blackTerm v11 v70 k acc (ix2 r d)
      = acc (ix2 r d) + ∑ q : Fin 1024,
          Cert.Spec.count (fun l => v11 (ix2 r l)) (Cert.Spec.feat ⟨k.val, trip_lt k⟩ q) * v70 (ix2 q d) := by
  refine (pay35_apply v70 (countMat v11 k) acc r d).trans ?_
  refine congrArg (acc (ix2 r d) + ·) (Finset.sum_congr rfl fun q _ => ?_)
  rw [countMat_apply, feat_row]
  rfl

end Cert.KernelIdeal.KCountB

end
-- ==== Proof.KFinal.lean ====
/-
  The kernel's closing arithmetic, read at one entry of the 256 x 4 block it stores.

  After the 20 chunks the body holds two accumulators of 256 x 132 extended reals. Of each, columns 0..127 plus the
  bias, clipped to [0, 1], are the white and the black half; columns 128..131 are the four piece-square sums. With
  s the row's entry of the 256 x 1 block, the body forms the row

      blended k = (1 - s) * (white ++ black) k + s * (black ++ white) k        (k below 256),

  multiplies it by the 256 x 4 layer weights into a zero accumulator, adds the layer bias, scales by (1 - 2 s) and
  adds the difference of the two accumulators' last four columns. Every operation is read at an index: a slice of
  columns shifts the column, a broadcast of a column or of a row forgets one coordinate, two halves side by side
  split on the column, a change of float format is the identity on the extended reals, and the product is the sum
  over the inner index. The result is the specification's `blockOutOf` over the two accumulators, term by term.
-/
import proofs.«411803_j3152505995829_2_alg».proof.Proof.Gen.KernelIdeal.Skeleton
import proofs.«411803_j3152505995829_2_alg».proof.Proof.Spec
import Idealize.ShloMosaic.PureOps.Ideal.Laws
import Idealize.ShloMosaic.Lib.ValueIdx
import Idealize.ShloMosaic.Lib.Pipeline.Value
import Idealize.ShloMosaic.Lib.ValueLayout
import proofs.«411803_j3152505995829_2_alg».proof.Proof.Consts

noncomputable section

namespace Cert.KernelIdeal.KFinal

open Cert.KernelIdeal Cert.KernelIdeal.Gen Idealize.ShloMosaic Idealize.ShloMosaic.ValueIdx

/-! ## Layout operations of this kernel read at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Columns 128..131 of a 256 x 132 array. -/
theorem tail4_apply (X : FVec Ideal S256x132 .f32) (r : Fin 256) (j : Fin 4) :
    extractStridedSlice S256x4 ![0, 128] X slices_S256x132_o0_128_S256x4 (ix2 r j)
      = X (ix2 r (⟨128 + j.val, by omega⟩ : Fin 132)) :=
  slice2_axis1_apply 128 X slices_S256x132_o0_128_S256x4 r j ⟨128 + j.val, by omega⟩ rfl

/-- Columns 0..127 of a 256 x 132 array. -/
theorem head128_apply (X : FVec Ideal S256x132 .f32) (r : Fin 256) (d : Fin 128) :
    extractStridedSlice S256x128 ![0, 0] X slices_S256x132_o0_0_S256x128 (ix2 r d)
      = X (ix2 r (⟨d.val, by omega⟩ : Fin 132)) :=
  slice2_axis1_apply 0 X slices_S256x132_o0_0_S256x128 r d ⟨d.val, by omega⟩ (Nat.zero_add _).symm

/-- Two 256 x 128 halves side by side: a column below 128 reads the left half. -/
theorem halves_apply_left (A B : FVec Ideal S256x128 .f32) (r : Fin 256) (k : Fin 256) (h : k.val < 128) :
    concatenate S256x256 1 [⟨S256x128, A⟩, ⟨S256x128, B⟩] concatenates_S256x128_S256x128_S256x256_d1 (ix2 r k)
      = A (ix2 r (⟨k.val, h⟩ : Fin 128)) :=
  concatenate_pair_apply_left (1 : Fin S256x256.rank) A B concatenates_S256x128_S256x128_S256x256_d1 (ix2 r k) rfl
    (ix2 r (⟨k.val, h⟩ : Fin 128)) (fun b => by
      match b with
      | ⟨0, _⟩ => rfl
      | ⟨1, _⟩ => rfl)

/-- … and a column from 128 on reads the right half, 128 columns back. -/
theorem halves_apply_right (A B : FVec Ideal S256x128 .f32) (r : Fin 256) (k : Fin 256) (h : ¬ k.val < 128) :
    concatenate S256x256 1 [⟨S256x128, A⟩, ⟨S256x128, B⟩] concatenates_S256x128_S256x128_S256x256_d1 (ix2 r k)
      = B (ix2 r (⟨k.val - 128, by omega⟩ : Fin 128)) :=
  concatenate_pair_apply_right (1 : Fin S256x256.rank) A B concatenates_S256x128_S256x128_S256x256_d1 (ix2 r k) rfl rfl
    (ix2 r (⟨k.val - 128, by omega⟩ : Fin 128)) (fun b hb => by
      match b with
      | ⟨0, _⟩ => rfl
      | ⟨1, _⟩ => exact absurd rfl hb)
    (by show (k.val - 128) + 128 = k.val; omega)

/-- The two halves side by side, as one case split on the column. -/
theorem halves_apply (A B : FVec Ideal S256x128 .f32) (r : Fin 256) (k : Fin 256) :
    concatenate S256x256 1 [⟨S256x128, A⟩, ⟨S256x128, B⟩] concatenates_S256x128_S256x128_S256x256_d1 (ix2 r k)
      = if h : k.val < 128 then A (ix2 r (⟨k.val, h⟩ : Fin 128)) else B (ix2 r (⟨k.val - 128, by omega⟩ : Fin 128)) := by
  by_cases h : k.val < 128
  · rw [dif_pos h]; exact halves_apply_left A B r k h
  · rw [dif_neg h]; exact halves_apply_right A B r k h

/-! ## The product with the layer weights, as a sum over the 256 blended entries -/

theorem lhs_dot_S256x256_S256x4_S256x4_1_0_0_1_n_n_0 (j : S256x4.Idx)
    (k : dot_S256x256_S256x4_S256x4_1_0_0_1_n_n.contr.Idx) :
    (dot_S256x256_S256x4_S256x4_1_0_0_1_n_n.lhsIdx j k 0).val = (j 0).val := rfl

theorem lhs_dot_S256x256_S256x4_S256x4_1_0_0_1_n_n_1 (j : S256x4.Idx)
    (k : dot_S256x256_S256x4_S256x4_1_0_0_1_n_n.contr.Idx) :
    (dot_S256x256_S256x4_S256x4_1_0_0_1_n_n.lhsIdx j k 1).val = (k ⟨0, by decide⟩).val :=
  dot_S256x256_S256x4_S256x4_1_0_0_1_n_n.lhsIdx_val_of_single (cl := 1) rfl j k

theorem rhs_dot_S256x256_S256x4_S256x4_1_0_0_1_n_n_0 (j : S256x4.Idx)
    (k : dot_S256x256_S256x4_S256x4_1_0_0_1_n_n.contr.Idx) :
    (dot_S256x256_S256x4_S256x4_1_0_0_1_n_n.rhsIdx j k 0).val = (k ⟨0, by decide⟩).val :=
  dot_S256x256_S256x4_S256x4_1_0_0_1_n_n.rhsIdx_val_of_single (cr := 0) rfl j k

theorem rhs_dot_S256x256_S256x4_S256x4_1_0_0_1_n_n_1 (j : S256x4.Idx)
    (k : dot_S256x256_S256x4_S256x4_1_0_0_1_n_n.contr.Idx) :
    (dot_S256x256_S256x4_S256x4_1_0_0_1_n_n.rhsIdx j k 1).val = (j 1).val := rfl

/-- A 256 x 256 matrix times a 256 x 4 matrix into a zero accumulator, at `(r, j)`: the sum over the inner index. -/
theorem matmul_zero_apply (A : FVec Ideal S256x256 .bf16) (B : FVec Ideal S256x4 .bf16) (r : Fin 256) (j : Fin 4) :
    matmul dot_S256x256_S256x4_S256x4_1_0_0_1_n_n none A B (constant (F := Ideal) S256x4 .f32 0x00000000#32) (ix2 r j)
      = ∑ k : Fin 256, A (ix2 r k) * B (ix2 k j) := by
  refine (Ideal.matmul_constant_zero_apply dot_S256x256_S256x4_S256x4_1_0_0_1_n_n none A B (ix2 r j)).trans ?_
  rw [← Equiv.sum_comp (contrEquiv1 dot_S256x256_S256x4_S256x4_1_0_0_1_n_n 256 rfl rfl).symm]
  refine Finset.sum_congr rfl fun k _ => ?_
  have hk := contrEquiv1_symm_val dot_S256x256_S256x4_S256x4_1_0_0_1_n_n 256 rfl rfl k
  have eL : dot_S256x256_S256x4_S256x4_1_0_0_1_n_n.lhsIdx (ix2 r j)
      ((contrEquiv1 dot_S256x256_S256x4_S256x4_1_0_0_1_n_n 256 rfl rfl).symm k) = ix2 r k := by
    funext a
    apply Fin.ext
    match a with
    | ⟨0, _⟩ => exact lhs_dot_S256x256_S256x4_S256x4_1_0_0_1_n_n_0 _ _
    | ⟨1, _⟩ => exact (lhs_dot_S256x256_S256x4_S256x4_1_0_0_1_n_n_1 _ _).trans hk
  have eR : dot_S256x256_S256x4_S256x4_1_0_0_1_n_n.rhsIdx (ix2 r j)
      ((contrEquiv1 dot_S256x256_S256x4_S256x4_1_0_0_1_n_n 256 rfl rfl).symm k) = ix2 k j := by
    funext a
    apply Fin.ext
    match a with
    | ⟨0, _⟩ => exact (rhs_dot_S256x256_S256x4_S256x4_1_0_0_1_n_n_0 _ _).trans hk
    | ⟨1, _⟩ => exact rhs_dot_S256x256_S256x4_S256x4_1_0_0_1_n_n_1 _ _
  rw [eL, eR]

/-! ## The two clipped halves -/

/-- The white half: the first accumulator's first 128 columns plus the bias, clipped to the unit interval. -/
theorem white_apply (v13 : Vec Ideal S256x132 .f32) (x4 : Vec Ideal S1x128 .f32) (r : Fin 256) (d : Fin 128) :
    k0_pay36 (F := Ideal) v13 x4 (ix2 r d) = Cert.Spec.whiteB (fun r d => v13 (ix2 r d)) x4 r d := by
  unfold k0_pay36 Cert.Spec.whiteB Cert.Spec.clip01
  show min (Ideal.ofBits .f32 0x3F800000#32) (max (Ideal.ofBits .f32 0x00000000#32)
      (extractStridedSlice S256x128 ![0, 0] v13 slices_S256x132_o0_0_S256x128 (ix2 r d)
        + broadcastTo S256x128 (shapeCast S1x128 x4 shapeCasts_S1x128_S1x128) broadcasts_S1x128_S256x128 (ix2 r d)))
      = min 1 (max 0 (v13 (ix2 r (⟨d.val, by omega⟩ : Fin 132)) + x4 (ix2 0 d)))
  rw [head128_apply, broadcastTo_1b_ab_apply, shapeCast_self, Cert.Consts.ofBits_one, Cert.Consts.ofBits_zero]

/-- The black half as the body builds it: the second accumulator's first 128 columns plus the bias, then the
    maximum with zero and the minimum with one. -/
abbrev blackVec (v14 : Vec Ideal S256x132 .f32) (x4 : Vec Ideal S1x128 .f32) : FVec Ideal S256x128 .f32 :=
  minimumf (broadcast S256x128 (Scalar.ofBits (F := Ideal) .f32 0x3F800000#32))
    (maximumf (k0_pay38 (F := Ideal)) (k0_pay37 (F := Ideal) v14 x4))

/-- The black half is the second accumulator's first 128 columns plus the bias, clipped to the unit interval. -/
theorem black_apply (v14 : Vec Ideal S256x132 .f32) (x4 : Vec Ideal S1x128 .f32) (r : Fin 256) (d : Fin 128) :
    blackVec v14 x4 (ix2 r d) = Cert.Spec.blackB (fun r d => v14 (ix2 r d)) x4 r d := by
  unfold blackVec k0_pay37 k0_pay38 Cert.Spec.blackB Cert.Spec.clip01
  show min (Ideal.ofBits .f32 0x3F800000#32) (max (Ideal.ofBits .f32 0x00000000#32)
      (extractStridedSlice S256x128 ![0, 0] v14 slices_S256x132_o0_0_S256x128 (ix2 r d)
        + broadcastTo S256x128 (shapeCast S1x128 x4 shapeCasts_S1x128_S1x128) broadcasts_S1x128_S256x128 (ix2 r d)))
      = min 1 (max 0 (v14 (ix2 r (⟨d.val, by omega⟩ : Fin 132)) + x4 (ix2 0 d)))
  rw [head128_apply, broadcastTo_1b_ab_apply, shapeCast_self, Cert.Consts.ofBits_one, Cert.Consts.ofBits_zero]

/-! ## One entry of the blended row -/

/-- Entry `k` of row `r` of the matrix the body multiplies by the layer weights: `(1 - s)` times white-then-black
    plus `s` times black-then-white. -/
theorem blended_apply (v13 v14 : Vec Ideal S256x132 .f32) (x4 : Vec Ideal S1x128 .f32)
    (x2 : Vec Ideal S256x1 .f32) (r k : Fin 256) :
    truncf .bf16
        (addf
          (mulf
            (broadcastTo S256x256
              (subf (broadcast S256x1 (Scalar.ofBits (F := Ideal) .f32 0x3F800000#32))
                (shapeCast S256x1 x2 shapeCasts_S256x1_S256x1))
              broadcasts_S256x1_S256x256)
            (concatenate S256x256 1 [⟨S256x128, k0_pay36 (F := Ideal) v13 x4⟩, ⟨S256x128, blackVec v14 x4⟩]
              concatenates_S256x128_S256x128_S256x256_d1))
          (mulf (broadcastTo S256x256 (shapeCast S256x1 x2 shapeCasts_S256x1_S256x1) broadcasts_S256x1_S256x256)
            (concatenate S256x256 1 [⟨S256x128, blackVec v14 x4⟩, ⟨S256x128, k0_pay36 (F := Ideal) v13 x4⟩]
              concatenates_S256x128_S256x128_S256x256_d1)))
        bitsLt_bf16_f32 (ix2 r k)
      = Cert.Spec.blendedB (fun r d => v13 (ix2 r d)) (fun r d => v14 (ix2 r d)) x2 x4 r k := by
  unfold Cert.Spec.blendedB Cert.Spec.waccB Cert.Spec.baccB
  rw [truncf_apply, addf_apply, mulf_apply, mulf_apply, broadcastTo_a1_ab_apply, broadcastTo_a1_ab_apply,
    halves_apply, halves_apply]
  simp only [white_apply, black_apply]
  rw [shapeCast_self, subf_apply, broadcast_apply]
  show (Ideal.ofBits .f32 0x3F800000#32 - x2 (ix2 r 0)) * _ + _ = _
  rw [Cert.Consts.ofBits_one]

/-! ## The closing arithmetic at an index -/

/-- What the body's last store writes at row `r`, column `j`: the difference of the two accumulators' last four
    columns, plus `(1 - 2 s)` times the blended row's product with the layer weights plus the layer bias. -/
theorem pay1_apply (v13 v14 : Vec Ideal S256x132 .f32) (x4 : Vec Ideal S1x128 .f32)
    (x2 : Vec Ideal S256x1 .f32) (x5 : Vec Ideal S256x4 .f32) (x6 : Vec Ideal S1x4 .f32)
    (r : Fin 256) (j : Fin 4) :
    k0_pay1 (F := Ideal) v13 v14 (k0_pay36 v13 x4) (k0_pay37 v14 x4)
        (Scalar.ofBits .f32 0x3F800000#32) (k0_pay38 (F := Ideal)) x2 x5 x6 (ix2 r j)
      = Cert.Spec.blockOutOf (fun r d => v13 (ix2 r d)) (fun r d => v14 (ix2 r d)) x2 x4 x5 x6 r j := by
  unfold k0_pay1 Cert.Spec.blockOutOf Cert.Spec.positionalB
  simp only [addf_apply, subf_apply, mulf_apply]
  rw [tail4_apply, tail4_apply, broadcastTo_a1_ab_apply, matmul_zero_apply, broadcastTo_1b_ab_apply]
  refine congrArg₂ (fun a b : EReal => a + b) rfl (congrArg₂ (fun a b : EReal => a * b) ?_
    (congrArg₂ (fun a b : EReal => a + b) (Finset.sum_congr rfl fun k _ => ?_) ?_))
  · rw [shapeCast_self]
    show Ideal.ofBits .f32 0x3F800000#32 - Ideal.ofBits .f32 0x40000000#32 * x2 (ix2 r 0) = _
    rw [Cert.Consts.ofBits_one, Cert.Consts.ofBits_two]
  · exact congrArg₂ (fun a b : EReal => a * b) (blended_apply v13 v14 x4 x2 r k)
      (congrFun (shapeCast_self x5 shapeCasts_S256x4_S256x4) (ix2 k j))
  · exact congrFun (shapeCast_self x6 shapeCasts_S1x4_S1x4) (ix2 0 j)

end Cert.KernelIdeal.KFinal

end
-- ==== Proof.KPoint.lean ====
/-
  One grid point of the kernel at the ideal instance: what the body leaves in the output block's staging buffer is,
  index by index, the function of the point's input blocks that `Cert.Spec.blockOut` states — the two accumulators
  after the 20 chunks are the count matrices of the two index blocks times the table, and the closing arithmetic is
  applied to them.
-/
import proofs.«411803_j3152505995829_2_alg».proof.Proof.Gen.KernelIdeal.Frame
import proofs.«411803_j3152505995829_2_alg».proof.Proof.Spec
import proofs.«411803_j3152505995829_2_alg».proof.Proof.Consts
import proofs.«411803_j3152505995829_2_alg».proof.Proof.KTrip
import proofs.«411803_j3152505995829_2_alg».proof.Proof.KCountW
import proofs.«411803_j3152505995829_2_alg».proof.Proof.KCountB
import proofs.«411803_j3152505995829_2_alg».proof.Proof.KFinal
import Idealize.ShloMosaic.Lib.Pipeline.Value
import Idealize.ShloMosaic.Lib.ValueIdx
import Mathlib.Algebra.BigOperators.Fin

noncomputable section

namespace Cert.KernelIdeal.KPoint

open Idealize.ShloMosaic Idealize.ShloMosaic.TcCoe Idealize.ShloMosaic.ValueIdx Idealize.SL.Sem
open Cert.KernelIdeal Cert.KernelIdeal.Gen Cert.KernelIdeal.KTrip

/-- The loop makes twenty trips. -/
theorem trips_eq : k0_t1_loop.trips = 20 := by decide

theorem lt_trips {c : ℕ} (h : c < 20) : c < k0_t1_loop.trips := trips_eq ▸ h

/-! The casts to the same shape are the identity; the zero block is zero. -/

theorem pay34_eq (v : FVec Ideal S256x132 .f32) : k0_pay34 (F := Ideal) v = v := by
  unfold k0_pay34; exact shapeCast_self _ _
theorem pay32_eq (v : Vec Ideal S256x32 .i32) : k0_pay32 (F := Ideal) v = v := by
  unfold k0_pay32; exact shapeCast_self _ _
theorem pay33_eq (v : Vec Ideal S256x32 .i32) : k0_pay33 (F := Ideal) v = v := by
  unfold k0_pay33; exact shapeCast_self _ _
theorem pay2_eq (v : Vec Ideal S1024x132 .bf16) : k0_pay2 (F := Ideal) v = v := by
  unfold k0_pay2; exact shapeCast_self _ _

theorem pay30_apply (r : Fin 256) (d : Fin 132) : k0_pay30 (F := Ideal) (ix2 r d) = 0 := by
  unfold k0_pay30
  rw [shapeCast_self]
  exact Cert.Consts.ofBits_zero
theorem pay31_apply (r : Fin 256) (d : Fin 132) : k0_pay31 (F := Ideal) (ix2 r d) = 0 := by
  unfold k0_pay31
  rw [shapeCast_self]
  exact Cert.Consts.ofBits_zero

/-- Chunk `c`'s share of an accumulator's entry in column `d`, for the row whose 32 words are `w`: the counts of the
    chunk's 1024 features among the words, times the chunk's column. -/
def contrib (w : Fin 32 → BitVec 32) (ch : Fin k0_t1_loop.trips → FVec Ideal S1024x132 .bf16) (d : Fin 132) (c : ℕ) : EReal :=
  if h : c < 20 then ∑ q : Fin 1024, Cert.Spec.count w (Cert.Spec.feat ⟨c, h⟩ q) * ch ⟨c, lt_trips h⟩ (ix2 q d) else 0

/-- The first accumulator after `n` trips, entry by entry: what it held plus the shares of the chunks before `n`. -/
theorem accW_apply (v9 : IVec S256x32 32) (ch : Fin k0_t1_loop.trips → FVec Ideal S1024x132 .bf16)
    (a0 : Vec Ideal S256x132 .f32) (r : Fin 256) (d : Fin 132) :
    ∀ n : ℕ, n ≤ k0_t1_loop.trips →
      accW v9 ch a0 n (ix2 r d) = a0 (ix2 r d) + ∑ c ∈ Finset.range n, contrib (fun l => v9 (ix2 r l)) ch d c
  | 0, _ => by
    show a0 (ix2 r d) = _
    rw [Finset.range_zero, Finset.sum_empty, add_zero]
  | n + 1, hn => by
    have ih := accW_apply v9 ch a0 r d n (Nat.le_of_succ_le hn)
    have e := accW_succ v9 ch a0 ⟨n, hn⟩
    dsimp only at e
    have h20 : n < 20 := trips_eq ▸ hn
    rw [e, pay34_eq]
    refine (KCountW.whiteTerm_apply v9 (ch ⟨n, hn⟩) ⟨n, hn⟩ (accW v9 ch a0 n) r d).trans ?_
    rw [ih, Finset.sum_range_succ, add_assoc]
    refine congrArg (fun t => a0 (ix2 r d) + (∑ c ∈ Finset.range n, contrib (fun l => v9 (ix2 r l)) ch d c + t)) ?_
    unfold contrib
    rw [dif_pos h20]

/-- The second accumulator after `n` trips, entry by entry. -/
theorem accB_apply (v11 : IVec S256x32 32) (ch : Fin k0_t1_loop.trips → FVec Ideal S1024x132 .bf16)
    (a0 : Vec Ideal S256x132 .f32) (r : Fin 256) (d : Fin 132) :
    ∀ n : ℕ, n ≤ k0_t1_loop.trips →
      accB v11 ch a0 n (ix2 r d) = a0 (ix2 r d) + ∑ c ∈ Finset.range n, contrib (fun l => v11 (ix2 r l)) ch d c
  | 0, _ => by
    show a0 (ix2 r d) = _
    rw [Finset.range_zero, Finset.sum_empty, add_zero]
  | n + 1, hn => by
    have ih := accB_apply v11 ch a0 r d n (Nat.le_of_succ_le hn)
    have e := accB_succ v11 ch a0 ⟨n, hn⟩
    dsimp only at e
    have h20 : n < 20 := trips_eq ▸ hn
    rw [e]
    refine (KCountB.blackTerm_apply v11 (ch ⟨n, hn⟩) ⟨n, hn⟩ (accB v11 ch a0 n) r d).trans ?_
    rw [ih, Finset.sum_range_succ, add_assoc]
    refine congrArg (fun t => a0 (ix2 r d) + (∑ c ∈ Finset.range n, contrib (fun l => v11 (ix2 r l)) ch d c + t)) ?_
    unfold contrib
    rw [dif_pos h20]

/-- Row `q` of chunk `k` of the table block is the block's row `1024 k + q`. -/
theorem chunkOf_apply (x3 : Vec Ideal S20480x132 .bf16) (c : ℕ) (h : c < 20) (q : Fin 1024) (d : Fin 132) :
    chunkOf (F := Ideal) x3 ⟨c, lt_trips h⟩ (ix2 q d) = x3 (ix2 (Cert.Spec.feat ⟨c, h⟩ q) d) := by
  dsimp only [chunkOf]
  rw [pay2_eq]
  show x3 _ = x3 _
  refine congrArg x3 (funext fun a => Fin.ext ?_)
  have hoff := k0_off1_eq ⟨c, lt_trips h⟩
  match a with
  | ⟨0, _⟩ =>
    show k0_off1 ⟨c, lt_trips h⟩ 0 + 1 * q.val = c * 1024 + q.val
    rw [hoff]
    show 1024 * c + 1 * q.val = c * 1024 + q.val
    omega
  | ⟨1, _⟩ =>
    show k0_off1 ⟨c, lt_trips h⟩ 1 + 1 * d.val = d.val
    rw [hoff]
    show 0 + 1 * d.val = d.val
    omega

/-- The shares of the twenty chunks of the table block add up to the count matrix times the block. -/
theorem sum_contrib (w : Fin 32 → BitVec 32) (x3 : Vec Ideal S20480x132 .bf16) (d : Fin 132) :
    ∑ c ∈ Finset.range k0_t1_loop.trips, contrib w (chunkOf (F := Ideal) x3) d c
      = Cert.Spec.bagCount (fun f d => x3 (ix2 f d)) w d := by
  rw [show Finset.range k0_t1_loop.trips = Finset.range 20 from congrArg Finset.range trips_eq, Finset.sum_range]
  unfold Cert.Spec.bagCount
  refine Finset.sum_congr rfl fun c _ => ?_
  unfold contrib
  rw [dif_pos c.isLt]
  refine Finset.sum_congr rfl fun q _ => ?_
  rw [chunkOf_apply x3 c.val c.isLt q d]

/-- The first accumulator after the twenty trips is the count matrix of the first index block times the table block. -/
theorem accWAt_apply (x0 : Vec Ideal S256x32 .i32) (x3 : Vec Ideal S20480x132 .bf16) (r : Fin 256) (d : Fin 132) :
    accWAt (F := Ideal) x0 x3 (ix2 r d) = Cert.Spec.accB x3 x0 r d := by
  dsimp only [accWAt]
  rw [accW_apply _ _ _ r d _ (le_refl _), pay30_apply, zero_add, pay32_eq, sum_contrib]
  rfl

/-- The second accumulator after the twenty trips is the count matrix of the second index block times the table block. -/
theorem accBAt_apply (x1 : Vec Ideal S256x32 .i32) (x3 : Vec Ideal S20480x132 .bf16) (r : Fin 256) (d : Fin 132) :
    accBAt (F := Ideal) x1 x3 (ix2 r d) = Cert.Spec.accB x3 x1 r d := by
  dsimp only [accBAt]
  rw [accB_apply _ _ _ r d _ (le_refl _), pay31_apply, zero_add, pay33_eq, sum_contrib]
  rfl

/-- What the body's one store leaves in the output block, read back: the specification's block function of the
    input blocks. -/
theorem out_eq (c : Dev nD) (i : grid0.Coords)
    (arg1 : Memref sig .tc .vmem S256x32 .i32) (harg1 : arg1.IsWhole) (arg2 : Memref sig .tc .vmem S256x32 .i32) (harg2 : arg2.IsWhole)
    (arg3 : Memref sig .tc .vmem S256x1 .f32) (harg3 : arg3.IsWhole) (arg4 : Memref sig .tc .vmem S20480x132 .bf16) (harg4 : arg4.IsWhole)
    (arg5 : Memref sig .tc .vmem S1x128 .f32) (harg5 : arg5.IsWhole) (arg6 : Memref sig .tc .vmem S256x4 .f32) (harg6 : arg6.IsWhole)
    (arg7 : Memref sig .tc .vmem S1x4 .f32) (harg7 : arg7.IsWhole) (arg8 : Memref sig .tc .vmem S256x4 .f32) (harg8 : arg8.IsWhole)
    (arg9 : Memref sig .tc .vmem S256x132 .f32) (harg9 : arg9.IsWhole) (arg10 : Memref sig .tc .vmem S256x132 .f32) (harg10 : arg10.IsWhole)
    (x0 : Vec Ideal S256x32 .i32) (x1 : Vec Ideal S256x32 .i32) (x2 : Vec Ideal S256x1 .f32) (x3 : Vec Ideal S20480x132 .bf16)
    (x4 : Vec Ideal S1x128 .f32) (x5 : Vec Ideal S256x4 .f32) (x6 : Vec Ideal S1x4 .f32) (r : Fin 256) (j : Fin 4) :
    out0_A_7 (F := Ideal) c i arg1 harg1 arg2 harg2 arg3 harg3 arg4 harg4 arg5 harg5 arg6 harg6 arg7 harg7 arg8 harg8
        arg9 harg9 arg10 harg10 x0 x1 x2 x3 x4 x5 x6 (ix2 r j)
      = Cert.Spec.blockOut x0 x1 x2 x3 x4 x5 x6 r j := by
  refine (congrFun (out_pieces (F := Ideal) c i arg1 harg1 arg2 harg2 arg3 harg3 arg4 harg4 arg5 harg5 arg6 harg6 arg7 harg7
    arg8 harg8 arg9 harg9 arg10 harg10 x0 x1 x2 x3 x4 x5 x6) (ix2 r j)).trans ?_
  refine (Cert.KernelIdeal.KFinal.pay1_apply (accWAt (F := Ideal) x0 x3) (accBAt (F := Ideal) x1 x3) x4 x2 x5 x6 r j).trans ?_
  have eW : (fun r d => accWAt (F := Ideal) x0 x3 (ix2 r d)) = Cert.Spec.accB x3 x0 :=
    funext fun r => funext fun d => accWAt_apply x0 x3 r d
  have eB : (fun r d => accBAt (F := Ideal) x1 x3 (ix2 r d)) = Cert.Spec.accB x3 x1 :=
    funext fun r => funext fun d => accBAt_apply x1 x3 r d
  rw [eW, eB]
  rfl

end Cert.KernelIdeal.KPoint

end
-- ==== Proof.SpecAlgebra.lean ====
/-
  The laws that join the two spellings of the function.

  (1) A count matrix times a table is a sum of selected rows: for 32 words all below 20480,
      sum over features f of (number of words equal to f) * T f  =  sum over the words of T (word).
      Each word contributes to exactly one feature; a count is a sum of zeros and ones, and a product with a
      nonnegative sum distributes over it on the extended reals.
  (2) For real `s` and `p`:  (1 - 2 s) p = (1 - s) p + s (-p).  The positional term is real when `s`, the layer
      weights and the layer bias are: the clipped accumulators lie in [0, 1] whatever the bag sums are.
  (3) A grid point's block is the function's restriction to its 256 bags.
-/
import proofs.«411803_j3152505995829_2_alg».proof.Proof.Spec

noncomputable section

namespace Cert.Spec

open Idealize.ShloMosaic Idealize.ShloMosaic.ValueIdx

/-! ## Law (1): the count matrix times the table -/

/-- The features in 20 chunks of 1024 are the features: `(c, q) ↦ 1024 c + q` is a bijection. -/
def featEquiv : Fin 20 × Fin 1024 ≃ Fin 20480 where
  toFun p := feat p.1 p.2
  invFun f := (⟨f.val / 1024, by omega⟩, ⟨f.val % 1024, by omega⟩)
  left_inv := by
    rintro ⟨c, q⟩
    refine Prod.ext (Fin.ext ?_) (Fin.ext ?_)
    · show (c.val * 1024 + q.val) / 1024 = c.val
      omega
    · show (c.val * 1024 + q.val) % 1024 = q.val
      omega
  right_inv := by
    intro f
    refine Fin.ext ?_
    show f.val / 1024 * 1024 + f.val % 1024 = f.val
    omega

/-- A sum over the 20 chunks of 1024 is the sum over the features. -/
theorem sum_feat (g : Fin 20480 → EReal) : ∑ c : Fin 20, ∑ q : Fin 1024, g (feat c q) = ∑ f : Fin 20480, g f := by
  rw [← Equiv.sum_comp featEquiv g, Fintype.sum_prod_type]
  rfl

/-- On the extended reals a product distributes over a sum of nonnegative terms. -/
theorem sum_mul_of_nonneg {ι : Type} (S : Finset ι) (f : ι → EReal) (hf : ∀ i, 0 ≤ f i) (x : EReal) :
    (∑ i ∈ S, f i) * x = ∑ i ∈ S, f i * x := by
  classical
  induction S using Finset.induction_on with
  | empty => simp
  | insert a S ha ih =>
    rw [Finset.sum_insert ha, Finset.sum_insert ha, EReal.right_distrib_of_nonneg (hf a) (Finset.sum_nonneg fun i _ => hf i), ih]

/-- Law (1). -/
theorem bagCount_eq {d : Nat} (T : Fin 20480 → Fin d → EReal) (w : Fin 32 → BitVec 32)
    (hw : ∀ l, (w l).toNat < 20480) (j : Fin d) :
    bagCount T w j = ∑ l : Fin 32, T ⟨(w l).toNat % 20480, Nat.mod_lt _ (by norm_num)⟩ j := by
  unfold bagCount
  rw [sum_feat (fun f => count w f * T f j)]
  unfold count
  -- the product with a count is the sum of the products with its zeros and ones
  have hdist : ∀ f : Fin 20480, (∑ l : Fin 32, if w l = BitVec.ofNat 32 f.val then (1 : EReal) else 0) * T f j
      = ∑ l : Fin 32, (if w l = BitVec.ofNat 32 f.val then (1 : EReal) else 0) * T f j := fun f =>
    sum_mul_of_nonneg _ _ (fun l => by split <;> simp) _
  rw [Finset.sum_congr rfl (fun f _ => hdist f), Finset.sum_comm]
  refine Finset.sum_congr rfl (fun l _ => ?_)
  -- word l meets exactly one feature: its own value
  have hl := hw l
  rw [Finset.sum_eq_single (⟨(w l).toNat % 20480, Nat.mod_lt _ (by norm_num)⟩ : Fin 20480)]
  · have e : w l = BitVec.ofNat 32 ((w l).toNat % 20480) := by
      apply BitVec.eq_of_toNat_eq
      rw [BitVec.toNat_ofNat, Nat.mod_eq_of_lt hl, Nat.mod_eq_of_lt (by omega)]
    rw [if_pos e, one_mul]
  · intro f _ hf
    have ne : ¬ w l = BitVec.ofNat 32 f.val := by
      intro e
      apply hf
      apply Fin.ext
      have := congrArg BitVec.toNat e
      rw [BitVec.toNat_ofNat, Nat.mod_eq_of_lt (by have := f.isLt; omega)] at this
      show f.val = (w l).toNat % 20480
      rw [Nat.mod_eq_of_lt hl]
      exact this.symm
    rw [if_neg ne, zero_mul]
  · intro h
    exact absurd (Finset.mem_univ _) h

/-! ## Law (2): the last line, over the reals -/

/-- Clipping lands in the unit interval, so it is real. -/
theorem clip01_isFin (x : EReal) : IsFin (clip01 x) := by
  unfold clip01 IsFin
  have h1 : (0 : EReal) ≤ min 1 (max 0 x) := le_min zero_le_one (le_max_left _ _)
  have h2 : min 1 (max 0 x) ≤ (1 : EReal) := min_le_left _ _
  exact ⟨ne_of_gt (lt_of_lt_of_le EReal.bot_lt_zero h1), ne_of_lt (lt_of_le_of_lt h2 (EReal.coe_lt_top 1))⟩

/-- A real extended real is the image of a real number. -/
theorem IsFin.exists_coe {x : EReal} (h : IsFin x) : ∃ r : ℝ, x = (r : EReal) :=
  ⟨x.toReal, (EReal.coe_toReal h.2 h.1).symm⟩

theorem isFin_coe (r : ℝ) : IsFin (r : EReal) := ⟨EReal.coe_ne_bot r, EReal.coe_ne_top r⟩

theorem IsFin.add {x y : EReal} (hx : IsFin x) (hy : IsFin y) : IsFin (x + y) := by
  obtain ⟨a, rfl⟩ := hx.exists_coe
  obtain ⟨b, rfl⟩ := hy.exists_coe
  rw [← EReal.coe_add]; exact isFin_coe _

theorem IsFin.mul {x y : EReal} (hx : IsFin x) (hy : IsFin y) : IsFin (x * y) := by
  obtain ⟨a, rfl⟩ := hx.exists_coe
  obtain ⟨b, rfl⟩ := hy.exists_coe
  rw [← EReal.coe_mul]; exact isFin_coe _

theorem IsFin.sub {x y : EReal} (hx : IsFin x) (hy : IsFin y) : IsFin (x - y) := by
  obtain ⟨a, rfl⟩ := hx.exists_coe
  obtain ⟨b, rfl⟩ := hy.exists_coe
  rw [← EReal.coe_sub]; exact isFin_coe _

theorem isFin_one : IsFin (1 : EReal) := isFin_coe 1

theorem isFin_sum {ι : Type} (S : Finset ι) (f : ι → EReal) (hf : ∀ i, IsFin (f i)) : IsFin (∑ i ∈ S, f i) := by
  classical
  induction S using Finset.induction_on with
  | empty => rw [Finset.sum_empty]; exact isFin_coe 0
  | insert a S ha ih => rw [Finset.sum_insert ha]; exact (hf a).add ih

/-- The positional term is real when `s`, the layer weights and the layer bias are. -/
theorem positional_isFin (wc bc : Cols) (s : FVec Ideal (⟨1, ![65536]⟩ : Shape) .f32) (aw : Tab 128)
    (ab : FVec Ideal (⟨1, ![128]⟩ : Shape) .f32) (lw : FVec Ideal (⟨2, ![4, 256]⟩ : Shape) .f32)
    (lb : FVec Ideal (⟨1, ![4]⟩ : Shape) .f32)
    (hs : ∀ i, IsFin (s i)) (hlw : ∀ i, IsFin (lw i)) (hlb : ∀ i, IsFin (lb i)) (b : Fin 65536) (j : Fin 4) :
    IsFin (positional wc bc s aw ab lw lb b j) := by
  have hwacc : ∀ k, IsFin (wacc wc bc aw ab b k) := fun k => by
    unfold wacc white black; split <;> exact clip01_isFin _
  have hbacc : ∀ k, IsFin (bacc wc bc aw ab b k) := fun k => by
    unfold bacc white black; split <;> exact clip01_isFin _
  have hbl : ∀ k, IsFin (blended wc bc s aw ab b k) := fun k => by
    unfold blended
    exact ((isFin_one.sub (hs _)).mul (hwacc k)).add ((hs _).mul (hbacc k))
  unfold positional
  exact (isFin_sum _ _ (fun k => (hbl k).mul (hlw _))).add (hlb _)

/-- For real `s` and `p`: (1 - 2 s) p = (1 - s) p + s (-p). -/
theorem last_line {s p : EReal} (hs : IsFin s) (hp : IsFin p) : (1 - 2 * s) * p = (1 - s) * p + s * (-p) := by
  obtain ⟨a, rfl⟩ := hs.exists_coe
  obtain ⟨c, rfl⟩ := hp.exists_coe
  have two : (2 : EReal) = ((2 : ℝ) : EReal) := rfl
  rw [two, ← EReal.coe_one, ← EReal.coe_mul, ← EReal.coe_sub, ← EReal.coe_mul, ← EReal.coe_sub, ← EReal.coe_mul,
    ← EReal.coe_neg, ← EReal.coe_mul, ← EReal.coe_add]
  congr 1
  ring

/-- Law (2), on the function: the two spellings of the last line agree when `s`, the layer weights and the layer
    bias are real. -/
theorem outKer_eq_outRef (wc bc : Cols) (s : FVec Ideal (⟨1, ![65536]⟩ : Shape) .f32) (pw : Tab 4) (aw : Tab 128)
    (ab : FVec Ideal (⟨1, ![128]⟩ : Shape) .f32) (lw : FVec Ideal (⟨2, ![4, 256]⟩ : Shape) .f32)
    (lb : FVec Ideal (⟨1, ![4]⟩ : Shape) .f32)
    (hs : ∀ i, IsFin (s i)) (hlw : ∀ i, IsFin (lw i)) (hlb : ∀ i, IsFin (lb i)) (b : Fin 65536) (j : Fin 4) :
    outKer wc bc s pw aw ab lw lb b j = outRef wc bc s pw aw ab lw lb b j := by
  unfold outKer outRef
  rw [last_line (hs _) (positional_isFin wc bc s aw ab lw lb hs hlw hlb b j)]

/-! ## Law (3): a grid point's block -/

/-- A row of an accumulator is the sum of the 32 rows of the combined table that the row's words select. -/
theorem accB_eq (x3 : FVec Ideal (⟨2, ![20480, 132]⟩ : Shape) .bf16) (ids : IVec (⟨2, ![256, 32]⟩ : Shape) 32)
    (cols : Cols) (B : Fin 65536) (r : Fin 256) (hids : ∀ l : Fin 32, ids (ix2 r l) = word cols B l)
    (hc : ∀ i, (cols i).toNat < 20480) (d : Fin 132) :
    accB x3 ids r d = ∑ l : Fin 32, x3 (ix2 (row cols B l) d) := by
  unfold accB
  rw [bagCount_eq _ _ (fun l => by rw [hids l]; exact hc _)]
  refine Finset.sum_congr rfl (fun l _ => ?_)
  show x3 (ix2 ⟨(ids (ix2 r l)).toNat % 20480, _⟩ d) = x3 (ix2 ⟨(word cols B l).toNat % 20480, _⟩ d)
  congr 3
  rw [hids l]

/-- Law (3): grid point `t` sees bags `256 t .. 256 t + 255`; its block entries are the function's. -/
theorem blockOut_eq (t : Fin 256)
    (x0 x1 : IVec (⟨2, ![256, 32]⟩ : Shape) 32) (x2 : FVec Ideal (⟨2, ![256, 1]⟩ : Shape) .f32)
    (x3 : FVec Ideal (⟨2, ![20480, 132]⟩ : Shape) .bf16) (x4 : FVec Ideal (⟨2, ![1, 128]⟩ : Shape) .f32)
    (x5 : FVec Ideal (⟨2, ![256, 4]⟩ : Shape) .f32) (x6 : FVec Ideal (⟨2, ![1, 4]⟩ : Shape) .f32)
    (wc bc : Cols) (s : FVec Ideal (⟨1, ![65536]⟩ : Shape) .f32) (pw : Tab 4) (aw : Tab 128)
    (ab : FVec Ideal (⟨1, ![128]⟩ : Shape) .f32) (lw : FVec Ideal (⟨2, ![4, 256]⟩ : Shape) .f32)
    (lb : FVec Ideal (⟨1, ![4]⟩ : Shape) .f32)
    (h0 : ∀ (r : Fin 256) (l : Fin 32), x0 (ix2 r l) = word wc ⟨t.val * 256 + r.val, by omega⟩ l)
    (h1 : ∀ (r : Fin 256) (l : Fin 32), x1 (ix2 r l) = word bc ⟨t.val * 256 + r.val, by omega⟩ l)
    (h2 : ∀ r : Fin 256, x2 (ix2 r 0) = s (ix1 ⟨t.val * 256 + r.val, by omega⟩))
    (h3a : ∀ (f : Fin 20480) (d : Fin 128), x3 (ix2 f ⟨d.val, by omega⟩) = aw (ix2 f d))
    (h3p : ∀ (f : Fin 20480) (j : Fin 4), x3 (ix2 f ⟨128 + j.val, by omega⟩) = pw (ix2 f j))
    (h4 : ∀ d : Fin 128, x4 (ix2 0 d) = ab (ix1 d))
    (h5 : ∀ (k : Fin 256) (j : Fin 4), x5 (ix2 k j) = lw (ix2 j k))
    (h6 : ∀ j : Fin 4, x6 (ix2 0 j) = lb (ix1 j))
    (hw : ∀ i, (wc i).toNat < 20480) (hb : ∀ i, (bc i).toNat < 20480)
    (r : Fin 256) (j : Fin 4) :
    blockOut x0 x1 x2 x3 x4 x5 x6 r j = outKer wc bc s pw aw ab lw lb ⟨t.val * 256 + r.val, by omega⟩ j := by
  -- the two accumulators' rows are bag sums over the combined table
  have aW := accB_eq x3 x0 wc ⟨t.val * 256 + r.val, by omega⟩ r (h0 r) hw
  have aB := accB_eq x3 x1 bc ⟨t.val * 256 + r.val, by omega⟩ r (h1 r) hb
  -- columns 0..127 are the acc_w part, 128..131 the psqt_w part
  have accW : ∀ d : Fin 128, accB x3 x0 r ⟨d.val, by omega⟩ = bag aw wc ⟨t.val * 256 + r.val, by omega⟩ d := fun d => by
    rw [aW]; unfold bag; exact Finset.sum_congr rfl (fun l _ => h3a _ d)
  have accBk : ∀ d : Fin 128, accB x3 x1 r ⟨d.val, by omega⟩ = bag aw bc ⟨t.val * 256 + r.val, by omega⟩ d := fun d => by
    rw [aB]; unfold bag; exact Finset.sum_congr rfl (fun l _ => h3a _ d)
  have psW : accB x3 x0 r ⟨128 + j.val, by omega⟩ = bag pw wc ⟨t.val * 256 + r.val, by omega⟩ j := by
    rw [aW]; unfold bag; exact Finset.sum_congr rfl (fun l _ => h3p _ j)
  have psB : accB x3 x1 r ⟨128 + j.val, by omega⟩ = bag pw bc ⟨t.val * 256 + r.val, by omega⟩ j := by
    rw [aB]; unfold bag; exact Finset.sum_congr rfl (fun l _ => h3p _ j)
  -- the clipped accumulators
  have hwhite : ∀ d : Fin 128, whiteB (accB x3 x0) x4 r d = white wc aw ab ⟨t.val * 256 + r.val, by omega⟩ d := fun d => by
    unfold whiteB white; rw [accW d, h4 d]
  have hblack : ∀ d : Fin 128, blackB (accB x3 x1) x4 r d = black bc aw ab ⟨t.val * 256 + r.val, by omega⟩ d := fun d => by
    unfold blackB black; rw [accBk d, h4 d]
  have hwacc : ∀ k : Fin 256, waccB (accB x3 x0) (accB x3 x1) x4 r k = wacc wc bc aw ab ⟨t.val * 256 + r.val, by omega⟩ k := fun k => by
    unfold waccB wacc; split
    · exact hwhite _
    · exact hblack _
  have hbacc : ∀ k : Fin 256, baccB (accB x3 x0) (accB x3 x1) x4 r k = bacc wc bc aw ab ⟨t.val * 256 + r.val, by omega⟩ k := fun k => by
    unfold baccB bacc; split
    · exact hblack _
    · exact hwhite _
  have hblend : ∀ k : Fin 256, blendedB (accB x3 x0) (accB x3 x1) x2 x4 r k
      = blended wc bc s aw ab ⟨t.val * 256 + r.val, by omega⟩ k := fun k => by
    unfold blendedB blended; rw [h2 r, hwacc k, hbacc k]
  have hpos : positionalB (accB x3 x0) (accB x3 x1) x2 x4 x5 x6 r j
      = positional wc bc s aw ab lw lb ⟨t.val * 256 + r.val, by omega⟩ j := by
    unfold positionalB positional
    rw [h6 j, Finset.sum_congr rfl (fun k _ => by rw [hblend k, h5 k j])]
  unfold blockOut blockOutOf outKer psqt
  rw [psW, psB, hpos, h2 r]

end Cert.Spec

end
-- ==== Proof.KArray.lean ====
/-
  From grid points to the whole array.

  The region finds, beside the argument arrays, seven arrays the program's first lines made: the two index arrays
  and `s` reshaped (65536 x 32, 65536 x 32, 65536 x 1), the combined table (acc_w next to psqt_w, 20480 x 132), the
  bias as a row, the transposed layer weights and the layer bias as a row.  Grid point `t` reads rows
  `256 t .. 256 t + 255` of the first three and all of the last four, and writes rows `256 t .. 256 t + 255` of the
  result; the 256 blocks tile the result, so the result array is the specification's function everywhere.
-/
import proofs.«411803_j3152505995829_2_alg».proof.Proof.Gen.KernelIdeal.Value
import proofs.«411803_j3152505995829_2_alg».proof.Proof.KPoint
import proofs.«411803_j3152505995829_2_alg».proof.Proof.SpecAlgebra
import Idealize.ShloMosaic.Lib.Pipeline.Value
import Idealize.ShloMosaic.Lib.ValueIdx
import Idealize.ShloMosaic.Lib.StableHlo.Run

noncomputable section

namespace Cert.KernelIdeal.KArray

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The arrays the region finds, in terms of the arguments -/

theorem V_v0 (c : Dev nD) : (V m c main_v0 : S65536x32.Idx → BitVec 32)
    = shapeCast S65536x32 (m ((c : Thread nD τ).loc main_arg1)) shapeCasts_S2097152_S65536x32 := by
  dsimp only [Gen.V, Gen.hostOps0]; after_results <;> rfl

theorem V_v1 (c : Dev nD) : (V m c main_v1 : S65536x32.Idx → BitVec 32)
    = shapeCast S65536x32 (m ((c : Thread nD τ).loc main_arg3)) shapeCasts_S2097152_S65536x32 := by
  dsimp only [Gen.V, Gen.hostOps0]; after_results <;> rfl

theorem V_v2 (c : Dev nD) : (V m c main_v2 : S65536x1.Idx → EReal)
    = shapeCast S65536x1 (m ((c : Thread nD τ).loc main_arg4)) shapeCasts_S65536_S65536x1 := by
  dsimp only [Gen.V, Gen.hostOps0]; after_results <;> rfl

theorem V_v4 (c : Dev nD) : (V m c main_v4 : S20480x132.Idx → EReal)
    = truncf (F := Ideal) .bf16 (concatenate S20480x132 1 [⟨S20480x128, m ((c : Thread nD τ).loc main_arg6)⟩, ⟨S20480x4, m ((c : Thread nD τ).loc main_arg5)⟩] concatenates_S20480x128_S20480x4_S20480x132_d1) bitsLt_bf16_f32 := by
  dsimp only [Gen.V, Gen.hostOps0]; after_results <;> rfl

theorem V_v5 (c : Dev nD) : (V m c main_v5 : S1x128.Idx → EReal)
    = shapeCast S1x128 (m ((c : Thread nD τ).loc main_arg7)) shapeCasts_S128_S1x128 := by
  dsimp only [Gen.V, Gen.hostOps0]; after_results <;> rfl

theorem V_v6 (c : Dev nD) : (V m c main_v6 : S256x4.Idx → EReal)
    = transpose S256x4 [1, 0] (m ((c : Thread nD τ).loc main_arg8)) transposes_S4x256_S256x4_1_0 := by
  dsimp only [Gen.V, Gen.hostOps0]; after_results <;> rfl

theorem V_v7 (c : Dev nD) : (V m c main_v7 : S1x4.Idx → EReal)
    = shapeCast S1x4 (m ((c : Thread nD τ).loc main_arg9)) shapeCasts_S4_S1x4 := by
  dsimp only [Gen.V, Gen.hostOps0]; after_results <;> rfl

/-! ## Those arrays read at an index -/

theorem v0_apply (c : Dev nD) (b : Fin 65536) (l : Fin 32) :
    V m c main_v0 (ix2 b l) = Cert.Spec.word (m ((c : Thread nD τ).loc main_arg1)) b l :=
  (congrFun (V_v0 m c) (ix2 b l)).trans
    (shapeCast_apply _ _ (ix2 b l) (ix1 (Cert.Spec.pos b l)) (by rw [Shape.rowMajor_val_one, Shape.rowMajor_val_two]; rfl))

theorem v1_apply (c : Dev nD) (b : Fin 65536) (l : Fin 32) :
    V m c main_v1 (ix2 b l) = Cert.Spec.word (m ((c : Thread nD τ).loc main_arg3)) b l :=
  (congrFun (V_v1 m c) (ix2 b l)).trans
    (shapeCast_apply _ _ (ix2 b l) (ix1 (Cert.Spec.pos b l)) (by rw [Shape.rowMajor_val_one, Shape.rowMajor_val_two]; rfl))

theorem v2_apply (c : Dev nD) (b : Fin 65536) :
    V m c main_v2 (ix2 b 0) = m ((c : Thread nD τ).loc main_arg4) (ix1 b) :=
  (congrFun (V_v2 m c) (ix2 b 0)).trans
    (shapeCast_apply _ _ (ix2 b 0) (ix1 b) (by rw [Shape.rowMajor_val_one, Shape.rowMajor_val_two]; show b.val = b.val * 1 + 0; omega))

theorem v4_apply_acc (c : Dev nD) (f : Fin 20480) (d : Fin 128) :
    V m c main_v4 (ix2 f ⟨d.val, by omega⟩) = m ((c : Thread nD τ).loc main_arg6) (ix2 f d) :=
  (congrFun (V_v4 m c) (ix2 f ⟨d.val, by omega⟩)).trans
    (show concatenate S20480x132 1 [⟨S20480x128, m ((c : Thread nD τ).loc main_arg6)⟩, ⟨S20480x4, m ((c : Thread nD τ).loc main_arg5)⟩] concatenates_S20480x128_S20480x4_S20480x132_d1 (ix2 f ⟨d.val, by omega⟩) = _ from
      concatenate_pair_apply_left (t := S20480x132) (s₁ := S20480x128) (s₂ := S20480x4) (1 : Fin 2) _ _ concatenates_S20480x128_S20480x4_S20480x132_d1 (ix2 f ⟨d.val, by omega⟩) rfl (ix2 f d)
        (fun b => by match b with | ⟨0, _⟩ => rfl | ⟨1, _⟩ => rfl))

theorem v4_apply_psqt (c : Dev nD) (f : Fin 20480) (j : Fin 4) :
    V m c main_v4 (ix2 f ⟨128 + j.val, by omega⟩) = m ((c : Thread nD τ).loc main_arg5) (ix2 f j) :=
  (congrFun (V_v4 m c) (ix2 f ⟨128 + j.val, by omega⟩)).trans
    (show concatenate S20480x132 1 [⟨S20480x128, m ((c : Thread nD τ).loc main_arg6)⟩, ⟨S20480x4, m ((c : Thread nD τ).loc main_arg5)⟩] concatenates_S20480x128_S20480x4_S20480x132_d1 (ix2 f ⟨128 + j.val, by omega⟩) = _ from
      concatenate_pair_apply_right (t := S20480x132) (s₁ := S20480x128) (s₂ := S20480x4) (1 : Fin 2) _ _ concatenates_S20480x128_S20480x4_S20480x132_d1 (ix2 f ⟨128 + j.val, by omega⟩) rfl rfl (ix2 f j)
        (fun b hb => by match b with | ⟨0, _⟩ => rfl | ⟨1, _⟩ => exact absurd rfl hb)
        (by show j.val + 128 = 128 + j.val; omega))

theorem v5_apply (c : Dev nD) (d : Fin 128) :
    V m c main_v5 (ix2 0 d) = m ((c : Thread nD τ).loc main_arg7) (ix1 d) :=
  (congrFun (V_v5 m c) (ix2 0 d)).trans
    (shapeCast_apply _ _ (ix2 0 d) (ix1 d) (by rw [Shape.rowMajor_val_one, Shape.rowMajor_val_two]; show d.val = 0 * 128 + d.val; omega))

theorem v6_apply (c : Dev nD) (k : Fin 256) (j : Fin 4) :
    V m c main_v6 (ix2 k j) = m ((c : Thread nD τ).loc main_arg8) (ix2 j k) :=
  (congrFun (V_v6 m c) (ix2 k j)).trans
    (transpose_apply [1, 0] _ transposes_S4x256_S256x4_1_0 (ix2 k j) (ix2 j k)
      (fun b => by match b with | ⟨0, _⟩ => rfl | ⟨1, _⟩ => rfl))

theorem v7_apply (c : Dev nD) (j : Fin 4) :
    V m c main_v7 (ix2 0 j) = m ((c : Thread nD τ).loc main_arg9) (ix1 j) :=
  (congrFun (V_v7 m c) (ix2 0 j)).trans
    (shapeCast_apply _ _ (ix2 0 j) (ix1 j) (by rw [Shape.rowMajor_val_one, Shape.rowMajor_val_two]; show j.val = 0 * 4 + j.val; omega))

/-! ## The index maps, decided over the 256 grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem N_eq : cfg0.N = 256 := by decide

/-- Grid point `t` as a number below 256. -/
def pt (t : Fin cfg0.N) : Fin 256 := ⟨t.val, N_eq ▸ t.isLt⟩

/-! ## Where a block's entries sit in its array -/

theorem emb0 (t : Fin cfg0.N) (r : Fin 256) (l : Fin 32) :
    ((cfg0.win 0).blk t).view.emb (ix2 r l) = ix2 (⟨(pt t).val * 256 + r.val, by have := (pt t).isLt; omega⟩ : Fin 65536) l := by
  obtain ⟨e0, e1, -⟩ := idx_facts t
  funext a; apply Fin.ext
  match a with
  | ⟨0, _⟩ => show win0_0.index t (0 : Fin 2) * 256 + 1 * r.val = t.val * 256 + r.val; omega
  | ⟨1, _⟩ => show win0_0.index t (1 : Fin 2) * 32 + 1 * l.val = l.val; omega

theorem emb1 (t : Fin cfg0.N) (r : Fin 256) (l : Fin 32) :
    ((cfg0.win 1).blk t).view.emb (ix2 r l) = ix2 (⟨(pt t).val * 256 + r.val, by have := (pt t).isLt; omega⟩ : Fin 65536) l := by
  obtain ⟨-, -, e0, e1, -⟩ := idx_facts t
  funext a; apply Fin.ext
  match a with
  | ⟨0, _⟩ => show win0_1.index t (0 : Fin 2) * 256 + 1 * r.val = t.val * 256 + r.val; omega
  | ⟨1, _⟩ => show win0_1.index t (1 : Fin 2) * 32 + 1 * l.val = l.val; omega

theorem emb2 (t : Fin cfg0.N) (r : Fin 256) :
    ((cfg0.win 2).blk t).view.emb (ix2 r 0) = ix2 (⟨(pt t).val * 256 + r.val, by have := (pt t).isLt; omega⟩ : Fin 65536) (0 : Fin 1) := by
  obtain ⟨-, -, -, -, e0, e1, -⟩ := idx_facts t
  funext a; apply Fin.ext
  match a with
  | ⟨0, _⟩ => show win0_2.index t (0 : Fin 2) * 256 + 1 * r.val = t.val * 256 + r.val; omega
  | ⟨1, _⟩ => show win0_2.index t (1 : Fin 2) * 1 + 1 * 0 = 0; omega

theorem emb3 (t : Fin cfg0.N) (f : Fin 20480) (d : Fin 132) :
    ((cfg0.win 3).blk t).view.emb (ix2 f d) = ix2 f d := by
  obtain ⟨-, -, -, -, -, -, e0, e1, -⟩ := idx_facts t
  funext a; apply Fin.ext
  match a with
  | ⟨0, _⟩ => show win0_3.index t (0 : Fin 2) * 20480 + 1 * f.val = f.val; omega
  | ⟨1, _⟩ => show win0_3.index t (1 : Fin 2) * 132 + 1 * d.val = d.val; omega

theorem emb4 (t : Fin cfg0.N) (d : Fin 128) :
    ((cfg0.win 4).blk t).view.emb (ix2 0 d) = ix2 (0 : Fin 1) d := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 128 + 1 * d.val = d.val; omega

theorem emb5 (t : Fin cfg0.N) (k : Fin 256) (j : Fin 4) :
    ((cfg0.win 5).blk t).view.emb (ix2 k j) = ix2 k j := by
  obtain ⟨-, -, -, -, -, -, -, -, -, -, e0, e1, -⟩ := idx_facts t
  funext a; apply Fin.ext
  match a with
  | ⟨0, _⟩ => show win0_5.index t (0 : Fin 2) * 256 + 1 * k.val = k.val; omega
  | ⟨1, _⟩ => show win0_5.index t (1 : Fin 2) * 4 + 1 * j.val = j.val; omega

theorem emb6 (t : Fin cfg0.N) (j : Fin 4) :
    ((cfg0.win 6).blk t).view.emb (ix2 0 j) = ix2 (0 : Fin 1) j := by
  obtain ⟨-, -, -, -, -, -, -, -, -, -, -, -, e0, e1, -⟩ := idx_facts t
  funext a; apply Fin.ext
  match a with
  | ⟨0, _⟩ => show win0_6.index t (0 : Fin 2) * 1 + 1 * 0 = 0; omega
  | ⟨1, _⟩ => show win0_6.index t (1 : Fin 2) * 4 + 1 * j.val = j.val; omega

theorem emb7 (t : Fin cfg0.N) (r : Fin 256) (j : Fin 4) :
    ((cfg0.win 7).blk t).view.emb (ix2 r j) = ix2 (⟨(pt t).val * 256 + r.val, by have := (pt t).isLt; omega⟩ : Fin 65536) j := by
  obtain ⟨-, -, -, -, -, -, -, -, -, -, -, -, -, -, e0, e1⟩ := idx_facts t
  funext a; apply Fin.ext
  match a with
  | ⟨0, _⟩ => show win0_7.index t (0 : Fin 2) * 256 + 1 * r.val = t.val * 256 + r.val; omega
  | ⟨1, _⟩ => show win0_7.index t (1 : Fin 2) * 4 + 1 * j.val = j.val; omega

/-! ## What a grid point writes back -/

/-- The result array, by the kernel's spelling of the last line. -/
def G (c : Dev nD) : S65536x4.Idx → EReal := fun i =>
  Cert.Spec.outKer (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (i 0) (i 1)

theorem flushed_eq (hw : ∀ (c : Dev nD) i, (m ((c : Thread nD τ).loc main_arg1) i).toNat < 20480)
    (hb : ∀ (c : Dev nD) i, (m ((c : Thread nD τ).loc main_arg3) i).toNat < 20480) (c : Dev nD) (t : Fin cfg0.N) :
    (dats m 0 c).flushed 7 t = ((cfg0.win 7).blk t).view.read (Elt Ideal) (G m c) := by
  rw [Cert.KernelIdeal.Value.flushed7_A]
  show (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) : S256x4.Idx → EReal)
    = fun y : S256x4.Idx => G m c (((cfg0.win 7).blk t).view.emb y)
  funext y
  obtain ⟨r, j, rfl⟩ : ∃ (r : Fin 256) (j : Fin 4), y = ix2 r j := ⟨y 0, y 1, eq_ix2 y⟩
  show _ = G m c (((cfg0.win 7).blk t).view.emb (ix2 r j))
  rw [emb7 t r j]
  refine (Cert.KernelIdeal.KPoint.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) r j).trans ?_
  exact Cert.Spec.blockOut_eq (pt t) _ _ _ _ _ _ _ _ _ _ _ _ _ _ _
    (fun r l => by show V m c main_v0 (((cfg0.win 0).blk t).view.emb (ix2 r l)) = _; rw [emb0 t r l]; exact v0_apply m c _ l)
    (fun r l => by show V m c main_v1 (((cfg0.win 1).blk t).view.emb (ix2 r l)) = _; rw [emb1 t r l]; exact v1_apply m c _ l)
    (fun r => by show V m c main_v2 (((cfg0.win 2).blk t).view.emb (ix2 r 0)) = _; rw [emb2 t r]; exact v2_apply m c _)
    (fun f d => by show V m c main_v4 (((cfg0.win 3).blk t).view.emb (ix2 f ⟨d.val, by omega⟩)) = _; rw [emb3 t]; exact v4_apply_acc m c f d)
    (fun f j => by show V m c main_v4 (((cfg0.win 3).blk t).view.emb (ix2 f ⟨128 + j.val, by omega⟩)) = _; rw [emb3 t]; exact v4_apply_psqt m c f j)
    (fun d => by show V m c main_v5 (((cfg0.win 4).blk t).view.emb (ix2 0 d)) = _; rw [emb4 t d]; exact v5_apply m c d)
    (fun k j => by show V m c main_v6 (((cfg0.win 5).blk t).view.emb (ix2 k j)) = _; rw [emb5 t k j]; exact v6_apply m c k j)
    (fun j => by show V m c main_v7 (((cfg0.win 6).blk t).view.emb (ix2 0 j)) = _; rw [emb6 t j]; exact v7_apply m c j)
    (hw c) (hb c) r j

/-! ## The 256 blocks tile the result -/

theorem mem_blk7 (t : Fin cfg0.N) (i : S65536x4.Idx) :
    i ∈ ((cfg0.win 7).blk t).view.set ↔ ∀ a : Fin 2, win0_7.index t a * S256x4.size a ≤ (i a).val ∧ (i a).val < win0_7.index t a * S256x4.size a + S256x4.size a := by
  show i ∈ ((View.whole main_v8).slice (win0_7.rect t)).set ↔ _
  rw [View.set_slice_whole, Rect.mem_set_unit]
  exact Iff.rfl

theorem covered (i : S65536x4.Idx) : ∃ t : Fin cfg0.N, (cfg0.win 7).flush t = true ∧ i ∈ ((cfg0.win 7).blk t).view.set := by
  have hi0 : (i 0).val < 65536 := (i 0).isLt
  have hi1 : (i 1).val < 4 := (i 1).isLt
  let t : Fin cfg0.N := ⟨(i 0).val / 256, by rw [N_eq]; omega⟩
  obtain ⟨-, -, -, -, -, -, -, -, -, -, -, -, -, -, e0, e1⟩ := idx_facts t
  have ht : t.val = (i 0).val / 256 := rfl
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 4 ≤ (i 1).val ∧ (i 1).val < win0_7.index t (1 : Fin 2) * 4 + 4; omega

/-- The result array after the run is the specification's function, in the kernel's spelling. -/
theorem final (hw : ∀ (c : Dev nD) i, (m ((c : Thread nD τ).loc main_arg1) i).toNat < 20480)
    (hb : ∀ (c : Dev nD) i, (m ((c : Thread nD τ).loc main_arg3) i).toNat < 20480) (c : Dev nD) :
    (dats m 0 c).arrAt 7 cfg0.N = G m c :=
  (dats m 0 c).arrAt_eq_of_cover 7 (G m c) (fun t _ => flushed_eq m hw hb c t) covered

/-! ## The run, read -/

theorem run (hw : ∀ (c : Dev nD) i, (m ((c : Thread nD τ).loc main_arg1) i).toNat < 20480)
    (hb : ∀ (c : Dev nD) i, (m ((c : Thread nD τ).loc main_arg3) i).toNat < 20480) :
    θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m hw hb c), (h c).2⟩)
    (Cert.KernelIdeal.Value.run_blocks m ρ)

end Cert.KernelIdeal.KArray

end
-- ==== Proof.PreDecode.lean ====
import proofs.«411803_j3152505995829_2_alg».proof.Pre_finite_inputs
import Idealize.ShloMosaic.PureOps.Ideal
import Idealize.ShloMosaic.Lib.ValueIdx
import Idealize.ShloMosaic.Lib.ReduceAll
import Idealize.ShloMosaic.Lib.StableHlo.Predicate

/-!
  The precondition, decoded. The printed predicate is a conjunction of eight "for all entries" statements, each an
  and-reduction of a mask of one-bit words down to a single word, joined by `and`; the claim is that the single word
  is 1. Six of them say that an entry x of a float input has |x| < +∞, which over the extended reals says x is
  neither -∞ nor +∞; two say that an entry w of an index input has 0 ≤ w and w < 20480 as signed 32-bit words, so
  w is non-negative, reads the same signed and unsigned, and its value is below 20480.
-/

noncomputable section

namespace Cert.PreDecode

open Idealize.ShloMosaic Cert.Pre_finite_inputs

/-- The shape of a single word has exactly one index. -/
instance : Subsingleton S_.Idx := ⟨fun a b => funext fun d => d.elim0⟩

/-- An extended real x with max(x, -x) < +∞ is a real: at x = -∞ and at x = +∞ the maximum is +∞. -/
theorem real_of_abs_lt (x : EReal)
    (e : Ideal.cmp .olt (max x (-x)) (Ideal.ofBits .f32 0x7F800000#32) = 1#1) : x ≠ ⊥ ∧ x ≠ ⊤ := by
  have hT : Ideal.ofBits .f32 0x7F800000#32 = ⊤ := by simp [Ideal.ofBits, Ideal.ieee]
  rw [hT] at e
  induction x using EReal.rec with
  | bot => simp [Ideal.cmp] at e
  | top => simp [Ideal.cmp] at e
  | coe r => exact ⟨EReal.coe_ne_bot r, EReal.coe_ne_top r⟩

/-- A signed 32-bit word w with 0 ≤ w and w < 20480 has value below 20480: a word whose signed reading is
    non-negative has its top bit clear, so its signed reading is its value. -/
theorem toNat_lt_of_signed (w : BitVec 32) (h1 : IntOp.cmpi .sge w 0#32 = 1#1) (h2 : IntOp.cmpi .slt w 20480#32 = 1#1) :
    w.toNat < 20480 := by
  have g1 : (0#32 : BitVec 32).toInt ≤ w.toInt := IntOp.cmpi_sge.1 h1
  have g2 : w.toInt < (20480#32 : BitVec 32).toInt := IntOp.cmpi_slt.1 h2
  have z : (0#32 : BitVec 32).toInt = 0 := by decide
  have t : (20480#32 : BitVec 32).toInt = 20480 := by decide
  rw [z] at g1
  rw [t] at g2
  have hw := w.isLt
  rw [BitVec.toInt_eq_toNat_cond] at g1 g2
  split at g1 <;> omega

/-- "Every entry has |x| < +∞", read back: an and-reduction to a single word of the mask |a i| < +∞ that came
    out 1 says every entry of `a` is a real. -/
theorem all_real {s : Shape} {axes : List (Fin s.rank)} (hb : S_.BroadcastsInDim s ![]) (hr : s.ReducesTo axes S_)
    (h0 : 0 < S_.numel) (a : FVec Ideal s .f32)
    (e : Host.reduce IntOp.andi
        (cmpf .olt (Host.absf a) (broadcastInDim s ![] hb (constant S_ .f32 0x7F800000#32)))
        (constantI S_ 1 1#1) hr h0 ValueIdx.ix0 = 1#1) :
    ∀ i, a i ≠ ⊥ ∧ a i ≠ ⊤ := fun i =>
  real_of_abs_lt (a i) (Host.reduce_andi_all _ _ hr h0 _ e i)

/-- "Every entry has 0 ≤ w < 20480", read back: an and-reduction to a single word of the mask
    (0 ≤ a i) and (a i < 20480), signed, that came out 1 says every entry of `a` has value below 20480. -/
theorem all_lt (hb : S_.BroadcastsInDim S2097152 ![]) (hr : S2097152.ReducesTo [0] S_) (h0 : 0 < S_.numel)
    (a : IVec S2097152 32)
    (e : Host.reduce IntOp.andi
        (andi (cmpi .sge a (broadcastInDim S2097152 ![] hb (constantI S_ 32 0#32)))
          (cmpi .slt a (broadcastInDim S2097152 ![] hb (constantI S_ 32 20480#32))))
        (constantI S_ 1 1#1) hr h0 ValueIdx.ix0 = 1#1) :
    ∀ i, (a i).toNat < 20480 := fun i => by
  obtain ⟨h1, h2⟩ := IntOp.andi_eq_one.1 (Host.reduce_andi_all _ _ hr h0 _ e i)
  exact toNat_lt_of_signed (a i) h1 h2

/-- The precondition says: both index inputs have every entry below 20480, and every float input has every
    entry real. -/
theorem decode [Facts] (a0 : IVec S65536 32) (a1 : IVec S2097152 32) (a2 : IVec S65536 32) (a3 : IVec S2097152 32)
    (a4 : FVec Ideal S65536 .f32) (a5 : FVec Ideal S20480x4 .f32) (a6 : FVec Ideal S20480x128 .f32)
    (a7 : FVec Ideal S128 .f32) (a8 : FVec Ideal S4x256 .f32) (a9 : FVec Ideal S4 .f32)
    (h : fn (F := Ideal) a0 a1 a2 a3 a4 a5 a6 a7 a8 a9 = fun _ => 1#1) :
    (∀ i, (a1 i).toNat < 20480) ∧ (∀ i, (a3 i).toNat < 20480)
      ∧ (∀ i, a4 i ≠ ⊥ ∧ a4 i ≠ ⊤) ∧ (∀ i, a5 i ≠ ⊥ ∧ a5 i ≠ ⊤) ∧ (∀ i, a6 i ≠ ⊥ ∧ a6 i ≠ ⊤)
      ∧ (∀ i, a7 i ≠ ⊥ ∧ a7 i ≠ ⊤) ∧ (∀ i, a8 i ≠ ⊥ ∧ a8 i ≠ ⊤) ∧ (∀ i, a9 i ≠ ⊥ ∧ a9 i ≠ ⊤) := by
  have h0 := congrFun h ValueIdx.ix0
  dsimp only [fn, fn_part1, fn_part2] at h0
  obtain ⟨h0, e3⟩ := IntOp.andi_eq_one.1 h0
  obtain ⟨h0, e1⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨e4, e5⟩ := IntOp.andi_eq_one.1 h0
  exact ⟨all_lt _ _ _ a1 e1, all_lt _ _ _ a3 e3, all_real _ _ _ a4 e4, all_real _ _ _ a5 e5, all_real _ _ _ a6 e6,
    all_real _ _ _ a7 e7, all_real _ _ _ a8 e8, all_real _ _ _ a9 e9⟩

end Cert.PreDecode
-- ==== Proof.RefTerm.lean ====
/-
  The reference's result as one pure term of its argument arrays.

  A take of rows from a table by an array of index words: a negative word counts from the end (it is moved up by
  the number of rows, 20480), the moved word is tested against `[0, 20479]`, the rows are gathered, and a row whose
  word fails the test is replaced by a fill value.  A bag's sum adds the 32 taken rows.  The rest is the
  arithmetic of the last lines: bias, clipping to `[0, 1]`, the two concatenations, the blend by `s`, the product
  with the transposed layer weights, the layer bias, and the signed combination with the psqt difference.
-/
import proofs.«411803_j3152505995829_2_alg».proof.ReferenceIdeal

noncomputable section

namespace Cert.ReferenceIdeal.RefTerm

open Idealize.ShloMosaic Cert.ReferenceIdeal

variable {F : FTy → Type} [FloatOps F] [Facts]
open Facts₀ Facts

/-- A negative index word is moved up by the number of rows. -/
def wrapIdx (idx : IVec S65536x32 32) : IVec S65536x32 32 :=
  select (cmpi .slt idx (broadcastInDim S65536x32 ![] bcast_S_S65536x32 (constantI S_ 32 0#32)))
    (addi idx (broadcastInDim S65536x32 ![] bcast_S_S65536x32 (constantI S_ 32 20480#32))) idx

/-- The moved words with a trailing unit axis, as the gather takes them. -/
def idx3 (idx : IVec S65536x32 32) : IVec S65536x32x1 32 :=
  broadcastInDim S65536x32x1 ![0, 1] bcast_S65536x32_S65536x32x1_0_1 (wrapIdx idx)

/-- The test of the moved word against `[0, 20479]`, one bit per word. -/
def inRange (idx : IVec S65536x32 32) : IVec S65536x32 1 :=
  Host.reduce IntOp.andi
    (andi (cmpi .sge (idx3 idx) (broadcastInDim S65536x32x1 ![] bcast_S_S65536x32x1 (constantI S_ 32 0#32)))
      (cmpi .sle (idx3 idx) (broadcastInDim S65536x32x1 ![0, 1, 2] bcast_S1x1x1_S65536x32x1_0_1_2
        (broadcastInDim S1x1x1 ![2] bcast_S1_S1x1x1_2 (constantI S1 32 20479#32)))))
    (constantI S_ 1 1#1) reducesTo_S65536x32x1_S65536x32_d2 h_S_

/-- The take from the table of width 4. -/
def takeP (T : FVec F S20480x4 .f32) (idx : IVec S65536x32 32) : FVec F S65536x32x4 .f32 :=
  select (broadcastInDim S65536x32x4 ![0, 1] bcast_S65536x32_S65536x32x4_0_1 (inRange idx))
    (Host.gather gather_S20480x4_S65536x32x1_S65536x32x4_2_0_n_n_0_2_14 T (idx3 idx))
    (broadcastInDim S65536x32x4 ![] bcast_S_S65536x32x4 (constant S_ .f32 0x7FC00000#32))

/-- The take from the table of width 128. -/
def takeA (T : FVec F S20480x128 .f32) (idx : IVec S65536x32 32) : FVec F S65536x32x128 .f32 :=
  select (broadcastInDim S65536x32x128 ![0, 1] bcast_S65536x32_S65536x32x128_0_1 (inRange idx))
    (Host.gather gather_S20480x128_S65536x32x1_S65536x32x128_2_0_n_n_0_2_1128 T (idx3 idx))
    (broadcastInDim S65536x32x128 ![] bcast_S_S65536x32x128 (constant S_ .f32 0x7FC00000#32))

/-- A bag's sum over the table of width 4. -/
def bagP (T : FVec F S20480x4 .f32) (cols : IVec S2097152 32) : FVec F S65536x4 .f32 :=
  Host.reduceAdd (takeP T (shapeCast S65536x32 cols shapeCasts_S2097152_S65536x32)) (constant S_ .f32 0x00000000#32)
    reducesTo_S65536x32x4_S65536x4_d1 h_S_

/-- A bag's sum over the table of width 128. -/
def bagA (T : FVec F S20480x128 .f32) (cols : IVec S2097152 32) : FVec F S65536x128 .f32 :=
  Host.reduceAdd (takeA T (shapeCast S65536x32 cols shapeCasts_S2097152_S65536x32)) (constant S_ .f32 0x00000000#32)
    reducesTo_S65536x32x128_S65536x128_d1 h_S_

/-- Clipping an array between two scalars. -/
def clipv (x : FVec F S65536x128 .f32) (lo hi : FVec F S_ .f32) : FVec F S65536x128 .f32 :=
  minimumf (broadcastInDim S65536x128 ![] bcast_S_S65536x128 (id hi))
    (maximumf (broadcastInDim S65536x128 ![] bcast_S_S65536x128 (id lo)) x)

/-- A bag's clipped accumulator row: the bag's sum plus the bias, clipped to `[0, 1]`. -/
def accv (T : FVec F S20480x128 .f32) (cols : IVec S2097152 32) (bias : FVec F S128 .f32) : FVec F S65536x128 .f32 :=
  clipv (addf (bagA T cols)
      (broadcastInDim S65536x128 ![0, 1] bcast_S1x128_S65536x128_0_1 (broadcastInDim S1x128 ![1] bcast_S128_S1x128_1 bias)))
    (constant S_ .f32 0x00000000#32) (constant S_ .f32 0x3F800000#32)

/-- The reference's result. -/
def refOut (a1 a3 : IVec S2097152 32) (a4 : FVec F S65536 .f32) (a5 : FVec F S20480x4 .f32) (a6 : FVec F S20480x128 .f32)
    (a7 : FVec F S128 .f32) (a8 : FVec F S4x256 .f32) (a9 : FVec F S4 .f32) : FVec F S65536x4 .f32 :=
  let v0 : FVec F S65536x1 .f32 := broadcastInDim S65536x1 ![0] bcast_S65536_S65536x1_0 a4
  let v7 : FVec F S65536x4 .f32 := subf (bagP a5 a1) (bagP a5 a3)
  let v14 : FVec F S65536x128 .f32 := accv a6 a1 a7
  let v21 : FVec F S65536x128 .f32 := accv a6 a3 a7
  let v22 : FVec F S65536x256 .f32 := concatenate S65536x256 1 [⟨S65536x128, v14⟩, ⟨S65536x128, v21⟩] concatenates_S65536x128_S65536x128_S65536x256_d1
  let v23 : FVec F S65536x256 .f32 := concatenate S65536x256 1 [⟨S65536x128, v21⟩, ⟨S65536x128, v14⟩] concatenates_S65536x128_S65536x128_S65536x256_d1
  let v25 : FVec F S65536x1 .f32 := subf (broadcastInDim S65536x1 ![] bcast_S_S65536x1 (constant S_ .f32 0x3F800000#32)) v0
  let v27 : FVec F S65536x256 .f32 := mulf (broadcastInDim S65536x256 ![0, 1] bcast_S65536x1_S65536x256_0_1 v25) v22
  let v29 : FVec F S65536x256 .f32 := mulf (broadcastInDim S65536x256 ![0, 1] bcast_S65536x1_S65536x256_0_1 v0) v23
  let v30 : FVec F S65536x256 .f32 := addf v27 v29
  let v31 : FVec F S256x4 .f32 := transpose S256x4 [1, 0] a8 transposes_S4x256_S256x4_1_0
  let v32 : FVec F S65536x4 .f32 := Host.dotGeneral dot_S65536x256_S256x4_S65536x4_1_0_0_1_n_n none v30 v31
  let v35 : FVec F S65536x4 .f32 := addf v32 (broadcastInDim S65536x4 ![0, 1] bcast_S1x4_S65536x4_0_1 (broadcastInDim S1x4 ![1] bcast_S4_S1x4_1 a9))
  let v37 : FVec F S65536x1 .f32 := subf (broadcastInDim S65536x1 ![] bcast_S_S65536x1 (constant S_ .f32 0x3F800000#32)) v0
  let v39 : FVec F S65536x4 .f32 := mulf (broadcastInDim S65536x4 ![0, 1] bcast_S65536x1_S65536x4_0_1 v37) v35
  let v42 : FVec F S65536x4 .f32 := mulf (broadcastInDim S65536x4 ![0, 1] bcast_S65536x1_S65536x4_0_1 v0) (Host.negf v35)
  addf v7 (addf v39 v42)

end Cert.ReferenceIdeal.RefTerm

end
-- ==== Proof.RefRun.lean ====
/-
  The reference's run.

  The reference is a straight line of 153 tensor operations: @main's own forty-nine, and the bodies of the six
  functions it calls laid out at their call sites over each call's own buffers — a take of rows by index words
  (twenty-three operations: the wrap of negative words, whose select is the body of a function the take itself
  calls, the range test, the gather, the fill) four times, and a clip between two scalars (six operations) twice.
  As a list of operations the program is `seq ops`; every weakly fair execution of it terminates with each buffer at
  the fold `after ops` of the operations' results over the launch contents.  Read at the result buffer the fold is
  the pure term `RefTerm.refOut` of the eight argument arrays it depends on, and at an argument buffer it is the
  argument itself: no operation writes an argument.
-/
import proofs.«411803_j3152505995829_2_alg».proof.ReferenceIdeal
import proofs.«411803_j3152505995829_2_alg».proof.Proof.Gen.ReferenceIdeal
import proofs.«411803_j3152505995829_2_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The first 128 operations: the row scale's broadcast; the two bags' sums over the table of width 4 and their
    difference; the two bags' sums over the table of width 128, each with the bias added and clipped to `[0, 1]`. -/
abbrev ops1 : List (HloOp τ sig (Elt F)) :=
  [ unary main_arg4 main_v0 (broadcastInDim S65536x1 ![0] bcast_S65536_S65536x1_0 : (⟨S65536, .f32⟩ : BufTy).Contents (Elt F) → (⟨S65536x1, .f32⟩ : BufTy).Contents (Elt F)),
    reshape main_arg1 main_v1 rfl shapeCasts_S2097152_S65536x32,
    -- the take of rows of main_arg5 by the words of main_v1
    TRef.nullary main_call0.c (constantI S_ 32 0#32),
    TRef.unary main_call0.c main_call0.v0 (broadcastInDim S65536x32 ![] bcast_S_S65536x32),
    TRef.binary (.of main_v1) main_call0.v0 main_call0.v1 (cmpi .slt),
    TRef.nullary main_call0.c_0 (constantI S_ 32 20480#32),
    TRef.unary main_call0.c_0 main_call0.v2 (broadcastInDim S65536x32 ![] bcast_S_S65536x32),
    TRef.binary (.of main_v1) main_call0.v2 main_call0.v3 addi,
    TRef.ternary main_call0.v1 main_call0.v3 (.of main_v1) main_call0.call0.v0 select,
    TRef.unary main_call0.call0.v0 main_call0.v5 (broadcastInDim S65536x32x1 ![0, 1] bcast_S65536x32_S65536x32x1_0_1),
    TRef.nullary main_call0.c_1 (constantI S1 32 20479#32),
    TRef.nullary main_call0.c_2 (constantI S_ 32 0#32),
    TRef.unary main_call0.c_2 main_call0.v6 (broadcastInDim S65536x32x1 ![] bcast_S_S65536x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S65536x32x1 ![0, 1, 2] bcast_S1x1x1_S65536x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S65536x32x1_S65536x32_d2 h_S_),
    TRef.binary (.of main_arg5) main_call0.v5 main_call0.v13 (fun x i => Host.gather gather_S20480x4_S65536x32x1_S65536x32x4_2_0_n_n_0_2_14 x i),
    TRef.unary main_call0.v12 main_call0.v14 (broadcastInDim S65536x32x4 ![0, 1] bcast_S65536x32_S65536x32x4_0_1),
    TRef.nullary main_call0.cst (constant S_ .f32 0x7FC00000#32),
    TRef.unary main_call0.cst main_call0.v15 (broadcastInDim S65536x32x4 ![] bcast_S_S65536x32x4),
    TRef.ternary main_call0.v14 main_call0.v13 main_call0.v15 main_call0.v16 select,
    nullary main_cst (constant S_ .f32 0x00000000#32),
    binary main_v2 main_cst main_v3 ((fun x v => Host.reduceAdd x v reducesTo_S65536x32x4_S65536x4_d1 h_S_) : (⟨S65536x32x4, .f32⟩ : BufTy).Contents (Elt F) → (⟨S_, .f32⟩ : BufTy).Contents (Elt F) → (⟨S65536x4, .f32⟩ : BufTy).Contents (Elt F)),
    reshape main_arg3 main_v4 rfl shapeCasts_S2097152_S65536x32,
    -- the take of rows of main_arg5 by the words of main_v4
    TRef.nullary main_call1.c (constantI S_ 32 0#32),
    TRef.unary main_call1.c main_call1.v0 (broadcastInDim S65536x32 ![] bcast_S_S65536x32),
    TRef.binary (.of main_v4) main_call1.v0 main_call1.v1 (cmpi .slt),
    TRef.nullary main_call1.c_0 (constantI S_ 32 20480#32),
    TRef.unary main_call1.c_0 main_call1.v2 (broadcastInDim S65536x32 ![] bcast_S_S65536x32),
    TRef.binary (.of main_v4) main_call1.v2 main_call1.v3 addi,
    TRef.ternary main_call1.v1 main_call1.v3 (.of main_v4) main_call1.call0.v0 select,
    TRef.unary main_call1.call0.v0 main_call1.v5 (broadcastInDim S65536x32x1 ![0, 1] bcast_S65536x32_S65536x32x1_0_1),
    TRef.nullary main_call1.c_1 (constantI S1 32 20479#32),
    TRef.nullary main_call1.c_2 (constantI S_ 32 0#32),
    TRef.unary main_call1.c_2 main_call1.v6 (broadcastInDim S65536x32x1 ![] bcast_S_S65536x32x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S65536x32x1 ![0, 1, 2] bcast_S1x1x1_S65536x32x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S65536x32x1_S65536x32_d2 h_S_),
    TRef.binary (.of main_arg5) main_call1.v5 main_call1.v13 (fun x i => Host.gather gather_S20480x4_S65536x32x1_S65536x32x4_2_0_n_n_0_2_14 x i),
    TRef.unary main_call1.v12 main_call1.v14 (broadcastInDim S65536x32x4 ![0, 1] bcast_S65536x32_S65536x32x4_0_1),
    TRef.nullary main_call1.cst (constant S_ .f32 0x7FC00000#32),
    TRef.unary main_call1.cst main_call1.v15 (broadcastInDim S65536x32x4 ![] bcast_S_S65536x32x4),
    TRef.ternary main_call1.v14 main_call1.v13 main_call1.v15 main_call1.v16 select,
    nullary main_cst_0 (constant S_ .f32 0x00000000#32),
    binary main_v5 main_cst_0 main_v6 ((fun x v => Host.reduceAdd x v reducesTo_S65536x32x4_S65536x4_d1 h_S_) : (⟨S65536x32x4, .f32⟩ : BufTy).Contents (Elt F) → (⟨S_, .f32⟩ : BufTy).Contents (Elt F) → (⟨S65536x4, .f32⟩ : BufTy).Contents (Elt F)),
    binary main_v3 main_v6 main_v7 (subf : (⟨S65536x4, .f32⟩ : BufTy).Contents (Elt F) → (⟨S65536x4, .f32⟩ : BufTy).Contents (Elt F) → (⟨S65536x4, .f32⟩ : BufTy).Contents (Elt F)),
    reshape main_arg1 main_v8 rfl shapeCasts_S2097152_S65536x32,
    -- the take of rows of main_arg6 by the words of main_v8
    TRef.nullary main_call2.c (constantI S_ 32 0#32),
    TRef.unary main_call2.c main_call2.v0 (broadcastInDim S65536x32 ![] bcast_S_S65536x32),
    TRef.binary (.of main_v8) main_call2.v0 main_call2.v1 (cmpi .slt),
    TRef.nullary main_call2.c_0 (constantI S_ 32 20480#32),
    TRef.unary main_call2.c_0 main_call2.v2 (broadcastInDim S65536x32 ![] bcast_S_S65536x32),
    TRef.binary (.of main_v8) main_call2.v2 main_call2.v3 addi,
    TRef.ternary main_call2.v1 main_call2.v3 (.of main_v8) main_call2.call0.v0 select,
    TRef.unary main_call2.call0.v0 main_call2.v5 (broadcastInDim S65536x32x1 ![0, 1] bcast_S65536x32_S65536x32x1_0_1),
    TRef.nullary main_call2.c_1 (constantI S1 32 20479#32),
    TRef.nullary main_call2.c_2 (constantI S_ 32 0#32),
    TRef.unary main_call2.c_2 main_call2.v6 (broadcastInDim S65536x32x1 ![] bcast_S_S65536x32x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S65536x32x1 ![0, 1, 2] bcast_S1x1x1_S65536x32x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S65536x32x1_S65536x32_d2 h_S_),
    TRef.binary (.of main_arg6) main_call2.v5 main_call2.v13 (fun x i => Host.gather gather_S20480x128_S65536x32x1_S65536x32x128_2_0_n_n_0_2_1128 x i),
    TRef.unary main_call2.v12 main_call2.v14 (broadcastInDim S65536x32x128 ![0, 1] bcast_S65536x32_S65536x32x128_0_1),
    TRef.nullary main_call2.cst (constant S_ .f32 0x7FC00000#32),
    TRef.unary main_call2.cst main_call2.v15 (broadcastInDim S65536x32x128 ![] bcast_S_S65536x32x128),
    TRef.ternary main_call2.v14 main_call2.v13 main_call2.v15 main_call2.v16 select,
    nullary main_cst_1 (constant S_ .f32 0x00000000#32),
    binary main_v9 main_cst_1 main_v10 ((fun x v => Host.reduceAdd x v reducesTo_S65536x32x128_S65536x128_d1 h_S_) : (⟨S65536x32x128, .f32⟩ : BufTy).Contents (Elt F) → (⟨S_, .f32⟩ : BufTy).Contents (Elt F) → (⟨S65536x128, .f32⟩ : BufTy).Contents (Elt F)),
    unary main_arg7 main_v11 (broadcastInDim S1x128 ![1] bcast_S128_S1x128_1 : (⟨S128, .f32⟩ : BufTy).Contents (Elt F) → (⟨S1x128, .f32⟩ : BufTy).Contents (Elt F)),
    unary main_v11 main_v12 (broadcastInDim S65536x128 ![0, 1] bcast_S1x128_S65536x128_0_1 : (⟨S1x128, .f32⟩ : BufTy).Contents (Elt F) → (⟨S65536x128, .f32⟩ : BufTy).Contents (Elt F)),
    binary main_v10 main_v12 main_v13 (addf : (⟨S65536x128, .f32⟩ : BufTy).Contents (Elt F) → (⟨S65536x128, .f32⟩ : BufTy).Contents (Elt F) → (⟨S65536x128, .f32⟩ : BufTy).Contents (Elt F)),
    nullary main_cst_2 (constant S_ .f32 0x00000000#32),
    nullary main_cst_3 (constant S_ .f32 0x3F800000#32),
    -- the clip of main_v13 between the scalars main_cst_2 and main_cst_3
    TRef.unary (.of main_cst_2) main_call3.v0 id,
    TRef.unary main_call3.v0 main_call3.v1 (broadcastInDim S65536x128 ![] bcast_S_S65536x128),
    TRef.binary main_call3.v1 (.of main_v13) main_call3.v2 maximumf,
    TRef.unary (.of main_cst_3) main_call3.v3 id,
    TRef.unary main_call3.v3 main_call3.v4 (broadcastInDim S65536x128 ![] bcast_S_S65536x128),
    TRef.binary main_call3.v4 main_call3.v2 main_call3.v5 minimumf,
    reshape main_arg3 main_v15 rfl shapeCasts_S2097152_S65536x32,
    -- the take of rows of main_arg6 by the words of main_v15
    TRef.nullary main_call4.c (constantI S_ 32 0#32),
    TRef.unary main_call4.c main_call4.v0 (broadcastInDim S65536x32 ![] bcast_S_S65536x32),
    TRef.binary (.of main_v15) main_call4.v0 main_call4.v1 (cmpi .slt),
    TRef.nullary main_call4.c_0 (constantI S_ 32 20480#32),
    TRef.unary main_call4.c_0 main_call4.v2 (broadcastInDim S65536x32 ![] bcast_S_S65536x32),
    TRef.binary (.of main_v15) main_call4.v2 main_call4.v3 addi,
    TRef.ternary main_call4.v1 main_call4.v3 (.of main_v15) main_call4.call0.v0 select,
    TRef.unary main_call4.call0.v0 main_call4.v5 (broadcastInDim S65536x32x1 ![0, 1] bcast_S65536x32_S65536x32x1_0_1),
    TRef.nullary main_call4.c_1 (constantI S1 32 20479#32),
    TRef.nullary main_call4.c_2 (constantI S_ 32 0#32),
    TRef.unary main_call4.c_2 main_call4.v6 (broadcastInDim S65536x32x1 ![] bcast_S_S65536x32x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S65536x32x1 ![0, 1, 2] bcast_S1x1x1_S65536x32x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S65536x32x1_S65536x32_d2 h_S_),
    TRef.binary (.of main_arg6) main_call4.v5 main_call4.v13 (fun x i => Host.gather gather_S20480x128_S65536x32x1_S65536x32x128_2_0_n_n_0_2_1128 x i),
    TRef.unary main_call4.v12 main_call4.v14 (broadcastInDim S65536x32x128 ![0, 1] bcast_S65536x32_S65536x32x128_0_1),
    TRef.nullary main_call4.cst (constant S_ .f32 0x7FC00000#32),
    TRef.unary main_call4.cst main_call4.v15 (broadcastInDim S65536x32x128 ![] bcast_S_S65536x32x128),
    TRef.ternary main_call4.v14 main_call4.v13 main_call4.v15 main_call4.v16 select,
    nullary main_cst_4 (constant S_ .f32 0x00000000#32),
    binary main_v16 main_cst_4 main_v17 ((fun x v => Host.reduceAdd x v reducesTo_S65536x32x128_S65536x128_d1 h_S_) : (⟨S65536x32x128, .f32⟩ : BufTy).Contents (Elt F) → (⟨S_, .f32⟩ : BufTy).Contents (Elt F) → (⟨S65536x128, .f32⟩ : BufTy).Contents (Elt F)),
    unary main_arg7 main_v18 (broadcastInDim S1x128 ![1] bcast_S128_S1x128_1 : (⟨S128, .f32⟩ : BufTy).Contents (Elt F) → (⟨S1x128, .f32⟩ : BufTy).Contents (Elt F)),
    unary main_v18 main_v19 (broadcastInDim S65536x128 ![0, 1] bcast_S1x128_S65536x128_0_1 : (⟨S1x128, .f32⟩ : BufTy).Contents (Elt F) → (⟨S65536x128, .f32⟩ : BufTy).Contents (Elt F)),
    binary main_v17 main_v19 main_v20 (addf : (⟨S65536x128, .f32⟩ : BufTy).Contents (Elt F) → (⟨S65536x128, .f32⟩ : BufTy).Contents (Elt F) → (⟨S65536x128, .f32⟩ : BufTy).Contents (Elt F)),
    nullary main_cst_5 (constant S_ .f32 0x00000000#32),
    nullary main_cst_6 (constant S_ .f32 0x3F800000#32),
    -- the clip of main_v20 between the scalars main_cst_5 and main_cst_6
    TRef.unary (.of main_cst_5) main_call5.v0 id,
    TRef.unary main_call5.v0 main_call5.v1 (broadcastInDim S65536x128 ![] bcast_S_S65536x128),
    TRef.binary main_call5.v1 (.of main_v20) main_call5.v2 maximumf,
    TRef.unary (.of main_cst_6) main_call5.v3 id,
    TRef.unary main_call5.v3 main_call5.v4 (broadcastInDim S65536x128 ![] bcast_S_S65536x128),
    TRef.binary main_call5.v4 main_call5.v2 main_call5.v5 minimumf ]

/-- The last 25 operations: the two concatenations, the blend by the row scale, the product with the transposed
    layer weights, the layer bias, and the signed combination with the difference of the first stretch. -/
abbrev ops2 : List (HloOp τ sig (Elt F)) :=
  [ binary main_v14 main_v21 main_v22 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    binary main_v21 main_v14 main_v23 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    nullary main_cst_7 (constant S_ .f32 0x3F800000#32),
    unary main_cst_7 main_v24 (broadcastInDim S65536x1 ![] bcast_S_S65536x1 : (⟨S_, .f32⟩ : BufTy).Contents (Elt F) → (⟨S65536x1, .f32⟩ : BufTy).Contents (Elt F)),
    binary main_v24 main_v0 main_v25 (subf : (⟨S65536x1, .f32⟩ : BufTy).Contents (Elt F) → (⟨S65536x1, .f32⟩ : BufTy).Contents (Elt F) → (⟨S65536x1, .f32⟩ : BufTy).Contents (Elt F)),
    unary main_v25 main_v26 (broadcastInDim S65536x256 ![0, 1] bcast_S65536x1_S65536x256_0_1 : (⟨S65536x1, .f32⟩ : BufTy).Contents (Elt F) → (⟨S65536x256, .f32⟩ : BufTy).Contents (Elt F)),
    binary main_v26 main_v22 main_v27 (mulf : (⟨S65536x256, .f32⟩ : BufTy).Contents (Elt F) → (⟨S65536x256, .f32⟩ : BufTy).Contents (Elt F) → (⟨S65536x256, .f32⟩ : BufTy).Contents (Elt F)),
    unary main_v0 main_v28 (broadcastInDim S65536x256 ![0, 1] bcast_S65536x1_S65536x256_0_1 : (⟨S65536x1, .f32⟩ : BufTy).Contents (Elt F) → (⟨S65536x256, .f32⟩ : BufTy).Contents (Elt F)),
    binary main_v28 main_v23 main_v29 (mulf : (⟨S65536x256, .f32⟩ : BufTy).Contents (Elt F) → (⟨S65536x256, .f32⟩ : BufTy).Contents (Elt F) → (⟨S65536x256, .f32⟩ : BufTy).Contents (Elt F)),
    binary main_v27 main_v29 main_v30 (addf : (⟨S65536x256, .f32⟩ : BufTy).Contents (Elt F) → (⟨S65536x256, .f32⟩ : BufTy).Contents (Elt F) → (⟨S65536x256, .f32⟩ : BufTy).Contents (Elt F)),
    unary main_arg8 main_v31 ((transpose S256x4 [1, 0] · transposes_S4x256_S256x4_1_0) : (⟨S4x256, .f32⟩ : BufTy).Contents (Elt F) → (⟨S256x4, .f32⟩ : BufTy).Contents (Elt F)),
    binary main_v30 main_v31 main_v32 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)),
    unary main_arg9 main_v33 (broadcastInDim S1x4 ![1] bcast_S4_S1x4_1 : (⟨S4, .f32⟩ : BufTy).Contents (Elt F) → (⟨S1x4, .f32⟩ : BufTy).Contents (Elt F)),
    unary main_v33 main_v34 (broadcastInDim S65536x4 ![0, 1] bcast_S1x4_S65536x4_0_1 : (⟨S1x4, .f32⟩ : BufTy).Contents (Elt F) → (⟨S65536x4, .f32⟩ : BufTy).Contents (Elt F)),
    binary main_v32 main_v34 main_v35 (addf : (⟨S65536x4, .f32⟩ : BufTy).Contents (Elt F) → (⟨S65536x4, .f32⟩ : BufTy).Contents (Elt F) → (⟨S65536x4, .f32⟩ : BufTy).Contents (Elt F)),
    nullary main_cst_8 (constant S_ .f32 0x3F800000#32),
    unary main_cst_8 main_v36 (broadcastInDim S65536x1 ![] bcast_S_S65536x1 : (⟨S_, .f32⟩ : BufTy).Contents (Elt F) → (⟨S65536x1, .f32⟩ : BufTy).Contents (Elt F)),
    binary main_v36 main_v0 main_v37 (subf : (⟨S65536x1, .f32⟩ : BufTy).Contents (Elt F) → (⟨S65536x1, .f32⟩ : BufTy).Contents (Elt F) → (⟨S65536x1, .f32⟩ : BufTy).Contents (Elt F)),
    unary main_v37 main_v38 (broadcastInDim S65536x4 ![0, 1] bcast_S65536x1_S65536x4_0_1 : (⟨S65536x1, .f32⟩ : BufTy).Contents (Elt F) → (⟨S65536x4, .f32⟩ : BufTy).Contents (Elt F)),
    binary main_v38 main_v35 main_v39 (mulf : (⟨S65536x4, .f32⟩ : BufTy).Contents (Elt F) → (⟨S65536x4, .f32⟩ : BufTy).Contents (Elt F) → (⟨S65536x4, .f32⟩ : BufTy).Contents (Elt F)),
    unary main_v35 main_v40 (Host.negf : (⟨S65536x4, .f32⟩ : BufTy).Contents (Elt F) → (⟨S65536x4, .f32⟩ : BufTy).Contents (Elt F)),
    unary main_v0 main_v41 (broadcastInDim S65536x4 ![0, 1] bcast_S65536x1_S65536x4_0_1 : (⟨S65536x1, .f32⟩ : BufTy).Contents (Elt F) → (⟨S65536x4, .f32⟩ : BufTy).Contents (Elt F)),
    binary main_v41 main_v40 main_v42 (mulf : (⟨S65536x4, .f32⟩ : BufTy).Contents (Elt F) → (⟨S65536x4, .f32⟩ : BufTy).Contents (Elt F) → (⟨S65536x4, .f32⟩ : BufTy).Contents (Elt F)),
    binary main_v39 main_v42 main_v43 (addf : (⟨S65536x4, .f32⟩ : BufTy).Contents (Elt F) → (⟨S65536x4, .f32⟩ : BufTy).Contents (Elt F) → (⟨S65536x4, .f32⟩ : BufTy).Contents (Elt F)),
    binary main_v7 main_v43 main_v44 (addf : (⟨S65536x4, .f32⟩ : BufTy).Contents (Elt F) → (⟨S65536x4, .f32⟩ : BufTy).Contents (Elt F) → (⟨S65536x4, .f32⟩ : BufTy).Contents (Elt F)) ]

/-- The reference's 153 operations, in order: @main's own, and at each call the callee's over that call's buffers. -/
abbrev ops : List (HloOp τ sig (Elt F)) := ops1 ++ ops2

theorem ops_eq : (ops : List (HloOp τ sig (Elt F))) = ops1 ++ ops2 := rfl

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- one bind per operation is re-associated under the chain: the rewrite recurses once per statement
set_option maxRecDepth 8192 in
set_option maxHeartbeats 1600000 in
/-- @main is that straight line: with the functions' definitions unfolded at their calls, both sides are one chain
    of operation steps once sequencing is re-associated. -/
theorem main_eq (c : Dev nD) : main (F := F) c = seq ops := by
  rw [ops_eq, seq_append]
  simp only [main, fn_take.body, fn_take_0.body, fn_where.body, fn_clip.body, seq, bind_assoc, pure_bind]

/-- The signature scopes no TensorCore buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., binary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub ..⟩

theorem ops2_sub : (ops2 : List (HloOp τ sig (Elt F))).Forall fun op => op.bufs ⊆ tcRefs τ sig :=
  ⟨binary_bufs_sub .., binary_bufs_sub .., nullary_bufs_sub .., unary_bufs_sub .., binary_bufs_sub .., unary_bufs_sub ..,
    binary_bufs_sub .., unary_bufs_sub .., binary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., binary_bufs_sub ..,
    binary_bufs_sub ..⟩

/-- Every operation touches TensorCore buffers only. -/
theorem ops_sub : (ops : List (HloOp τ sig (Elt F))).Forall fun op => op.bufs ⊆ tcRefs τ sig := by
  rw [ops_eq, List.forall_iff_forall_mem]
  intro op hop
  rcases List.mem_append.mp hop with h | h
  · exact List.forall_iff_forall_mem.mp ops1_sub op h
  · exact List.forall_iff_forall_mem.mp ops2_sub op h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The launch contents at a TensorCore buffer are the launch memory at that buffer's location. -/
theorem launch_arg (m : (ℓ : Loc nD τ sig) → Buf (Elt F) ℓ) (c : Dev nD) (b : Ref sig .tc) :
    launchContents m c (b : DevRef τ sig) = m ((c.tc : Thread nD τ).loc b) := rfl

/-! ## What the fold holds at the arguments and at the result

No operation writes an argument buffer, so the fold leaves each argument as it was.  At the result buffer the fold
is the composition of the operations' functions along the dataflow: over the first stretch the row scale, the
difference of the two narrow bags' sums and the two clipped accumulator rows, each a named stage of `RefTerm`;
over the second stretch `RefTerm.refOut`'s own lines with those stages as its inputs. -/

set_option maxRecDepth 8192
set_option maxHeartbeats 1600000

theorem arg0_eq (V : Valuation τ sig (Elt F)) :
    after ops V (main_arg0 : DevRef τ sig) = V (main_arg0 : DevRef τ sig) := by
  rw [ops_eq, after_append]
  after_results_simp

theorem arg1_eq (V : Valuation τ sig (Elt F)) :
    after ops V (main_arg1 : DevRef τ sig) = V (main_arg1 : DevRef τ sig) := by
  rw [ops_eq, after_append]
  after_results_simp

theorem arg2_eq (V : Valuation τ sig (Elt F)) :
    after ops V (main_arg2 : DevRef τ sig) = V (main_arg2 : DevRef τ sig) := by
  rw [ops_eq, after_append]
  after_results_simp

theorem arg3_eq (V : Valuation τ sig (Elt F)) :
    after ops V (main_arg3 : DevRef τ sig) = V (main_arg3 : DevRef τ sig) := by
  rw [ops_eq, after_append]
  after_results_simp

theorem arg4_eq (V : Valuation τ sig (Elt F)) :
    after ops V (main_arg4 : DevRef τ sig) = V (main_arg4 : DevRef τ sig) := by
  rw [ops_eq, after_append]
  after_results_simp

theorem arg5_eq (V : Valuation τ sig (Elt F)) :
    after ops V (main_arg5 : DevRef τ sig) = V (main_arg5 : DevRef τ sig) := by
  rw [ops_eq, after_append]
  after_results_simp

theorem arg6_eq (V : Valuation τ sig (Elt F)) :
    after ops V (main_arg6 : DevRef τ sig) = V (main_arg6 : DevRef τ sig) := by
  rw [ops_eq, after_append]
  after_results_simp

theorem arg7_eq (V : Valuation τ sig (Elt F)) :
    after ops V (main_arg7 : DevRef τ sig) = V (main_arg7 : DevRef τ sig) := by
  rw [ops_eq, after_append]
  after_results_simp

theorem arg8_eq (V : Valuation τ sig (Elt F)) :
    after ops V (main_arg8 : DevRef τ sig) = V (main_arg8 : DevRef τ sig) := by
  rw [ops_eq, after_append]
  after_results_simp

theorem arg9_eq (V : Valuation τ sig (Elt F)) :
    after ops V (main_arg9 : DevRef τ sig) = V (main_arg9 : DevRef τ sig) := by
  rw [ops_eq, after_append]
  after_results_simp

/-- Transport of contents to a typed reference's buffer type and back is the identity. -/
theorem ofBuf_toBuf {T : BufTy} (x : TRef sig T) (v : T.Contents (Elt F)) : x.ofBuf (x.toBuf v) = v := by
  obtain ⟨r, h, _, _⟩ := x
  subst h
  rfl

section Stages

-- the reductions, the gathers, the concatenations and the transposition are folds and searches over their operands'
-- elements; the equations below never look inside them, so they stay folded while the two sides are compared
attribute [local irreducible] Host.reduce Host.gather Host.reduceAdd concatenate transpose

/-- After the first stretch the row scale's buffer holds the scale as a column. -/
theorem v0_eq1 (V : Valuation τ sig (Elt F)) :
    after ops1 V (main_v0 : DevRef τ sig)
      = broadcastInDim S65536x1 ![0] bcast_S65536_S65536x1_0 (V (main_arg4 : DevRef τ sig)) := by
  after_results_simp

/-- After the first stretch: the difference of the two bags' sums over the table of width 4. -/
theorem v7_eq1 (V : Valuation τ sig (Elt F)) :
    after ops1 V (main_v7 : DevRef τ sig)
      = subf (RefTerm.bagP (V (main_arg5 : DevRef τ sig)) (V (main_arg1 : DevRef τ sig)))
          (RefTerm.bagP (V (main_arg5 : DevRef τ sig)) (V (main_arg3 : DevRef τ sig))) := by
  after_results_simp
  simp only [ofBuf_toBuf]
  rfl

/-- After the first stretch: the first bag's clipped accumulator row. -/
theorem v14_eq1 (V : Valuation τ sig (Elt F)) :
    after ops1 V (main_v14 : DevRef τ sig)
      = RefTerm.accv (V (main_arg6 : DevRef τ sig)) (V (main_arg1 : DevRef τ sig)) (V (main_arg7 : DevRef τ sig)) := by
  after_results_simp
  simp only [ofBuf_toBuf]
  rfl

/-- After the first stretch: the second bag's clipped accumulator row. -/
theorem v21_eq1 (V : Valuation τ sig (Elt F)) :
    after ops1 V (main_v21 : DevRef τ sig)
      = RefTerm.accv (V (main_arg6 : DevRef τ sig)) (V (main_arg3 : DevRef τ sig)) (V (main_arg7 : DevRef τ sig)) := by
  after_results_simp
  simp only [ofBuf_toBuf]
  rfl

/-- At the result buffer the fold is the reference's result term: the second stretch's twenty-five operations are
    `RefTerm.refOut`'s own lines, read over the first stretch's values. -/
theorem out_eq (V : Valuation τ sig (Elt F)) :
    after ops V (main_v44 : DevRef τ sig)
      = RefTerm.refOut (V (main_arg1 : DevRef τ sig)) (V (main_arg3 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) := by
  have h0 := v0_eq1 V
  have h7 := v7_eq1 V
  have h14 := v14_eq1 V
  have h21 := v21_eq1 V
  have h8 : after ops1 V (main_arg8 : DevRef τ sig) = V (main_arg8 : DevRef τ sig) := by after_results_simp
  have h9 : after ops1 V (main_arg9 : DevRef τ sig) = V (main_arg9 : DevRef τ sig) := by after_results_simp
  rw [ops_eq, after_append]
  generalize after ops1 V = W at h0 h7 h14 h21 h8 h9 ⊢
  after_results
  rw [h0, h7, h14, h21, h8, h9]
  rfl

end Stages

end Cert.ReferenceIdeal.RefRun

end
-- ==== Proof.LibTakeFill.lean ====
/-
  Index arithmetic behind a gather that replaces out-of-range rows by a fill value.

  A row index is a 32-bit word `s`.  A negative index counts from the end, so the word is first wrapped (a negative `s` becomes `s + n`), and the
  wrapped word is then tested against the interval `[0, n - 1]`; a row whose wrapped index fails the test is
  replaced by the fill value.  For `-n ≤ s < n` the wrapped index always lies in `[0, n - 1]`, so both tests
  answer one everywhere, their conjunction reduced along a row is one, and the select under that mask returns
  the gathered rows unchanged.
-/
import Idealize.ShloMosaic.PureOps
import Idealize.ShloMosaic.PureOps.Reduce
import Idealize.ShloMosaic.Lib.Affine
import Idealize.ShloMosaic.Lib.ValueIdx

namespace Cert.TakeFill

open Idealize.ShloMosaic

/-- The sum of a word in `[-n, 0)` and the word `n` does not wrap: read signed it is the sum of the two readings. -/
theorem toInt_add_of_neg (n : Int) (hn0 : 0 < n) (hn1 : n < 2 ^ 30) (N s : BitVec 32) (hN : N.toInt = n)
    (hlo : -n ≤ s.toInt) (hneg : s.toInt < 0) : (s + N).toInt = s.toInt + n := by
  rw [BitVec.toInt_add, hN, Int.bmod_eq_of_le_mul_two (by omega) (by omega)]

/-- The wrapped index of a word in `[-n, n)` lies in `[0, n - 1]`, signed, for `0 < n < 2 ^ 30`: a negative word
    moves up by `n` into `[0, n)`, a nonnegative one stays. -/
theorem wrapped_in_range (n : Int) (hn0 : 0 < n) (hn1 : n < 2 ^ 30) (N negN Nm1 : BitVec 32)
    (hN : N.toInt = n) (hnegN : negN.toInt = -n) (hNm1 : Nm1.toInt = n - 1) (s : BitVec 32)
    (hlo : IntOp.cmpi .sge s negN = 1#1) (hhi : IntOp.cmpi .slt s N = 1#1) :
    IntOp.cmpi .sge (Scalar.select (IntOp.cmpi .slt s 0#32) (IntOp.addi s N) s) 0#32 = 1#1
    ∧ IntOp.cmpi .sle (Scalar.select (IntOp.cmpi .slt s 0#32) (IntOp.addi s N) s) Nm1 = 1#1 := by
  rw [IntOp.cmpi_sge, hnegN] at hlo
  rw [IntOp.cmpi_slt, hN] at hhi
  have h0 : (0#32 : BitVec 32).toInt = 0 := by decide
  by_cases hs : s.toInt < 0
  · have hc : IntOp.cmpi .slt s 0#32 = 1#1 := IntOp.cmpi_slt.2 (by rw [h0]; exact hs)
    have hadd : (IntOp.addi s N).toInt = s.toInt + n := toInt_add_of_neg n hn0 hn1 N s hN hlo hs
    rw [hc, ValueIdx.select_one, IntOp.cmpi_sge, IntOp.cmpi_sle, hadd, h0, hNm1]
    constructor <;> omega
  · have hc : ¬ IntOp.cmpi .slt s 0#32 = 1#1 := fun h => hs (by have := IntOp.cmpi_slt.1 h; rwa [h0] at this)
    rw [ValueIdx.eq_zero_of_ne_one hc, ValueIdx.select_zero, IntOp.cmpi_sge, IntOp.cmpi_sle, h0, hNm1]
    constructor <;> omega

/-- A left fold of `and` from one over words that are all one is one. -/
theorem foldl_andi_ones {ι : Type} (f : ι → BitVec 1) (hf : ∀ i, f i = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-- A reduction by `and`, from one, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select whose mask is the conjunction of two tests that answer one everywhere, reduced by `and` and then
    broadcast, returns its first operand: the fill value is never chosen. -/
theorem select_of_tests {sc sr sm u : Shape} {axes : List (Fin sc.rank)} {dims : Fin sr.rank → Fin sm.rank}
    (hb : sr.BroadcastsInDim sm dims) (hr : sc.ReducesTo axes sr) (hu : 0 < u.numel)
    (lo hi : IVec sc 1) (init : u.Idx → BitVec 1) {α : Type} (g fill : sm.Idx → α)
    (hlo : ∀ i, lo i = 1#1) (hhi : ∀ i, hi i = 1#1) (hinit : ∀ k, init k = 1#1) :
    select (broadcastInDim sm dims hb (Host.reduce IntOp.andi (andi lo hi) init hr hu)) g fill = g := by
  funext j
  show Scalar.select (Host.reduce IntOp.andi (andi lo hi) init hr hu _) (g j) (fill j) = g j
  rw [reduce_andi_ones _ _ hr hu (fun i => by
    show IntOp.andi (lo i) (hi i) = 1#1
    rw [hlo, hhi]; decide) hinit]
  exact if_pos rfl

end Cert.TakeFill
-- ==== Proof.RefTake.lean ====
/-
  A bag's sum in the reference, read at an index: under the range hypothesis on the index words the moved word
  is the word itself, the range test answers one, the fill is never chosen, the gather reads the row the word
  names, and the sum over the bag's axis is the sum of the 32 selected rows.
-/
import proofs.«411803_j3152505995829_2_alg».proof.Proof.RefTerm
import proofs.«411803_j3152505995829_2_alg».proof.Proof.Spec
import proofs.«411803_j3152505995829_2_alg».proof.Proof.LibTakeFill
import proofs.«411803_j3152505995829_2_alg».proof.Proof.Consts
import Idealize.ShloMosaic.PureOps.Ideal.Laws
import Idealize.ShloMosaic.Lib.IdealHost
import Idealize.ShloMosaic.Lib.Pipeline.Value

noncomputable section

namespace Cert.ReferenceIdeal.RefTake

open Idealize.ShloMosaic Idealize.ShloMosaic.ValueIdx Cert.ReferenceIdeal

/-! ## A gather of rows of a table of width `d`, read at an index

The table has 20480 rows of width `d`; the start indices are a 65536 x 32 x 1 array of words; result element
`(b, l, j)` is the table at row `w` and column `j`, where `w` is the word at `(b, l, 0)` read signed and clamped into
`[0, 20479]`. -/

section Rows
variable {α : Type}

/-- The dimension numbers of that gather: one offset axis (the last), the row axis collapsed and indexed. -/
abbrev rowDims (d : Nat)
    (wf : GatherDims.WF ⟨2, ![20480, d]⟩ ⟨3, ![65536, 32, 1]⟩ ⟨3, ![65536, 32, d]⟩ [2] [0] [] [0] [] 2 ![1, d]) :
    GatherDims ⟨2, ![20480, d]⟩ ⟨3, ![65536, 32, 1]⟩ ⟨3, ![65536, 32, d]⟩ where
  offsetDims := [2]
  collapsedSliceDims := [0]
  operandBatchingDims := []
  startIndicesBatchingDims := []
  startIndexMap := [0]
  indexVectorDim := 2
  sliceSizes := ![1, d]
  wf := wf

/-- Of the table's two axes the one that is not collapsed is the second; it is the first of the kept axes. -/
theorem idxOf_kept :
    List.idxOf (1 : Fin 2) ((List.finRange 2).filter (· ∉ ([0] ++ [] : List (Fin 2)))) = 0 := by decide

/-- The one offset axis of the result is its last. -/
theorem getElem_single (n : Nat) (hn : n < ([2] : List (Fin 3)).length) (h0 : n = 0) :
    ([2] : List (Fin 3))[n]'hn = 2 := by
  subst h0; rfl

/-- The gather read at `(b, l, j)`: row `min w 20479` of the table, `w` the start word read signed, at column `j`. -/
theorem gather_rows_apply {d w : Nat}
    (wf : GatherDims.WF ⟨2, ![20480, d]⟩ ⟨3, ![65536, 32, 1]⟩ ⟨3, ![65536, 32, d]⟩ [2] [0] [] [0] [] 2 ![1, d])
    (x : (⟨2, ![20480, d]⟩ : Shape).Idx → α) (idx : IVec ⟨3, ![65536, 32, 1]⟩ w)
    (b : Fin 65536) (l : Fin 32) (j : Fin d) :
    Host.gather (rowDims d wf) x idx (ix3 b l j)
      = x (ix2 (⟨min (idx (ix3 b l (0 : Fin 1))).toInt.toNat (20480 - 1), by omega⟩ : Fin 20480) j) := by
  unfold Host.gather
  refine congrArg x (funext fun a => Fin.ext ?_)
  match a with
  | ⟨0, _⟩ =>
    show (rowDims d wf).start (ix3 b l j) idx 0 + (rowDims d wf).batchCoord (ix3 b l j) 0
      + (rowDims d wf).offCoord (ix3 b l j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims d wf).startIndexMap from List.mem_singleton.mpr rfl)]
    have hsi : (rowDims d wf).siIdx (ix3 b l j) ⟨List.idxOf (0 : Fin 2) (rowDims d wf).startIndexMap,
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims d wf).start (ix3 b l j) idx 1 + (rowDims d wf).batchCoord (ix3 b l j) 1
      + (rowDims d wf).offCoord (ix3 b l j) 1 = j.val
    have hs : (rowDims d wf).start (ix3 b l j) idx 1 = 0 := by
      unfold GatherDims.start
      rw [dif_neg (show ¬ (1 : Fin 2) ∈ ([0] : List (Fin 2)) by decide)]
    have hk : (1 : Fin 2) ∈ (rowDims d wf).sKept :=
      (GatherDims.mem_sKept _ _).mpr ⟨show ¬ (1 : Fin 2) ∈ ([0] : List (Fin 2)) by decide, List.not_mem_nil⟩
    have ho : (rowDims d wf).offCoord (ix3 b l j) 1 = j.val := by
      unfold GatherDims.offCoord
      rw [dif_pos hk]
      have hidx : List.idxOf (1 : Fin 2) (rowDims d wf).sKept = 0 := idxOf_kept
      exact congrArg (fun c => (ix3 b l j c).val) (getElem_single _ _ hidx)
    rw [hs, GatherDims.batchCoord_eq_zero _ _ _ List.not_mem_nil, ho]
    omega

end Rows

/-! ## The index words -/

/-- A word below 20480, read signed, is its own number. -/
theorem toInt_of_lt (w : BitVec 32) (h : w.toNat < 20480) : w.toInt = (w.toNat : Int) :=
  BitVec.toInt_eq_toNat_of_lt (by omega)

section Words
variable [Facts]
open Facts₀ Facts

/-- A word below 20480 is not negative, so it is not moved. -/
theorem wrapIdx_apply (idx : IVec S65536x32 32) (i : S65536x32.Idx) (h : (idx i).toNat < 20480) :
    RefTerm.wrapIdx idx i = idx i := by
  show Scalar.select (IntOp.cmpi .slt (idx i) 0#32) (IntOp.addi (idx i) 20480#32) (idx i) = idx i
  have h0 : (0#32 : BitVec 32).toInt = 0 := by decide
  have hc : ¬ IntOp.cmpi .slt (idx i) 0#32 = 1#1 := by
    rw [IntOp.cmpi_slt, toInt_of_lt _ h, h0]; omega
  rw [eq_zero_of_ne_one hc, select_zero]

/-- The trailing unit axis carries the same word. -/
theorem idx3_apply (idx : IVec S65536x32 32) (b : Fin 65536) (l : Fin 32) (u : Fin 1) :
    RefTerm.idx3 idx (ix3 b l u) = RefTerm.wrapIdx idx (ix2 b l) := by
  unfold RefTerm.idx3
  exact broadcastInDim_apply _ _ _ _ (ix2 b l) (fun a => match a with | ⟨0, _⟩ => rfl | ⟨1, _⟩ => rfl)

/-- Under the range hypothesis the word the gather sees is the index word. -/
theorem idx3_eq (idx : IVec S65536x32 32) (h : ∀ i, (idx i).toNat < 20480) (b : Fin 65536) (l : Fin 32) (u : Fin 1) :
    RefTerm.idx3 idx (ix3 b l u) = idx (ix2 b l) := by
  rw [idx3_apply, wrapIdx_apply _ _ (h _)]

/-- The lower range test answers one everywhere. -/
theorem test_lo (idx : IVec S65536x32 32) (h : ∀ i, (idx i).toNat < 20480) (i : S65536x32x1.Idx) :
    cmpi .sge (RefTerm.idx3 idx) (broadcastInDim S65536x32x1 ![] bcast_S_S65536x32x1 (constantI S_ 32 0#32)) i = 1#1 := by
  obtain ⟨b, l, u, rfl⟩ : ∃ (b : Fin 65536) (l : Fin 32) (u : Fin 1), i = ix3 b l u := ⟨_, _, _, eq_ix3 i⟩
  show IntOp.cmpi .sge (RefTerm.idx3 idx (ix3 b l u)) 0#32 = 1#1
  have h0 : (0#32 : BitVec 32).toInt = 0 := by decide
  rw [idx3_eq idx h, IntOp.cmpi_sge, toInt_of_lt _ (h _), h0]
  omega

/-- The upper range test answers one everywhere. -/
theorem test_hi (idx : IVec S65536x32 32) (h : ∀ i, (idx i).toNat < 20480) (i : S65536x32x1.Idx) :
    cmpi .sle (RefTerm.idx3 idx) (broadcastInDim S65536x32x1 ![0, 1, 2] bcast_S1x1x1_S65536x32x1_0_1_2
      (broadcastInDim S1x1x1 ![2] bcast_S1_S1x1x1_2 (constantI S1 32 20479#32))) i = 1#1 := by
  obtain ⟨b, l, u, rfl⟩ : ∃ (b : Fin 65536) (l : Fin 32) (u : Fin 1), i = ix3 b l u := ⟨_, _, _, eq_ix3 i⟩
  show IntOp.cmpi .sle (RefTerm.idx3 idx (ix3 b l u)) 20479#32 = 1#1
  have h1 : (20479#32 : BitVec 32).toInt = 20479 := by decide
  have := h (ix2 b l)
  rw [idx3_eq idx h, IntOp.cmpi_sle, toInt_of_lt _ (h _), h1]
  omega

/-- The gather of rows at the index words, read at an index: the row the word names. -/
theorem rows_apply {d : Nat}
    (wf : GatherDims.WF ⟨2, ![20480, d]⟩ ⟨3, ![65536, 32, 1]⟩ ⟨3, ![65536, 32, d]⟩ [2] [0] [] [0] [] 2 ![1, d])
    (T : (⟨2, ![20480, d]⟩ : Shape).Idx → EReal) (idx : IVec S65536x32 32) (h : ∀ i, (idx i).toNat < 20480)
    (b : Fin 65536) (l : Fin 32) (j : Fin d) :
    Host.gather (rowDims d wf) T (RefTerm.idx3 idx) (ix3 b l j) = T (ix2 (⟨(idx (ix2 b l)).toNat, h _⟩ : Fin 20480) j) := by
  refine (gather_rows_apply wf T (RefTerm.idx3 idx) b l j).trans ?_
  refine congrArg T (congrArg (fun r : Fin 20480 => ix2 r j) (Fin.ext ?_))
  show min (RefTerm.idx3 idx (ix3 b l (0 : Fin 1))).toInt.toNat (20480 - 1) = (idx (ix2 b l)).toNat
  have := h (ix2 b l)
  rw [idx3_eq idx h, toInt_of_lt _ (h _)]
  omega

/-- The take from the table of width 4 is its gather: the fill is never chosen. -/
theorem takeP_eq (T : FVec Ideal S20480x4 .f32) (idx : IVec S65536x32 32) (h : ∀ i, (idx i).toNat < 20480) :
    RefTerm.takeP (F := Ideal) T idx
      = Host.gather gather_S20480x4_S65536x32x1_S65536x32x4_2_0_n_n_0_2_14 T (RefTerm.idx3 idx) := by
  unfold RefTerm.takeP RefTerm.inRange
  exact Cert.TakeFill.select_of_tests _ _ _ _ _ _ _ _ (test_lo idx h) (test_hi idx h) (fun _ => rfl)

/-- The take from the table of width 128 is its gather: the fill is never chosen. -/
theorem takeA_eq (T : FVec Ideal S20480x128 .f32) (idx : IVec S65536x32 32) (h : ∀ i, (idx i).toNat < 20480) :
    RefTerm.takeA (F := Ideal) T idx
      = Host.gather gather_S20480x128_S65536x32x1_S65536x32x128_2_0_n_n_0_2_1128 T (RefTerm.idx3 idx) := by
  unfold RefTerm.takeA RefTerm.inRange
  exact Cert.TakeFill.select_of_tests _ _ _ _ _ _ _ _ (test_lo idx h) (test_hi idx h) (fun _ => rfl)

/-- The reshaped index array reads word `32 b + l`. -/
theorem cast_apply (cols : IVec S2097152 32) (b : Fin 65536) (l : Fin 32) :
    shapeCast S65536x32 cols shapeCasts_S2097152_S65536x32 (ix2 b l) = Cert.Spec.word cols b l := by
  refine shapeCast_apply cols shapeCasts_S2097152_S65536x32 (ix2 b l) (ix1 (Cert.Spec.pos b l)) ?_
  rw [Shape.rowMajor_val_one, Shape.rowMajor_val_two]
  show b.val * 32 + l.val = b.val * 32 + l.val
  rfl

/-- The reshaped index array keeps the range hypothesis. -/
theorem cast_lt (cols : IVec S2097152 32) (h : ∀ i, (cols i).toNat < 20480) (i : S65536x32.Idx) :
    (shapeCast S65536x32 cols shapeCasts_S2097152_S65536x32 i).toNat < 20480 := h _

/-- The sum of the 32 rows the reshaped words name is the bag's sum. -/
theorem sum_rows {d : Nat} (T : Cert.Spec.Tab d) (cols : IVec S2097152 32) (h : ∀ i, (cols i).toNat < 20480)
    (b : Fin 65536) (j : Fin d) :
    (0 : EReal) + ∑ l : Fin 32, T (ix2 (⟨(shapeCast S65536x32 cols shapeCasts_S2097152_S65536x32 (ix2 b l)).toNat,
        cast_lt cols h _⟩ : Fin 20480) j) = Cert.Spec.bag T cols b j := by
  rw [zero_add]
  refine Finset.sum_congr rfl (fun l _ => ?_)
  refine congrArg T (congrArg (fun r : Fin 20480 => ix2 r j) (Fin.ext ?_))
  show (shapeCast S65536x32 cols shapeCasts_S2097152_S65536x32 (ix2 b l)).toNat = (Cert.Spec.word cols b l).toNat % 20480
  rw [cast_apply]
  exact (Nat.mod_eq_of_lt (h _)).symm

/-- The bag sums over the table of width 4, index by index. -/
theorem bagP_apply (T : FVec Ideal S20480x4 .f32) (cols : IVec S2097152 32) (h : ∀ i, (cols i).toNat < 20480)
    (b : Fin 65536) (j : Fin 4) :
    RefTerm.bagP (F := Ideal) T cols (ix2 b j) = Cert.Spec.bag T cols b j := by
  have hR : S65536x32x4.Reduces [1] S65536x4 := by decide
  show Ideal.hostReduceAdd reducesTo_S65536x32x4_S65536x4_d1
    (RefTerm.takeP (F := Ideal) T (shapeCast S65536x32 cols shapeCasts_S2097152_S65536x32))
    (Ideal.ofBits .f32 0x00000000#32) (ix2 b j) = _
  rw [Ideal.hostReduceAdd_single _ hR, Cert.Consts.ofBits_zero]
  refine Eq.trans ?_ (sum_rows T cols h b j)
  refine congrArg (fun s : EReal => (0 : EReal) + s) ?_
  show ∑ l : Fin 32, RefTerm.takeP (F := Ideal) T (shapeCast S65536x32 cols shapeCasts_S2097152_S65536x32)
    (hR.lift (ix2 b j) l) = _
  refine Finset.sum_congr rfl (fun l _ => ?_)
  have hl : hR.lift (ix2 b j) l = ix3 b l j := by
    funext c; refine Fin.ext ?_
    match c with
    | ⟨0, _⟩ => rfl
    | ⟨1, _⟩ => rfl
    | ⟨2, _⟩ => rfl
  rw [hl, takeP_eq T _ (cast_lt cols h)]
  exact rows_apply gather_S20480x4_S65536x32x1_S65536x32x4_2_0_n_n_0_2_14_wf T _ (cast_lt cols h) b l j

/-- The bag sums over the table of width 128, index by index. -/
theorem bagA_apply (T : FVec Ideal S20480x128 .f32) (cols : IVec S2097152 32) (h : ∀ i, (cols i).toNat < 20480)
    (b : Fin 65536) (d : Fin 128) :
    RefTerm.bagA (F := Ideal) T cols (ix2 b d) = Cert.Spec.bag T cols b d := by
  have hR : S65536x32x128.Reduces [1] S65536x128 := by decide
  show Ideal.hostReduceAdd reducesTo_S65536x32x128_S65536x128_d1
    (RefTerm.takeA (F := Ideal) T (shapeCast S65536x32 cols shapeCasts_S2097152_S65536x32))
    (Ideal.ofBits .f32 0x00000000#32) (ix2 b d) = _
  rw [Ideal.hostReduceAdd_single _ hR, Cert.Consts.ofBits_zero]
  refine Eq.trans ?_ (sum_rows T cols h b d)
  refine congrArg (fun s : EReal => (0 : EReal) + s) ?_
  show ∑ l : Fin 32, RefTerm.takeA (F := Ideal) T (shapeCast S65536x32 cols shapeCasts_S2097152_S65536x32)
    (hR.lift (ix2 b d) l) = _
  refine Finset.sum_congr rfl (fun l _ => ?_)
  have hl : hR.lift (ix2 b d) l = ix3 b l d := by
    funext c; refine Fin.ext ?_
    match c with
    | ⟨0, _⟩ => rfl
    | ⟨1, _⟩ => rfl
    | ⟨2, _⟩ => rfl
  rw [hl, takeA_eq T _ (cast_lt cols h)]
  exact rows_apply gather_S20480x128_S65536x32x1_S65536x32x128_2_0_n_n_0_2_1128_wf T _ (cast_lt cols h) b l d

end Words

end Cert.ReferenceIdeal.RefTake

end
-- ==== Proof.RefValue.lean ====
/-
  The reference's result, read at an index, is the specification's function.

  Index by index: a broadcast reads its operand at the coordinates it keeps; the concatenation of two arrays of
  128 columns reads the first below column 128 and the second from there on; the transposed layer weights read
  the weights with the coordinates exchanged; the product with them is the sum over the 256 contracted columns;
  the float words of 0 and 1 are the numbers 0 and 1; and the two bag sums are the specification's bag sums.
-/
import proofs.«411803_j3152505995829_2_alg».proof.Proof.RefTake
import proofs.«411803_j3152505995829_2_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefValue

open Idealize.ShloMosaic Idealize.ShloMosaic.ValueIdx Cert.ReferenceIdeal

variable [Facts]
open Facts₀ Facts

section Layout
variable {α : Type}

/-- A scalar broadcast to 65536 x 1 reads the scalar everywhere. -/
theorem bcast_scalar_col (x : S_.Idx → α) (i : S65536x1.Idx) :
    broadcastInDim S65536x1 ![] bcast_S_S65536x1 x i = x ix0 := by
  unfold broadcastInDim; exact congrArg x (funext fun a => a.elim0)

/-- A scalar broadcast to 65536 x 128 reads the scalar everywhere. -/
theorem bcast_scalar_acc (x : S_.Idx → α) (i : S65536x128.Idx) :
    broadcastInDim S65536x128 ![] bcast_S_S65536x128 x i = x ix0 := by
  unfold broadcastInDim; exact congrArg x (funext fun a => a.elim0)

/-- A vector of 65536 entries as a column: row `b` reads entry `b`. -/
theorem bcast_col (x : S65536.Idx → α) (b : Fin 65536) (q : Fin 1) :
    broadcastInDim S65536x1 ![0] bcast_S65536_S65536x1_0 x (ix2 b q) = x (ix1 b) :=
  broadcastInDim_apply ![0] bcast_S65536_S65536x1_0 x (ix2 b q) (ix1 b) fun a => by
    match a with
    | ⟨0, _⟩ => show b.val = if (65536 : ℕ) = 1 then 0 else b.val; rw [if_neg (by norm_num)]

/-- A column laid along 256 columns: row `b`, column `k` reads the column's row `b`. -/
theorem bcast_row256 (x : S65536x1.Idx → α) (b : Fin 65536) (k : Fin 256) :
    broadcastInDim S65536x256 ![0, 1] bcast_S65536x1_S65536x256_0_1 x (ix2 b k) = x (ix2 b 0) :=
  broadcastInDim_apply ![0, 1] bcast_S65536x1_S65536x256_0_1 x (ix2 b k) (ix2 b 0) fun a => by
    match a with
    | ⟨0, _⟩ => show b.val = if (65536 : ℕ) = 1 then 0 else b.val; rw [if_neg (by norm_num)]
    | ⟨1, _⟩ => show (0 : ℕ) = if (1 : ℕ) = 1 then 0 else k.val; rw [if_pos rfl]

/-- A column laid along 4 columns: row `b`, column `j` reads the column's row `b`. -/
theorem bcast_row4 (x : S65536x1.Idx → α) (b : Fin 65536) (j : Fin 4) :
    broadcastInDim S65536x4 ![0, 1] bcast_S65536x1_S65536x4_0_1 x (ix2 b j) = x (ix2 b 0) :=
  broadcastInDim_apply ![0, 1] bcast_S65536x1_S65536x4_0_1 x (ix2 b j) (ix2 b 0) fun a => by
    match a with
    | ⟨0, _⟩ => show b.val = if (65536 : ℕ) = 1 then 0 else b.val; rw [if_neg (by norm_num)]
    | ⟨1, _⟩ => show (0 : ℕ) = if (1 : ℕ) = 1 then 0 else j.val; rw [if_pos rfl]

/-- The bias laid along every row: row `b`, column `d` reads bias entry `d`. -/
theorem bcast_bias (x : S128.Idx → α) (b : Fin 65536) (d : Fin 128) :
    broadcastInDim S65536x128 ![0, 1] bcast_S1x128_S65536x128_0_1
      (broadcastInDim S1x128 ![1] bcast_S128_S1x128_1 x) (ix2 b d) = x (ix1 d) := by
  have e1 := broadcastInDim_apply ![0, 1] bcast_S1x128_S65536x128_0_1
    (broadcastInDim S1x128 ![1] bcast_S128_S1x128_1 x) (ix2 b d) (ix2 (0 : Fin 1) d) (fun a => by
      match a with
      | ⟨0, _⟩ => show (0 : ℕ) = if (1 : ℕ) = 1 then 0 else b.val; rw [if_pos rfl]
      | ⟨1, _⟩ => show d.val = if (128 : ℕ) = 1 then 0 else d.val; rw [if_neg (by norm_num)])
  have e2 := broadcastInDim_apply ![1] bcast_S128_S1x128_1 x (ix2 (0 : Fin 1) d) (ix1 d) (fun a => by
      match a with
      | ⟨0, _⟩ => show d.val = if (128 : ℕ) = 1 then 0 else d.val; rw [if_neg (by norm_num)])
  exact e1.trans e2

/-- The layer bias laid along every row: row `b`, column `j` reads bias entry `j`. -/
theorem bcast_layer_bias (x : S4.Idx → α) (b : Fin 65536) (j : Fin 4) :
    broadcastInDim S65536x4 ![0, 1] bcast_S1x4_S65536x4_0_1
      (broadcastInDim S1x4 ![1] bcast_S4_S1x4_1 x) (ix2 b j) = x (ix1 j) := by
  have e1 := broadcastInDim_apply ![0, 1] bcast_S1x4_S65536x4_0_1
    (broadcastInDim S1x4 ![1] bcast_S4_S1x4_1 x) (ix2 b j) (ix2 (0 : Fin 1) j) (fun a => by
      match a with
      | ⟨0, _⟩ => show (0 : ℕ) = if (1 : ℕ) = 1 then 0 else b.val; rw [if_pos rfl]
      | ⟨1, _⟩ => show j.val = if (4 : ℕ) = 1 then 0 else j.val; rw [if_neg (by norm_num)])
  have e2 := broadcastInDim_apply ![1] bcast_S4_S1x4_1 x (ix2 (0 : Fin 1) j) (ix1 j) (fun a => by
      match a with
      | ⟨0, _⟩ => show j.val = if (4 : ℕ) = 1 then 0 else j.val; rw [if_neg (by norm_num)])
  exact e1.trans e2

/-- Two arrays of 128 columns side by side: a column below 128 reads the first array, a column from 128 on reads
    the second, 128 columns to the left. -/
theorem cat_apply (x y : S65536x128.Idx → α) (b : Fin 65536) (k : Fin 256) :
    concatenate S65536x256 1 [⟨S65536x128, x⟩, ⟨S65536x128, y⟩] concatenates_S65536x128_S65536x128_S65536x256_d1 (ix2 b k)
      = if h : k.val < 128 then x (ix2 b ⟨k.val, h⟩) else y (ix2 b ⟨k.val - 128, by omega⟩) := by
  split
  · next h =>
    exact concatenate_pair_apply_left 1 x y concatenates_S65536x128_S65536x128_S65536x256_d1 (ix2 b k) rfl
      (ix2 b ⟨k.val, h⟩) fun c => by
        match c with
        | ⟨0, _⟩ => rfl
        | ⟨1, _⟩ => rfl
  · next h =>
    exact concatenate_pair_apply_right 1 x y concatenates_S65536x128_S65536x128_S65536x256_d1 (ix2 b k) rfl rfl
      (ix2 b ⟨k.val - 128, by omega⟩)
      (fun c hc => by
        match c with
        | ⟨0, _⟩ => rfl
        | ⟨1, _⟩ => exact absurd rfl hc)
      (by show (k.val - 128) + 128 = k.val; omega)

/-- The transposed layer weights: row `k`, column `j` reads the weights at row `j`, column `k`. -/
theorem transpose_apply_w (x : S4x256.Idx → α) (k : Fin 256) (j : Fin 4) :
    transpose S256x4 [1, 0] x transposes_S4x256_S256x4_1_0 (ix2 k j) = x (ix2 j k) :=
  transpose_ix2_apply x transposes_S4x256_S256x4_1_0 k j

end Layout

/-- The product with the transposed layer weights, read at an index: the sum over the 256 contracted columns. -/
theorem dot_apply (A : FVec Ideal S65536x256 .f32) (B : FVec Ideal S256x4 .f32) (b : Fin 65536) (j : Fin 4) :
    Host.dotGeneral (F := Ideal) dot_S65536x256_S256x4_S65536x4_1_0_0_1_n_n none A B (ix2 b j)
      = ∑ k : Fin 256, A (ix2 b k) * B (ix2 k j) := by
  show FloatOps.dotGeneral _ none _ A B (ix2 b j) = _
  rw [Ideal.dotGeneral_apply,
    ← Equiv.sum_comp (contrEquiv1 dot_S65536x256_S256x4_S65536x4_1_0_0_1_n_n 256 rfl rfl).symm]
  refine Finset.sum_congr rfl fun c _ => ?_
  have c2 := contrEquiv1_symm_val dot_S65536x256_S256x4_S65536x4_1_0_0_1_n_n 256 rfl rfl c
  have l2 : dot_S65536x256_S256x4_S65536x4_1_0_0_1_n_n.lhsIdx (ix2 b j) ((contrEquiv1 _ 256 rfl rfl).symm c) = ix2 b c := by
    funext ax; apply Fin.ext
    match ax with
    | ⟨0, _⟩ => simp [DotDims.lhsIdx, dot_S65536x256_S256x4_S65536x4_1_0_0_1_n_n]; rfl
    | ⟨1, _⟩ => simp [DotDims.lhsIdx, dot_S65536x256_S256x4_S65536x4_1_0_0_1_n_n]; exact c2
  have r2 : dot_S65536x256_S256x4_S65536x4_1_0_0_1_n_n.rhsIdx (ix2 b j) ((contrEquiv1 _ 256 rfl rfl).symm c) = ix2 c j := by
    funext ax; apply Fin.ext
    match ax with
    | ⟨0, _⟩ => simp [DotDims.rhsIdx, dot_S65536x256_S256x4_S65536x4_1_0_0_1_n_n]; exact c2
    | ⟨1, _⟩ => simp [DotDims.rhsIdx, dot_S65536x256_S256x4_S65536x4_1_0_0_1_n_n]; rfl
  rw [l2, r2]

/-- The host's negation, read at an index. -/
theorem hostNegf_apply (x : FVec Ideal S65536x4 .f32) (i : S65536x4.Idx) : Host.negf (F := Ideal) x i = -(x i) := rfl

/-- A bag's clipped accumulator row, read at an index. -/
theorem accv_apply (T : FVec Ideal S20480x128 .f32) (cols : IVec S2097152 32) (bias : FVec Ideal S128 .f32)
    (h : ∀ i, (cols i).toNat < 20480) (b : Fin 65536) (d : Fin 128) :
    RefTerm.accv (F := Ideal) T cols bias (ix2 b d) = Cert.Spec.clip01 (Cert.Spec.bag T cols b d + bias (ix1 d)) := by
  unfold RefTerm.accv RefTerm.clipv Cert.Spec.clip01
  rw [minimumf_apply, maximumf_apply, addf_apply, bcast_scalar_acc, bcast_scalar_acc, bcast_bias,
    RefTake.bagA_apply T cols h]
  show min (Ideal.ofBits .f32 0x3F800000#32) (max (Ideal.ofBits .f32 0x00000000#32) _) = _
  rw [Cert.Consts.ofBits_one, Cert.Consts.ofBits_zero]

/-! ## The reference's last lines, piece by piece -/

/-- `s` as a column. -/
def sCol (a4 : FVec Ideal S65536 .f32) : FVec Ideal S65536x1 .f32 :=
  broadcastInDim S65536x1 ![0] bcast_S65536_S65536x1_0 a4

/-- `1 - s` as a column. -/
def oneSubS (a4 : FVec Ideal S65536 .f32) : FVec Ideal S65536x1 .f32 :=
  subf (broadcastInDim S65536x1 ![] bcast_S_S65536x1 (constant (F := Ideal) S_ .f32 0x3F800000#32)) (sCol a4)

theorem sCol_apply (a4 : FVec Ideal S65536 .f32) (b : Fin 65536) (q : Fin 1) : sCol a4 (ix2 b q) = a4 (ix1 b) :=
  bcast_col a4 b q

theorem oneSubS_apply (a4 : FVec Ideal S65536 .f32) (b : Fin 65536) (q : Fin 1) :
    oneSubS a4 (ix2 b q) = 1 - a4 (ix1 b) := by
  unfold oneSubS
  rw [subf_apply, bcast_scalar_col, constant_apply, Cert.Consts.ofBits_one, sCol_apply]

/-- The two concatenated accumulators blended by `s`. -/
def blendRef (a1 a3 : IVec S2097152 32) (a4 : FVec Ideal S65536 .f32) (a6 : FVec Ideal S20480x128 .f32)
    (a7 : FVec Ideal S128 .f32) : FVec Ideal S65536x256 .f32 :=
  addf
    (mulf (broadcastInDim S65536x256 ![0, 1] bcast_S65536x1_S65536x256_0_1 (oneSubS a4))
      (concatenate S65536x256 1 [⟨S65536x128, RefTerm.accv (F := Ideal) a6 a1 a7⟩, ⟨S65536x128, RefTerm.accv (F := Ideal) a6 a3 a7⟩]
        concatenates_S65536x128_S65536x128_S65536x256_d1))
    (mulf (broadcastInDim S65536x256 ![0, 1] bcast_S65536x1_S65536x256_0_1 (sCol a4))
      (concatenate S65536x256 1 [⟨S65536x128, RefTerm.accv (F := Ideal) a6 a3 a7⟩, ⟨S65536x128, RefTerm.accv (F := Ideal) a6 a1 a7⟩]
        concatenates_S65536x128_S65536x128_S65536x256_d1))

theorem blendRef_apply (a1 a3 : IVec S2097152 32) (a4 : FVec Ideal S65536 .f32) (a6 : FVec Ideal S20480x128 .f32)
    (a7 : FVec Ideal S128 .f32) (h1 : ∀ i, (a1 i).toNat < 20480) (h3 : ∀ i, (a3 i).toNat < 20480)
    (b : Fin 65536) (k : Fin 256) :
    blendRef a1 a3 a4 a6 a7 (ix2 b k) = Cert.Spec.blended a1 a3 a4 a6 a7 b k := by
  unfold blendRef Cert.Spec.blended Cert.Spec.wacc Cert.Spec.bacc Cert.Spec.white Cert.Spec.black
  rw [addf_apply, mulf_apply, mulf_apply, bcast_row256, bcast_row256, oneSubS_apply, sCol_apply, cat_apply, cat_apply]
  by_cases h : k.val < 128
  · rw [dif_pos h, dif_pos h, dif_pos h, dif_pos h, accv_apply a6 a1 a7 h1, accv_apply a6 a3 a7 h3]
  · rw [dif_neg h, dif_neg h, dif_neg h, dif_neg h, accv_apply a6 a1 a7 h1, accv_apply a6 a3 a7 h3]

/-- The product with the transposed layer weights, plus the layer bias. -/
def posRef (a1 a3 : IVec S2097152 32) (a4 : FVec Ideal S65536 .f32) (a6 : FVec Ideal S20480x128 .f32)
    (a7 : FVec Ideal S128 .f32) (a8 : FVec Ideal S4x256 .f32) (a9 : FVec Ideal S4 .f32) : FVec Ideal S65536x4 .f32 :=
  addf
    (Host.dotGeneral (F := Ideal) dot_S65536x256_S256x4_S65536x4_1_0_0_1_n_n none (blendRef a1 a3 a4 a6 a7)
      (transpose S256x4 [1, 0] a8 transposes_S4x256_S256x4_1_0))
    (broadcastInDim S65536x4 ![0, 1] bcast_S1x4_S65536x4_0_1 (broadcastInDim S1x4 ![1] bcast_S4_S1x4_1 a9))

theorem posRef_apply (a1 a3 : IVec S2097152 32) (a4 : FVec Ideal S65536 .f32) (a6 : FVec Ideal S20480x128 .f32)
    (a7 : FVec Ideal S128 .f32) (a8 : FVec Ideal S4x256 .f32) (a9 : FVec Ideal S4 .f32)
    (h1 : ∀ i, (a1 i).toNat < 20480) (h3 : ∀ i, (a3 i).toNat < 20480) (b : Fin 65536) (j : Fin 4) :
    posRef a1 a3 a4 a6 a7 a8 a9 (ix2 b j) = Cert.Spec.positional a1 a3 a4 a6 a7 a8 a9 b j := by
  unfold posRef Cert.Spec.positional
  rw [addf_apply, dot_apply, bcast_layer_bias]
  congr 1
  refine Finset.sum_congr rfl fun k _ => ?_
  rw [blendRef_apply a1 a3 a4 a6 a7 h1 h3, transpose_apply_w]

/-- The reference's result, its pieces named. -/
theorem refOut_pieces (a1 a3 : IVec S2097152 32) (a4 : FVec Ideal S65536 .f32) (a5 : FVec Ideal S20480x4 .f32)
    (a6 : FVec Ideal S20480x128 .f32) (a7 : FVec Ideal S128 .f32) (a8 : FVec Ideal S4x256 .f32) (a9 : FVec Ideal S4 .f32) :
    RefTerm.refOut (F := Ideal) a1 a3 a4 a5 a6 a7 a8 a9
      = addf (subf (RefTerm.bagP (F := Ideal) a5 a1) (RefTerm.bagP (F := Ideal) a5 a3))
          (addf
            (mulf (broadcastInDim S65536x4 ![0, 1] bcast_S65536x1_S65536x4_0_1 (oneSubS a4)) (posRef a1 a3 a4 a6 a7 a8 a9))
            (mulf (broadcastInDim S65536x4 ![0, 1] bcast_S65536x1_S65536x4_0_1 (sCol a4))
              (Host.negf (F := Ideal) (posRef a1 a3 a4 a6 a7 a8 a9)))) := rfl

/-- The reference's result is the specification's function of its argument arrays. -/
theorem refOut_eq (a1 a3 : IVec S2097152 32) (a4 : FVec Ideal S65536 .f32) (a5 : FVec Ideal S20480x4 .f32)
    (a6 : FVec Ideal S20480x128 .f32) (a7 : FVec Ideal S128 .f32) (a8 : FVec Ideal S4x256 .f32) (a9 : FVec Ideal S4 .f32)
    (h1 : ∀ i, (a1 i).toNat < 20480) (h3 : ∀ i, (a3 i).toNat < 20480) :
    RefTerm.refOut (F := Ideal) a1 a3 a4 a5 a6 a7 a8 a9 = Cert.Spec.out a1 a3 a4 a5 a6 a7 a8 a9 := by
  funext i
  obtain ⟨b, j, rfl⟩ : ∃ (b : Fin 65536) (j : Fin 4), i = ix2 b j := ⟨i 0, i 1, eq_ix2 i⟩
  rw [refOut_pieces]
  show _ = Cert.Spec.outRef a1 a3 a4 a5 a6 a7 a8 a9 b j
  unfold Cert.Spec.outRef Cert.Spec.psqt
  rw [addf_apply, subf_apply, addf_apply, mulf_apply, mulf_apply, hostNegf_apply, bcast_row4, bcast_row4,
    oneSubS_apply, sCol_apply, posRef_apply a1 a3 a4 a6 a7 a8 a9 h1 h3,
    RefTake.bagP_apply a5 a1 h1, RefTake.bagP_apply a5 a3 h3]

end Cert.ReferenceIdeal.RefValue

end
-- ==== Proof.lean ====
/-
  The certificate's claims.

  Both programs compute, for each of 65536 positions, four numbers from two bags of 32 feature indices: the psqt
  difference of the two bags' sums, plus a signed positional term — a small linear layer applied to the blend, by
  the side-to-move flag `s`, of the two bags' clipped accumulator rows (the function is `Cert.Spec.out`).  The kernel
  computes a bag's sum as a count matrix times the table, 1024 features at a time, and spells the sign
  `(1 - 2 s)`; the reference gathers the 32 rows and adds them, and spells it `(1 - s) p + s (-p)`.  Under the
  precondition — finite float inputs, index words in [0, 20480) — the two agree index by index: a word in range
  selects exactly one feature, so the count matrix times the table is the sum of the selected rows, and the two
  spellings of the sign agree on real numbers.
-/
import proofs.«411803_j3152505995829_2_alg».proof.Defs
import proofs.«411803_j3152505995829_2_alg».proof.Proof.Gen.Kernel
import proofs.«411803_j3152505995829_2_alg».proof.Proof.Gen.Kernel.Skeleton
import proofs.«411803_j3152505995829_2_alg».proof.Proof.Gen.Kernel.Loops
import proofs.«411803_j3152505995829_2_alg».proof.Proof.Gen.Kernel.Launch
import proofs.«411803_j3152505995829_2_alg».proof.Proof.Gen.Kernel.Points
import proofs.«411803_j3152505995829_2_alg».proof.Proof.Gen.Kernel.Frame
import proofs.«411803_j3152505995829_2_alg».proof.Proof.Gen.KernelIdeal
import proofs.«411803_j3152505995829_2_alg».proof.Proof.Gen.KernelIdeal.Skeleton
import proofs.«411803_j3152505995829_2_alg».proof.Proof.Gen.KernelIdeal.Loops
import proofs.«411803_j3152505995829_2_alg».proof.Proof.Gen.KernelIdeal.Launch
import proofs.«411803_j3152505995829_2_alg».proof.Proof.Gen.KernelIdeal.Points
import proofs.«411803_j3152505995829_2_alg».proof.Proof.Gen.KernelIdeal.Frame
import proofs.«411803_j3152505995829_2_alg».proof.Proof.Gen.KernelIdeal.Value
import proofs.«411803_j3152505995829_2_alg».proof.Proof.Gen.ReferenceIdeal
import proofs.«411803_j3152505995829_2_alg».proof.Proof.Gen.Pre_finite_inputs
import proofs.«411803_j3152505995829_2_alg».proof.Proof.KArray
import proofs.«411803_j3152505995829_2_alg».proof.Proof.PreDecode
import proofs.«411803_j3152505995829_2_alg».proof.Proof.RefRun
import proofs.«411803_j3152505995829_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of array operations: it runs, and no operation writes an argument. -/
theorem frame_ri : Cert.frame_ReferenceIdeal := fun m ρ _ =>
  (θ_run Cert.ReferenceIdeal.defs _ _).mono (fun r hr c =>
    ⟨by rw [hr c, Cert.ReferenceIdeal.RefRun.arg0_eq, Cert.ReferenceIdeal.RefRun.launch_arg],
     by rw [hr c, Cert.ReferenceIdeal.RefRun.arg1_eq, Cert.ReferenceIdeal.RefRun.launch_arg],
     by rw [hr c, Cert.ReferenceIdeal.RefRun.arg2_eq, Cert.ReferenceIdeal.RefRun.launch_arg],
     by rw [hr c, Cert.ReferenceIdeal.RefRun.arg3_eq, Cert.ReferenceIdeal.RefRun.launch_arg],
     by rw [hr c, Cert.ReferenceIdeal.RefRun.arg4_eq, Cert.ReferenceIdeal.RefRun.launch_arg],
     by rw [hr c, Cert.ReferenceIdeal.RefRun.arg5_eq, Cert.ReferenceIdeal.RefRun.launch_arg],
     by rw [hr c, Cert.ReferenceIdeal.RefRun.arg6_eq, Cert.ReferenceIdeal.RefRun.launch_arg],
     by rw [hr c, Cert.ReferenceIdeal.RefRun.arg7_eq, Cert.ReferenceIdeal.RefRun.launch_arg],
     by rw [hr c, Cert.ReferenceIdeal.RefRun.arg8_eq, Cert.ReferenceIdeal.RefRun.launch_arg],
     by rw [hr c, Cert.ReferenceIdeal.RefRun.arg9_eq, Cert.ReferenceIdeal.RefRun.launch_arg]⟩)
    (Cert.ReferenceIdeal.RefRun.run_main (F := Ideal) m ρ)

/-- The ideal pass rewrote nothing: the idealized kernel is the kernel's own text read at the ideal instance. -/
theorem preserves : Cert.preserves_Kernel_KernelIdeal := trivial

/-- The idealized kernel's run, its result array at the specification's function: the blocks the 256 grid points
    write tile the array, each block is the function's restriction, and the kernel's spelling of the last line is
    the reference's on real numbers. -/
theorem run_k (m : (ℓ : Loc Cert.KernelIdeal.nD Cert.KernelIdeal.τ Cert.KernelIdeal.sig) → Buf (Elt Ideal) ℓ)
    (ρ : Dev Cert.KernelIdeal.nD → PrngReg) (h : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8) = Cert.Spec.out (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) := by
  have hd := fun c => Cert.PreDecode.decode _ _ _ _ _ _ _ _ _ _ (h c)
  refine (θ_run _ _ _).mono (fun r hr c => ⟨(hr c).1.trans ?_, (hr c).2⟩)
    (Cert.KernelIdeal.KArray.run m ρ (fun c => (hd c).1) (fun c => (hd c).2.1))
  funext i
  exact Cert.Spec.outKer_eq_outRef _ _ _ _ _ _ _ _ (fun i => (hd c).2.2.1 i) (fun i => (hd c).2.2.2.2.2.2.1 i) (fun i => (hd c).2.2.2.2.2.2.2 i) (i 0) (i 1)

/-- From memories that agree on the arguments both idealized programs end with the specification's array. -/
theorem algebraic : Cert.algebraic_KernelIdeal_ReferenceIdeal := by
  intro m ρ m' ρ' hpre hagree
  have hd := fun c => Cert.PreDecode.decode _ _ _ _ _ _ _ _ _ _ (hpre c)
  refine ⟨fun c => Cert.Spec.out (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), run_k m ρ hpre, ?_⟩
  refine (θ_run Cert.ReferenceIdeal.defs _ _).mono (fun r hr c => ?_) (Cert.ReferenceIdeal.RefRun.run_main (F := Ideal) m' ρ')
  obtain ⟨e0, e1, e2, e3, e4, e5, e6, e7, e8, e9⟩ := hagree c
  refine ⟨?_,
    by rw [hr c, Cert.ReferenceIdeal.RefRun.arg0_eq, Cert.ReferenceIdeal.RefRun.launch_arg],
    by rw [hr c, Cert.ReferenceIdeal.RefRun.arg1_eq, Cert.ReferenceIdeal.RefRun.launch_arg],
    by rw [hr c, Cert.ReferenceIdeal.RefRun.arg2_eq, Cert.ReferenceIdeal.RefRun.launch_arg],
    by rw [hr c, Cert.ReferenceIdeal.RefRun.arg3_eq, Cert.ReferenceIdeal.RefRun.launch_arg],
    by rw [hr c, Cert.ReferenceIdeal.RefRun.arg4_eq, Cert.ReferenceIdeal.RefRun.launch_arg],
    by rw [hr c, Cert.ReferenceIdeal.RefRun.arg5_eq, Cert.ReferenceIdeal.RefRun.launch_arg],
    by rw [hr c, Cert.ReferenceIdeal.RefRun.arg6_eq, Cert.ReferenceIdeal.RefRun.launch_arg],
    by rw [hr c, Cert.ReferenceIdeal.RefRun.arg7_eq, Cert.ReferenceIdeal.RefRun.launch_arg],
    by rw [hr c, Cert.ReferenceIdeal.RefRun.arg8_eq, Cert.ReferenceIdeal.RefRun.launch_arg],
    by rw [hr c, Cert.ReferenceIdeal.RefRun.arg9_eq, Cert.ReferenceIdeal.RefRun.launch_arg]⟩
  rw [hr c, Cert.ReferenceIdeal.RefRun.out_eq]
  show Cert.ReferenceIdeal.RefTerm.refOut (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
  rw [e1, e3, e4, e5, e6, e7, e8, e9]
  exact Cert.ReferenceIdeal.RefValue.refOut_eq _ _ _ _ _ _ _ _ (hd c).1 (hd c).2.1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
